-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100x128 : Shape := ⟨2, ![100, 128]⟩
abbrev S500x128 : Shape := ⟨2, ![500, 128]⟩
abbrev S100000x64 : Shape := ⟨2, ![100000, 64]⟩
abbrev S100000x384 : Shape := ⟨2, ![100000, 384]⟩
abbrev S100000 : Shape := ⟨1, ![100000]⟩
abbrev S2000000 : Shape := ⟨1, ![2000000]⟩
abbrev S384x64 : Shape := ⟨2, ![384, 64]⟩
abbrev S64 : Shape := ⟨1, ![64]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S192x128 : Shape := ⟨2, ![192, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S500x128 : S_.BroadcastsInDim S500x128 (![] : Fin 0 → Fin S500x128.rank)
  reducesTo_S500x128_S_d0_1 : S500x128.ReducesTo [0, 1] S_
  bcast_S_S100000x64 : S_.BroadcastsInDim S100000x64 (![] : Fin 0 → Fin S100000x64.rank)
  reducesTo_S100000x64_S_d0_1 : S100000x64.ReducesTo [0, 1] S_
  bcast_S_S100000x384 : S_.BroadcastsInDim S100000x384 (![] : Fin 0 → Fin S100000x384.rank)
  reducesTo_S100000x384_S_d0_1 : S100000x384.ReducesTo [0, 1] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S192x128 : S_.BroadcastsInDim S192x128 (![] : Fin 0 → Fin S192x128.rank)
  reducesTo_S192x128_S_d0_1 : S192x128.ReducesTo [0, 1] S_
  bcast_S_S100000 : S_.BroadcastsInDim S100000 (![] : Fin 0 → Fin S100000.rank)
  reducesTo_S100000_S_d0 : S100000.ReducesTo [0] S_

variable [Facts]

def fn_part6 {F : FTy → Type} [FloatOps F] (main_arg6 : IVec S100000 32) (main_arg7 : IVec S100000 32) (main_v98 : IVec S_ 1) (main_v100 : IVec S100000 1) (main_v101 : IVec S100000 32) : IVec S_ 1 :=
  let main_v102 : IVec S100000 1 := cmpi .slt main_arg6 main_v101
  let main_v103 : IVec S100000 1 := andi main_v100 main_v102
  let main_c_40 : IVec S_ 1 := constantI S_ 1 1#1
  let main_v104 : IVec S_ 1 := (fun x v => Host.reduce IntOp.andi x v reducesTo_S100000_S_d0 h_S_) main_v103 main_c_40
  let main_v105 : IVec S_ 1 := andi main_v98 main_v104
  let main_c_41 : IVec S_ 32 := constantI S_ 32 0#32
  let main_v106 : IVec S100000 32 := broadcastInDim S100000 ![] bcast_S_S100000 main_c_41
  let main_v107 : IVec S100000 1 := cmpi .sge main_arg7 main_v106
  let main_c_42 : IVec S_ 32 := constantI S_ 32 500#32
  let main_v108 : IVec S100000 32 := broadcastInDim S100000 ![] bcast_S_S100000 main_c_42
  let main_v109 : IVec S100000 1 := cmpi .slt main_arg7 main_v108
  let main_v110 : IVec S100000 1 := andi main_v107 main_v109
  let main_c_43 : IVec S_ 1 := constantI S_ 1 1#1
  let main_v111 : IVec S_ 1 := (fun x v => Host.reduce IntOp.andi x v reducesTo_S100000_S_d0 h_S_) main_v110 main_c_43
  let main_v112 : IVec S_ 1 := andi main_v105 main_v111
  main_v112

def fn_part5 {F : FTy → Type} [FloatOps F] (main_arg6 : IVec S100000 32) (main_arg7 : IVec S100000 32) (main_arg22 : FVec F S128x64 .f32) (main_arg23 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x64 .f32 := Host.absf main_arg22
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg23
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_c_38 : IVec S_ 32 := constantI S_ 32 0#32
  let main_v99 : IVec S100000 32 := broadcastInDim S100000 ![] bcast_S_S100000 main_c_38
  let main_v100 : IVec S100000 1 := cmpi .sge main_arg6 main_v99
  let main_c_39 : IVec S_ 32 := constantI S_ 32 100#32
  let main_v101 : IVec S100000 32 := broadcastInDim S100000 ![] bcast_S_S100000 main_c_39
  fn_part6 (F := F) main_arg6 main_arg7 main_v98 main_v100 main_v101

def fn_part4 {F : FTy → Type} [FloatOps F] (main_arg6 : IVec S100000 32) (main_arg7 : IVec S100000 32) (main_arg18 : FVec F S192x128 .f32) (main_arg19 : FVec F S128 .f32) (main_arg20 : FVec F S128x128 .f32) (main_arg21 : FVec F S128 .f32) (main_arg22 : FVec F S128x64 .f32) (main_arg23 : FVec F S64 .f32) (main_v63 : IVec S_ 1) (main_v67 : IVec S_ 1) : IVec S_ 1 :=
  let main_v68 : IVec S_ 1 := andi main_v63 main_v67
  let main_v69 : FVec F S192x128 .f32 := Host.absf main_arg18
  let main_cst_26 : FVec F S_ .f32 := constant S_ .f32 0x7F800000#32
  let main_v70 : FVec F S192x128 .f32 := broadcastInDim S192x128 ![] bcast_S_S192x128 main_cst_26
  let main_v71 : IVec S192x128 1 := cmpf .olt main_v69 main_v70
  let main_c_27 : IVec S_ 1 := constantI S_ 1 1#1
  let main_v72 : IVec S_ 1 := (fun x v => Host.reduce IntOp.andi x v reducesTo_S192x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg20
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg6 main_arg7 main_arg22 main_arg23 main_v83 main_v84 main_cst_32

def fn_part3 {F : FTy → Type} [FloatOps F] (main_arg6 : IVec S100000 32) (main_arg7 : IVec S100000 32) (main_arg15 : FVec F S128 .f32) (main_arg16 : FVec F S128x64 .f32) (main_arg17 : FVec F S64 .f32) (main_arg18 : FVec F S192x128 .f32) (main_arg19 : FVec F S128 .f32) (main_arg20 : FVec F S128x128 .f32) (main_arg21 : FVec F S128 .f32) (main_arg22 : FVec F S128x64 .f32) (main_arg23 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg16
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg6 main_arg7 main_arg18 main_arg19 main_arg20 main_arg21 main_arg22 main_arg23 main_v63 main_v67

def fn_part2 {F : FTy → Type} [FloatOps F] (main_arg6 : IVec S100000 32) (main_arg7 : IVec S100000 32) (main_arg11 : FVec F S64 .f32) (main_arg12 : FVec F S512x128 .f32) (main_arg13 : FVec F S128 .f32) (main_arg14 : FVec F S128x128 .f32) (main_arg15 : FVec F S128 .f32) (main_arg16 : FVec F S128x64 .f32) (main_arg17 : FVec F S64 .f32) (main_arg18 : FVec F S192x128 .f32) (main_arg19 : FVec F S128 .f32) (main_arg20 : FVec F S128x128 .f32) (main_arg21 : FVec F S128 .f32) (main_arg22 : FVec F S128x64 .f32) (main_arg23 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S512x128 .f32 := Host.absf main_arg12
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg6 main_arg7 main_arg15 main_arg16 main_arg17 main_arg18 main_arg19 main_arg20 main_arg21 main_arg22 main_arg23 main_v48 main_v49 main_v50

def fn_part1 {F : FTy → Type} [FloatOps F] (main_arg4 : FVec F S100000x64 .f32) (main_arg5 : FVec F S100000x384 .f32) (main_arg6 : IVec S100000 32) (main_arg7 : IVec S100000 32) (main_arg10 : FVec F S384x64 .f32) (main_arg11 : FVec F S64 .f32) (main_arg12 : FVec F S512x128 .f32) (main_arg13 : FVec F S128 .f32) (main_arg14 : FVec F S128x128 .f32) (main_arg15 : FVec F S128 .f32) (main_arg16 : FVec F S128x64 .f32) (main_arg17 : FVec F S64 .f32) (main_arg18 : FVec F S192x128 .f32) (main_arg19 : FVec F S128 .f32) (main_arg20 : FVec F S128x128 .f32) (main_arg21 : FVec F S128 .f32) (main_arg22 : FVec F S128x64 .f32) (main_arg23 : FVec F S64 .f32) (main_v13 : IVec S_ 1) (main_v16 : IVec S500x128 1) : IVec S_ 1 :=
  let main_c_5 : IVec S_ 1 := constantI S_ 1 1#1
  let main_v17 : IVec S_ 1 := (fun x v => Host.reduce IntOp.andi x v reducesTo_S500x128_S_d0_1 h_S_) main_v16 main_c_5
  let main_v18 : IVec S_ 1 := andi main_v13 main_v17
  let main_v19 : FVec F S100000x64 .f32 := Host.absf main_arg4
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S100000x384 .f32 := Host.absf main_arg5
  let main_cst_8 : FVec F S_ .f32 := constant S_ .f32 0x7F800000#32
  let main_v25 : FVec F S100000x384 .f32 := broadcastInDim S100000x384 ![] bcast_S_S100000x384 main_cst_8
  let main_v26 : IVec S100000x384 1 := cmpf .olt main_v24 main_v25
  let main_c_9 : IVec S_ 1 := constantI S_ 1 1#1
  let main_v27 : IVec S_ 1 := (fun x v => Host.reduce IntOp.andi x v reducesTo_S100000x384_S_d0_1 h_S_) main_v26 main_c_9
  let main_v28 : IVec S_ 1 := andi main_v23 main_v27
  let main_v29 : FVec F S384x64 .f32 := Host.absf main_arg10
  let main_cst_10 : FVec F S_ .f32 := constant S_ .f32 0x7F800000#32
  let main_v30 : FVec F S384x64 .f32 := broadcastInDim S384x64 ![] bcast_S_S384x64 main_cst_10
  let main_v31 : IVec S384x64 1 := cmpf .olt main_v29 main_v30
  let main_c_11 : IVec S_ 1 := constantI S_ 1 1#1
  let main_v32 : IVec S_ 1 := (fun x v => Host.reduce IntOp.andi x v reducesTo_S384x64_S_d0_1 h_S_) main_v31 main_c_11
  let main_v33 : IVec S_ 1 := andi main_v28 main_v32
  fn_part2 (F := F) main_arg6 main_arg7 main_arg11 main_arg12 main_arg13 main_arg14 main_arg15 main_arg16 main_arg17 main_arg18 main_arg19 main_arg20 main_arg21 main_arg22 main_arg23 main_v33

def fn {F : FTy → Type} [FloatOps F] (main_arg0 : FVec F S100000x128 .f32) (main_arg1 : FVec F S100000x128 .f32) (main_arg2 : FVec F S100x128 .f32) (main_arg3 : FVec F S500x128 .f32) (main_arg4 : FVec F S100000x64 .f32) (main_arg5 : FVec F S100000x384 .f32) (main_arg6 : IVec S100000 32) (main_arg7 : IVec S100000 32) (main_arg8 : IVec S2000000 32) (main_arg9 : IVec S2000000 32) (main_arg10 : FVec F S384x64 .f32) (main_arg11 : FVec F S64 .f32) (main_arg12 : FVec F S512x128 .f32) (main_arg13 : FVec F S128 .f32) (main_arg14 : FVec F S128x128 .f32) (main_arg15 : FVec F S128 .f32) (main_arg16 : FVec F S128x64 .f32) (main_arg17 : FVec F S64 .f32) (main_arg18 : FVec F S192x128 .f32) (main_arg19 : FVec F S128 .f32) (main_arg20 : FVec F S128x128 .f32) (main_arg21 : FVec F S128 .f32) (main_arg22 : FVec F S128x64 .f32) (main_arg23 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100x128 .f32 := Host.absf main_arg2
  let main_cst_2 : FVec F S_ .f32 := constant S_ .f32 0x7F800000#32
  let main_v10 : FVec F S100x128 .f32 := broadcastInDim S100x128 ![] bcast_S_S100x128 main_cst_2
  let main_v11 : IVec S100x128 1 := cmpf .olt main_v9 main_v10
  let main_c_3 : IVec S_ 1 := constantI S_ 1 1#1
  let main_v12 : IVec S_ 1 := (fun x v => Host.reduce IntOp.andi x v reducesTo_S100x128_S_d0_1 h_S_) main_v11 main_c_3
  let main_v13 : IVec S_ 1 := andi main_v8 main_v12
  let main_v14 : FVec F S500x128 .f32 := Host.absf main_arg3
  let main_cst_4 : FVec F S_ .f32 := constant S_ .f32 0x7F800000#32
  let main_v15 : FVec F S500x128 .f32 := broadcastInDim S500x128 ![] bcast_S_S500x128 main_cst_4
  let main_v16 : IVec S500x128 1 := cmpf .olt main_v14 main_v15
  fn_part1 (F := F) main_arg4 main_arg5 main_arg6 main_arg7 main_arg10 main_arg11 main_arg12 main_arg13 main_arg14 main_arg15 main_arg16 main_arg17 main_arg18 main_arg19 main_arg20 main_arg21 main_arg22 main_arg23 main_v13 main_v16
-- ==== Kernel.lean ====
abbrev S100000x128 : Shape := ⟨2, ![100000, 128]⟩
abbrev S100x128 : Shape := ⟨2, ![100, 128]⟩
abbrev S500x128 : Shape := ⟨2, ![500, 128]⟩
abbrev S100000x64 : Shape := ⟨2, ![100000, 64]⟩
abbrev S100000x384 : Shape := ⟨2, ![100000, 384]⟩
abbrev S100000 : Shape := ⟨1, ![100000]⟩
abbrev S2000000 : Shape := ⟨1, ![2000000]⟩
abbrev S384x64 : Shape := ⟨2, ![384, 64]⟩
abbrev S64 : Shape := ⟨1, ![64]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S192x128 : Shape := ⟨2, ![192, 128]⟩
abbrev S100000x1 : Shape := ⟨2, ![100000, 1]⟩
abbrev S1000x128 : Shape := ⟨2, ![1000, 128]⟩
abbrev S1000x1 : Shape := ⟨2, ![1000, 1]⟩
abbrev S1000x64 : Shape := ⟨2, ![1000, 64]⟩
abbrev S1000x384 : Shape := ⟨2, ![1000, 384]⟩
abbrev S1000x100 : Shape := ⟨2, ![1000, 100]⟩
abbrev S1000x500 : Shape := ⟨2, ![1000, 500]⟩
abbrev S1x64 : Shape := ⟨2, ![1, 64]⟩
abbrev S64x128 : Shape := ⟨2, ![64, 128]⟩
abbrev S1x128 : Shape := ⟨2, ![1, 128]⟩
abbrev S1000 : Shape := ⟨1, ![1000]⟩
abbrev S_ : Shape := ⟨0, ![]⟩
abbrev S2000000x1 : Shape := ⟨2, ![2000000, 1]⟩
abbrev S2000000x64 : Shape := ⟨2, ![2000000, 64]⟩
abbrev S2000x128 : Shape := ⟨2, ![2000, 128]⟩
abbrev S2000x64 : Shape := ⟨2, ![2000, 64]⟩
abbrev S2000 : Shape := ⟨1, ![2000]⟩
abbrev S2000x1 : Shape := ⟨2, ![2000, 1]⟩

abbrev nBuf : Space → Nat
  | .hbm => 61
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100x128, .f32⟩
  | .hbm, ⟨3, _⟩ => ⟨S500x128, .f32⟩
  | .hbm, ⟨4, _⟩ => ⟨S100000x64, .f32⟩
  | .hbm, ⟨5, _⟩ => ⟨S100000x384, .f32⟩
  | .hbm, ⟨6, _⟩ => ⟨S100000, .i32⟩
  | .hbm, ⟨7, _⟩ => ⟨S100000, .i32⟩
  | .hbm, ⟨8, _⟩ => ⟨S2000000, .i32⟩
  | .hbm, ⟨9, _⟩ => ⟨S2000000, .i32⟩
  | .hbm, ⟨10, _⟩ => ⟨S384x64, .f32⟩
  | .hbm, ⟨11, _⟩ => ⟨S64, .f32⟩
  | .hbm, ⟨12, _⟩ => ⟨S512x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S192x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x64, .f32⟩
  | .hbm, ⟨23, _⟩ => ⟨S64, .f32⟩
  | .hbm, ⟨24, _⟩ => ⟨S100000x1, .i32⟩
  | .hbm, ⟨25, _⟩ => ⟨S100000x1, .i32⟩
  | .hbm, ⟨26, _⟩ => ⟨S100000x64, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x64, .f32⟩
  | .hbm, ⟨36, _⟩ => ⟨S_, .f32⟩
  | .hbm, ⟨37, _⟩ => ⟨S100000x64, .f32⟩
  | .hbm, ⟨38, _⟩ => ⟨S2000000x1, .i32⟩
  | .hbm, ⟨39, _⟩ => ⟨S100000x64, .f32⟩
  | .hbm, ⟨40, _⟩ => ⟨S_, .f32⟩
  | .hbm, ⟨41, _⟩ => ⟨S2000000, .f32⟩
  | .hbm, ⟨42, _⟩ => ⟨S_, .f32⟩
  | .hbm, ⟨43, _⟩ => ⟨S100000, .f32⟩
  | .hbm, ⟨44, _⟩ => ⟨S2000000x1, .i32⟩
  | .hbm, ⟨45, _⟩ => ⟨S100000, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .i1⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S_, .f32⟩
  | .hbm, ⟨57, _⟩ => ⟨S100000x64, .i1⟩
  | .hbm, ⟨58, _⟩ => ⟨S100000x64, .f32⟩
  | .hbm, ⟨59, _⟩ => ⟨S100000x64, .f32⟩
  | .hbm, ⟨60, _⟩ => ⟨S100000x64, .f32⟩
  | .local _ .vmem, ⟨0, _⟩ => ⟨S1000x128, .f32⟩
  | .local _ .vmem, ⟨1, _⟩ => ⟨S1000x128, .f32⟩
  | .local _ .vmem, ⟨2, _⟩ => ⟨S1000x1, .i32⟩
  | .local _ .vmem, ⟨3, _⟩ => ⟨S1000x1, .i32⟩
  | .local _ .vmem, ⟨4, _⟩ => ⟨S1000x1, .i32⟩
  | .local _ .vmem, ⟨5, _⟩ => ⟨S1000x1, .i32⟩
  | .local _ .vmem, ⟨6, _⟩ => ⟨S1000x64, .f32⟩
  | .local _ .vmem, ⟨7, _⟩ => ⟨S1000x64, .f32⟩
  | .local _ .vmem, ⟨8, _⟩ => ⟨S1000x384, .f32⟩
  | .local _ .vmem, ⟨9, _⟩ => ⟨S1000x384, .f32⟩
  | .local _ .vmem, ⟨10, _⟩ => ⟨S100x128, .f32⟩
  | .local _ .vmem, ⟨11, _⟩ => ⟨S500x128, .f32⟩
  | .local _ .vmem, ⟨12, _⟩ => ⟨S384x64, .f32⟩
  | .local _ .vmem, ⟨13, _⟩ => ⟨S64, .f32⟩
  | .local _ .vmem, ⟨14, _⟩ => ⟨S512x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128x64, .f32⟩
  | .local _ .vmem, ⟨19, _⟩ => ⟨S64, .f32⟩
  | .local _ .vmem, ⟨20, _⟩ => ⟨S1000x64, .f32⟩
  | .local _ .vmem, ⟨21, _⟩ => ⟨S1000x64, .f32⟩
  | .local _ .vmem, ⟨22, _⟩ => ⟨S2000x128, .f32⟩
  | .local _ .vmem, ⟨23, _⟩ => ⟨S2000x128, .f32⟩
  | .local _ .vmem, ⟨24, _⟩ => ⟨S2000x64, .f32⟩
  | .local _ .vmem, ⟨25, _⟩ => ⟨S2000x64, .f32⟩
  | .local _ .vmem, ⟨26, _⟩ => ⟨S192x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S128x64, .f32⟩
  | .local _ .vmem, ⟨31, _⟩ => ⟨S64, .f32⟩
  | .local _ .vmem, ⟨32, _⟩ => ⟨S2000x64, .f32⟩
  | .local _ .vmem, ⟨33, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v24 : Ref sig .tc := ⟨.hbm, 59, rfl⟩
abbrev main_v25 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S100x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S500x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1000x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S100000_S100000x1 : S100000.ShapeCasts S100000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x100_d1_w32 : S1000x100.Iotas .tc 32 [1]
  broadcasts_S1000x1_S1000x100 : S1000x1.Broadcasts S1000x100
  natLt_1_32 : 1 < 32
  inb_S100x128_S100x128_0_0 : ∀ a, (![0, 0] : Fin 2 → Nat) a + S100x128.size a ≤ S100x128.size a
  h_S100x128 : 0 < S100x128.numel
  iota_S1000x500_d1_w32 : S1000x500.Iotas .tc 32 [1]
  broadcasts_S1000x1_S1000x500 : S1000x1.Broadcasts S1000x500
  inb_S500x128_S500x128_0_0 : ∀ a, (![0, 0] : Fin 2 → Nat) a + S500x128.size a ≤ S500x128.size a
  h_S500x128 : 0 < S500x128.numel
  inb_S1000x384_S1000x384_0_0 : ∀ a, (![0, 0] : Fin 2 → Nat) a + S1000x384.size a ≤ S1000x384.size a
  h_S1000x384 : 0 < S1000x384.numel
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S512x128_S512x128_0_0 : ∀ a, (![0, 0] : Fin 2 → Nat) a + S512x128.size a ≤ S512x128.size a
  h_S512x128 : 0 < S512x128.numel
  slices_S512x128_o0_0_S128x128 : S512x128.Slices ![0, 0] S128x128
  slices_S512x128_o128_0_S128x128 : S512x128.Slices ![128, 0] S128x128
  slices_S512x128_o256_0_S128x128 : S512x128.Slices ![256, 0] S128x128
  slices_S512x128_o384_0_S64x128 : S512x128.Slices ![384, 0] S64x128
  slices_S512x128_o448_0_S64x128 : S512x128.Slices ![448, 0] S64x128
  inb_S1000x128_S1000x128_0_0 : ∀ a, (![0, 0] : Fin 2 → Nat) a + S1000x128.size a ≤ S1000x128.size a
  h_S1000x128 : 0 < S1000x128.numel
  inb_S1000x64_S1000x64_0_0 : ∀ a, (![0, 0] : Fin 2 → Nat) a + S1000x64.size a ≤ S1000x64.size a
  h_S1000x64 : 0 < S1000x64.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  reduces_S1000x64_S1000 : S1000x64.Reduces [1] S1000
  shapeCasts_S1000_S1000x1 : S1000.ShapeCasts S1000x1
  broadcasts_S1000x1_S1000x64 : S1000x1.Broadcasts S1000x64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  inb_S192x128_S192x128_0_0 : ∀ a, (![0, 0] : Fin 2 → Nat) a + S192x128.size a ≤ S192x128.size a
  h_S192x128 : 0 < S192x128.numel
  slices_S192x128_o0_0_S128x128 : S192x128.Slices ![0, 0] S128x128
  slices_S192x128_o128_0_S64x128 : S192x128.Slices ![128, 0] S64x128
  inb_S2000x128_S2000x128_0_0 : ∀ a, (![0, 0] : Fin 2 → Nat) a + S2000x128.size a ≤ S2000x128.size a
  h_S2000x128 : 0 < S2000x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x128_S2000x128 : S1x128.Broadcasts S2000x128
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  dot_S1000x100_S100x128_S1000x128_1_0_0_1_n_n_wf : DotDims.WF S1000x100 S100x128 S1000x128 [1] [0] [0] [1] [] []
  dot_S1000x500_S500x128_S1000x128_1_0_0_1_n_n_wf : DotDims.WF S1000x500 S500x128 S1000x128 [1] [0] [0] [1] [] []
  dot_S1000x384_S384x64_S1000x64_1_0_0_1_n_n_wf : DotDims.WF S1000x384 S384x64 S1000x64 [1] [0] [0] [1] [] []
  dot_S1000x128_S128x128_S1000x128_1_0_0_1_n_n_wf : DotDims.WF S1000x128 S128x128 S1000x128 [1] [0] [0] [1] [] []
  dot_S1000x64_S64x128_S1000x128_1_0_0_1_n_n_wf : DotDims.WF S1000x64 S64x128 S1000x128 [1] [0] [0] [1] [] []
  dot_S1000x128_S128x64_S1000x64_1_0_0_1_n_n_wf : DotDims.WF S1000x128 S128x64 S1000x64 [1] [0] [0] [1] [] []
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .i32 = 32 ∨ (Rect.block (s := S100000x1) S1000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .i32 = 32 ∨ (Rect.block (s := S100000x1) S1000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S100000x64.size a
  hwx0_3 : ∀ i : grid0.Coords, EltTy.bits .f32 = 32 ∨ (Rect.block (s := S100000x64) S1000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x384.size a ≤ S100000x384.size a
  hwx0_4 : ∀ i : grid0.Coords, EltTy.bits .f32 = 32 ∨ (Rect.block (s := S100000x384) S1000x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x128.size a ≤ S100x128.size a
  hwx0_5 : ∀ i : grid0.Coords, EltTy.bits .f32 = 32 ∨ (Rect.block (s := S100x128) S100x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x128.size a ≤ S500x128.size a
  hwx0_6 : ∀ i : grid0.Coords, EltTy.bits .f32 = 32 ∨ (Rect.block (s := S500x128) S500x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x64.size a ≤ S384x64.size a
  hwx0_7 : ∀ i : grid0.Coords, EltTy.bits .f32 = 32 ∨ (Rect.block (s := S384x64) S384x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .f32 = 32 ∨ (Rect.block (s := S512x128) S512x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x64.size a ≤ S128x64.size a
  hwx0_13 : ∀ i : grid0.Coords, EltTy.bits .f32 = 32 ∨ (Rect.block (s := S128x64) S128x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x64.size a ≤ S100000x64.size a
  hwx0_15 : ∀ i : grid0.Coords, EltTy.bits .f32 = 32 ∨ (Rect.block (s := S100000x64) S1000x64.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x128.size a ≤ S192x128.size a
  hwx1_2 : ∀ i : grid1.Coords, EltTy.bits .f32 = 32 ∨ (Rect.block (s := S192x128) S192x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)

variable [Facts₀]

def dot_S1000x100_S100x128_S1000x128_1_0_0_1_n_n : DotDims S1000x100 S100x128 S1000x128 where
  lhsContracting := [1]
  rhsContracting := [0]
  lhsNonContracting := [0]
  rhsNonContracting := [1]
  lhsBatch := []
  rhsBatch := []
  wf := dot_S1000x100_S100x128_S1000x128_1_0_0_1_n_n_wf
def dot_S1000x500_S500x128_S1000x128_1_0_0_1_n_n : DotDims S1000x500 S500x128 S1000x128 where
  lhsContracting := [1]
  rhsContracting := [0]
  lhsNonContracting := [0]
  rhsNonContracting := [1]
  lhsBatch := []
  rhsBatch := []
  wf := dot_S1000x500_S500x128_S1000x128_1_0_0_1_n_n_wf
def dot_S1000x384_S384x64_S1000x64_1_0_0_1_n_n : DotDims S1000x384 S384x64 S1000x64 where
  lhsContracting := [1]
  rhsContracting := [0]
  lhsNonContracting := [0]
  rhsNonContracting := [1]
  lhsBatch := []
  rhsBatch := []
  wf := dot_S1000x384_S384x64_S1000x64_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg1) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1000x384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S100x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S500x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S384x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S128x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v2) S1000x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg18) S192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg19) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg21) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg22) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg23) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S100x128 : Shape := ⟨2, ![100, 128]⟩
abbrev S500x128 : Shape := ⟨2, ![500, 128]⟩
abbrev S100000x64 : Shape := ⟨2, ![100000, 64]⟩
abbrev S100000x384 : Shape := ⟨2, ![100000, 384]⟩
abbrev S100000 : Shape := ⟨1, ![100000]⟩
abbrev S2000000 : Shape := ⟨1, ![2000000]⟩
abbrev S384x64 : Shape := ⟨2, ![384, 64]⟩
abbrev S64 : Shape := ⟨1, ![64]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S192x128 : Shape := ⟨2, ![192, 128]⟩
abbrev S1x64 : Shape := ⟨2, ![1, 64]⟩
abbrev S_ : Shape := ⟨0, ![]⟩
abbrev S100000x1 : Shape := ⟨2, ![100000, 1]⟩
abbrev S100000x512 : Shape := ⟨2, ![100000, 512]⟩
abbrev S1x128 : Shape := ⟨2, ![1, 128]⟩
abbrev S2000000x1 : Shape := ⟨2, ![2000000, 1]⟩
abbrev S2000000x64 : Shape := ⟨2, ![2000000, 64]⟩
abbrev S100000x192 : Shape := ⟨2, ![100000, 192]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S100000x128, .f32⟩
  | 2 => ⟨S100x128, .f32⟩
  | 3 => ⟨S500x128, .f32⟩
  | 4 => ⟨S100000x64, .f32⟩
  | 5 => ⟨S100000x384, .f32⟩
  | 6 => ⟨S100000, .i32⟩
  | 7 => ⟨S100000, .i32⟩
  | 8 => ⟨S2000000, .i32⟩
  | 9 => ⟨S2000000, .i32⟩
  | 10 => ⟨S384x64, .f32⟩
  | 11 => ⟨S64, .f32⟩
  | 12 => ⟨S512x128, .f32⟩
  | 13 => ⟨S128, .f32⟩
  | 14 => ⟨S128x128, .f32⟩
  | 15 => ⟨S128, .f32⟩
  | 16 => ⟨S128x64, .f32⟩
  | 17 => ⟨S64, .f32⟩
  | 18 => ⟨S192x128, .f32⟩
  | 19 => ⟨S128, .f32⟩
  | 20 => ⟨S128x128, .f32⟩
  | 21 => ⟨S128, .f32⟩
  | 22 => ⟨S128x64, .f32⟩
  | 23 => ⟨S64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x128, .f32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x128, .f32⟩
  | 49 => ⟨S100000x512, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x64, .f32⟩
  | 65 => ⟨S1x64, .f32⟩
  | 66 => ⟨S100000x64, .f32⟩
  | 67 => ⟨S100000x64, .f32⟩
  | 68 => ⟨S100000x64, .f32⟩
  | 69 => ⟨S_, .f32⟩
  | 70 => ⟨S100000, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S100000x64, .f32⟩
  | 77 => ⟨S100000x64, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x64, .f32⟩
  | 87 => ⟨S_, .f32⟩
  | 88 => ⟨S100000x64, .f32⟩
  | 89 => ⟨S2000000x1, .i32⟩
  | 90 => ⟨S100000x64, .f32⟩
  | 91 => ⟨S_, .f32⟩
  | 92 => ⟨S2000000, .f32⟩
  | 93 => ⟨S_, .f32⟩
  | 94 => ⟨S100000, .f32⟩
  | 95 => ⟨S2000000x1, .i32⟩
  | 96 => ⟨S100000, .f32⟩
  | 97 => ⟨S100000x1, .f32⟩
  | 98 => ⟨S_, .f32⟩
  | 99 => ⟨S100000x1, .f32⟩
  | 100 => ⟨S100000x1, .i1⟩
  | 101 => ⟨S_, .f32⟩
  | 102 => ⟨S100000x1, .f32⟩
  | 103 => ⟨S100000x1, .f32⟩
  | 104 => ⟨S100000x64, .f32⟩
  | 105 => ⟨S100000x64, .f32⟩
  | 106 => ⟨S_, .f32⟩
  | 107 => ⟨S_, .f32⟩
  | 108 => ⟨S100000x64, .i1⟩
  | 109 => ⟨S100000x64, .f32⟩
  | 110 => ⟨S100000x64, .f32⟩
  | 111 => ⟨S100000x192, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000, .f32⟩
  | 5 => ⟨S100000x1, .f32⟩
  | 6 => ⟨S100000x1, .f32⟩
  | 7 => ⟨S_, .f32⟩
  | 8 => ⟨S100000x1, .f32⟩
  | 9 => ⟨S100000x1, .f32⟩
  | 10 => ⟨S100000x64, .f32⟩
  | 11 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_cst : Ref sig .tc := ⟨.hbm, 54, rfl⟩
abbrev main_call1_v0 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call2_cst : Ref sig .tc := ⟨.hbm, 61, rfl⟩
abbrev main_call2_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_3 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_4 : Ref sig .tc := ⟨.hbm, 78, rfl⟩
abbrev main_v42 : Ref sig .tc := ⟨.hbm, 79, rfl⟩
abbrev main_v43 : Ref sig .tc := ⟨.hbm, 80, rfl⟩
abbrev main_c_5 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_6 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_7 : Ref sig .tc := ⟨.hbm, 91, rfl⟩
abbrev main_v52 : Ref sig .tc := ⟨.hbm, 92, rfl⟩
abbrev main_cst_8 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_9 : Ref sig .tc := ⟨.hbm, 98, rfl⟩
abbrev main_v57 : Ref sig .tc := ⟨.hbm, 99, rfl⟩
abbrev main_v58 : Ref sig .tc := ⟨.hbm, 100, rfl⟩
abbrev main_cst_10 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_11 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_call4_cst : Ref sig .tc := ⟨.hbm, 116, rfl⟩
abbrev main_call4_v0 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_call5_cst : Ref sig .tc := ⟨.hbm, 123, rfl⟩
abbrev main_call5_v0 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_12 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_13 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x128_S100000x64_S100000x64_S100000x512_d1 : Shape.Concatenates [S100000x128, S100000x128, S100000x128, S100000x64, S100000x64] S100000x512 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S100000x128_S100000x64_S100000x192_d1 : Shape.Concatenates [S100000x128, S100000x64] S100000x192 1
  dot_S100000x384_S384x64_S100000x64_1_0_0_1_n_n_wf : DotDims.WF S100000x384 S384x64 S100000x64 [1] [0] [0] [1] [] []
  gather_S100x128_S100000x1_S100000x128_1_0_n_n_0_1_1128_wf : GatherDims.WF S100x128 S100000x1 S100000x128 [1] [0] [] [0] [] 1 ![1, 128]
  gather_S500x128_S100000x1_S100000x128_1_0_n_n_0_1_1128_wf : GatherDims.WF S500x128 S100000x1 S100000x128 [1] [0] [] [0] [] 1 ![1, 128]
  dot_S100000x512_S512x128_S100000x128_1_0_0_1_n_n_wf : DotDims.WF S100000x512 S512x128 S100000x128 [1] [0] [0] [1] [] []
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x192_S192x128_S100000x128_1_0_0_1_n_n_wf : DotDims.WF S100000x192 S192x128 S100000x128 [1] [0] [0] [1] [] []

variable [Facts₀]

def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def gather_S500x128_S100000x1_S100000x128_1_0_n_n_0_1_1128 : GatherDims S500x128 S100000x1 S100000x128 where
  offsetDims := [1]
  collapsedSliceDims := [0]
  operandBatchingDims := []
  startIndicesBatchingDims := []
  startIndexMap := [0]
  indexVectorDim := 1
  sliceSizes := ![1, 128]
  wf := gather_S500x128_S100000x1_S100000x128_1_0_n_n_0_1_1128_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf

class Facts : Prop extends Facts₀ where

variable [Facts]
-- ==== Proof.Tower.lean ====
/-
  The two towers, row by row, on the extended reals.

  An item's vector depends only on that item's own rows: its embedding row, the brand row and the size row its two
  indices name, its specification row and its text row, through three dense layers and a division by the row's
  Euclidean norm (floored at a small constant). A user's vector depends likewise on the user's embedding row and the
  user's pooled-history row. Both programs compute exactly these two row functions; they differ in how the first layer's
  sum over the concatenated features is grouped (one sum over all columns against a sum of one sum per feature block)
  and in how the brand and size rows are fetched (by index against by a product with a row of zeros and a single one).
  Here are the row functions, the law that regroups the first layer's sum, and the law that reads the product with the
  zero-one row as the indexed row.
-/
import Idealize.ShloMosaic.Lib.ValueIdx
import Idealize.ShloMosaic.PureOps.Ideal
import Idealize.ShloMosaic.PureOps.Ideal.Laws

noncomputable section

namespace Cert.Tower

open Idealize.ShloMosaic Idealize.ShloMosaic.ValueIdx

/-- The floor under the norm: the single-precision value nearest 1e-12, the same word in both programs. -/
abbrev normFloor : EReal := Ideal.ofBits .f32 0x2B8CBCCC#32

/-- A dense layer before its activation: the row against column `j` of the matrix, plus the bias. -/
def affine {K C : ℕ} (x : Fin K → EReal) (W : Fin K → Fin C → EReal) (b : Fin C → EReal) (j : Fin C) : EReal :=
  (∑ k, x k * W k j) + b j

/-- The rectifier. -/
def relu (x : EReal) : EReal := max x 0

/-- A row divided by its Euclidean norm, the norm floored at `normFloor`. -/
def unitRow {C : ℕ} (o : Fin C → EReal) (j : Fin C) : EReal :=
  Ideal.div (o j) (max (Ideal.sqrt (∑ k, o k * o k)) normFloor)

/-- Rows `off .. off + K` of a matrix with `N` rows. -/
def rowsFrom {N C : ℕ} (W : Fin N → Fin C → EReal) (K off : ℕ) (h : off + K ≤ N) : Fin K → Fin C → EReal :=
  fun k j => W ⟨off + k.val, by have := k.isLt; omega⟩ j

/-- The item tower's first layer before the bias, one sum per feature block: the embedding row, the brand row, the size
    row, the specification row and the projected text row, each against its own 128 or 64 rows of the 512-row matrix. -/
def itemPre (ht hb hs : Fin 128 → EReal) (sp tp : Fin 64 → EReal) (W : Fin 512 → Fin 128 → EReal) (j : Fin 128) : EReal :=
  ((((∑ k, ht k * rowsFrom W 128 0 (by omega) k j) + ∑ k, hb k * rowsFrom W 128 128 (by omega) k j)
      + ∑ k, hs k * rowsFrom W 128 256 (by omega) k j) + ∑ k, sp k * rowsFrom W 64 384 (by omega) k j)
    + ∑ k, tp k * rowsFrom W 64 448 (by omega) k j

/-- One item's vector from its own rows and the weights. -/
def itemRow (ht hb hs : Fin 128 → EReal) (sp : Fin 64 → EReal) (tx : Fin 384 → EReal)
    (Wtp : Fin 384 → Fin 64 → EReal) (btp : Fin 64 → EReal)
    (W1 : Fin 512 → Fin 128 → EReal) (b1 : Fin 128 → EReal) (W2 : Fin 128 → Fin 128 → EReal) (b2 : Fin 128 → EReal)
    (W3 : Fin 128 → Fin 64 → EReal) (b3 : Fin 64 → EReal) : Fin 64 → EReal :=
  unitRow (affine (fun k => relu (affine (fun k => relu (itemPre ht hb hs sp (fun k => relu (affine tx Wtp btp k)) W1 k + b1 k)) W2 b2 k)) W3 b3)

/-- The user tower's first layer before the bias: the embedding row and the pooled-history row, each against its own
    rows of the 192-row matrix. -/
def userPre (hu : Fin 128 → EReal) (hp : Fin 64 → EReal) (W : Fin 192 → Fin 128 → EReal) (j : Fin 128) : EReal :=
  (∑ k, hu k * rowsFrom W 128 0 (by omega) k j) + ∑ k, hp k * rowsFrom W 64 128 (by omega) k j

/-- One user's vector from its own rows and the weights. -/
def userRow (hu : Fin 128 → EReal) (hp : Fin 64 → EReal)
    (W1 : Fin 192 → Fin 128 → EReal) (b1 : Fin 128 → EReal) (W2 : Fin 128 → Fin 128 → EReal) (b2 : Fin 128 → EReal)
    (W3 : Fin 128 → Fin 64 → EReal) (b3 : Fin 64 → EReal) : Fin 64 → EReal :=
  unitRow (affine (fun k => relu (affine (fun k => relu (userPre hu hp W1 k + b1 k)) W2 b2 k)) W3 b3)

/-! ## Arrays as rows -/

/-- Row `r` of a rank-2 array. -/
def rowOf {R C : ℕ} (X : (⟨2, ![R, C]⟩ : Shape).Idx → EReal) (r : Fin R) : Fin C → EReal := fun k => X (ix2 r k)

/-- A rank-2 array as a matrix. -/
def matOf {K C : ℕ} (W : (⟨2, ![K, C]⟩ : Shape).Idx → EReal) : Fin K → Fin C → EReal := fun k j => W (ix2 k j)

/-- A rank-1 array as a row. -/
def vecOf {C : ℕ} (b : (⟨1, ![C]⟩ : Shape).Idx → EReal) : Fin C → EReal := fun j => b (ix1 j)

/-- The row of an `N`-row table a 32-bit index names when it is in range (row 0 otherwise; never used there). -/
def rowAt (N : ℕ) (hN : 0 < N) (z : BitVec 32) : Fin N := ⟨z.toNat % N, Nat.mod_lt _ hN⟩

/-- Every item's vector: the item tower as one function of the argument arrays. -/
def itemVec (hTire : (⟨2, ![100000, 128]⟩ : Shape).Idx → EReal) (hBrand : (⟨2, ![100, 128]⟩ : Shape).Idx → EReal)
    (hSize : (⟨2, ![500, 128]⟩ : Shape).Idx → EReal) (specs : (⟨2, ![100000, 64]⟩ : Shape).Idx → EReal)
    (text : (⟨2, ![100000, 384]⟩ : Shape).Idx → EReal)
    (brandIdx sizeIdx : (⟨1, ![100000]⟩ : Shape).Idx → BitVec 32)
    (Wtp : (⟨2, ![384, 64]⟩ : Shape).Idx → EReal) (btp : (⟨1, ![64]⟩ : Shape).Idx → EReal)
    (W1 : (⟨2, ![512, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 64]⟩ : Shape).Idx → EReal) (b3 : (⟨1, ![64]⟩ : Shape).Idx → EReal) :
    (⟨2, ![100000, 64]⟩ : Shape).Idx → EReal := fun i =>
  itemRow (rowOf hTire (i 0)) (rowOf hBrand (rowAt 100 (by omega) (brandIdx (ix1 (i 0)))))
    (rowOf hSize (rowAt 500 (by omega) (sizeIdx (ix1 (i 0))))) (rowOf specs (i 0)) (rowOf text (i 0))
    (matOf Wtp) (vecOf btp) (matOf W1) (vecOf b1) (matOf W2) (vecOf b2) (matOf W3) (vecOf b3) (i 1)

/-- Every user's vector: the user tower as one function of the user embeddings, the pooled histories and the weights. -/
def userVec (hUser : (⟨2, ![100000, 128]⟩ : Shape).Idx → EReal) (pool : (⟨2, ![100000, 64]⟩ : Shape).Idx → EReal)
    (W1 : (⟨2, ![192, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 64]⟩ : Shape).Idx → EReal) (b3 : (⟨1, ![64]⟩ : Shape).Idx → EReal) :
    (⟨2, ![100000, 64]⟩ : Shape).Idx → EReal := fun i =>
  userRow (rowOf hUser (i 0)) (rowOf pool (i 0)) (matOf W1) (vecOf b1) (matOf W2) (vecOf b2) (matOf W3) (vecOf b3) (i 1)

/-! ## Regrouping a sum over consecutive blocks -/

/-- A sum over `a + b` consecutive positions is the sum over the first `a` plus the sum over the last `b`. -/
theorem sum_split {M : Type*} [AddCommMonoid M] (a b n : ℕ) (h : a + b = n) (f : Fin n → M) :
    ∑ k, f k = (∑ k : Fin a, f ⟨k.val, by have := k.isLt; omega⟩) + ∑ k : Fin b, f ⟨a + k.val, by have := k.isLt; omega⟩ := by
  subst h
  rw [Fin.sum_univ_add]
  rfl

/-- The item tower's 512 concatenated columns, summed at once, are the five feature blocks summed one by one. -/
theorem sum_five_blocks {M : Type*} [AddCommMonoid M] (f : Fin 512 → M) :
    ∑ k, f k = ((((∑ k : Fin 128, f ⟨0 + k.val, by have := k.isLt; omega⟩) + ∑ k : Fin 128, f ⟨128 + k.val, by have := k.isLt; omega⟩)
      + ∑ k : Fin 128, f ⟨256 + k.val, by have := k.isLt; omega⟩) + ∑ k : Fin 64, f ⟨384 + k.val, by have := k.isLt; omega⟩)
      + ∑ k : Fin 64, f ⟨448 + k.val, by have := k.isLt; omega⟩ := by
  rw [sum_split 448 64 512 rfl f, sum_split 384 64 448 rfl, sum_split 256 128 384 rfl, sum_split 128 128 256 rfl]
  simp only [Nat.zero_add]

/-- The user tower's 192 concatenated columns likewise: two blocks. -/
theorem sum_two_blocks {M : Type*} [AddCommMonoid M] (f : Fin 192 → M) :
    ∑ k, f k = (∑ k : Fin 128, f ⟨0 + k.val, by have := k.isLt; omega⟩) + ∑ k : Fin 64, f ⟨128 + k.val, by have := k.isLt; omega⟩ := by
  rw [sum_split 128 64 192 rfl f]
  simp only [Nat.zero_add]

/-! ## A product with a row of zeros and a single one -/

/-- The word a comparison of an index with a position leaves, widened and read as a number: one where they are equal,
    zero elsewhere. -/
def hot (z p : BitVec 32) : EReal := (((((if z = p then 1#1 else 0#1 : BitVec 1).setWidth 32).toInt : ℝ)) : EReal)

theorem hot_self (z : BitVec 32) : hot z z = 1 := by
  unfold hot; rw [if_pos rfl]; norm_num

theorem hot_ne {z p : BitVec 32} (h : z ≠ p) : hot z p = 0 := by
  unfold hot; rw [if_neg h]; norm_num

/-- A 32-bit word read signed inside `[0, N)`, with `N` below 2^31, is that number read unsigned too. -/
theorem toNat_lt_of_toInt {N : ℕ} (hN' : N < 2 ^ 31) (z : BitVec 32) (hz : 0 ≤ z.toInt ∧ z.toInt < (N : ℤ)) :
    z.toNat < N := by
  have h := BitVec.toInt_eq_toNat_cond z
  have h2 := z.isLt
  split at h <;> omega

/-- The table row an in-range index names is the index itself. -/
theorem rowAt_val {N : ℕ} (hN : 0 < N) (hN' : N < 2 ^ 31) (z : BitVec 32) (hz : 0 ≤ z.toInt ∧ z.toInt < (N : ℤ)) :
    (rowAt N hN z).val = z.toNat :=
  Nat.mod_eq_of_lt (toNat_lt_of_toInt hN' z hz)

/-- Against the zero-one row of an in-range index, a sum over the table's rows keeps the indexed row's term alone. -/
theorem sum_hot {N : ℕ} (hN : 0 < N) (hN' : N < 2 ^ 31) (z : BitVec 32) (hz : 0 ≤ z.toInt ∧ z.toInt < (N : ℤ))
    (f : Fin N → EReal) : ∑ k : Fin N, hot z (BitVec.ofNat 32 k.val) * f k = f (rowAt N hN z) := by
  have hzn := toNat_lt_of_toInt hN' z hz
  have hrow : rowAt N hN z = ⟨z.toNat, hzn⟩ := Fin.ext (Nat.mod_eq_of_lt hzn)
  rw [hrow, Finset.sum_eq_single (⟨z.toNat, hzn⟩ : Fin N)]
  · have e : BitVec.ofNat 32 z.toNat = z := by simp
    show hot z (BitVec.ofNat 32 z.toNat) * f ⟨z.toNat, hzn⟩ = _
    rw [e, hot_self, one_mul]
  · intro k _ hk
    rw [hot_ne, zero_mul]
    intro h
    apply hk
    apply Fin.ext
    have h3 := congrArg BitVec.toNat h
    rw [BitVec.toNat_ofNat] at h3
    have hk' := k.isLt
    show k.val = z.toNat
    omega
  · intro h; exact absurd (Finset.mem_univ _) h

end Cert.Tower

end
-- ==== Proof.KItem.lean ====
/-
  The item tower's body on one block of 1000 items, read at one item and one output column: it is the item's row
  function of the block's own rows and the weights. The brand and size rows come out of a product of a zero-one row
  with the whole table, which for an index inside the table is the indexed row.
-/
import proofs.«404036_j22144851378180_1_alg».proof.Proof.Gen.KernelIdeal.Frame
import proofs.«404036_j22144851378180_1_alg».proof.Proof.Tower
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ItemBody

open Cert.KernelIdeal Cert.KernelIdeal.Gen Cert.Tower Idealize.ShloMosaic Idealize.ShloMosaic.ValueIdx

/-! ## A matrix product into zeros, read at an entry -/

/-- A product of an `A × K` by a `K × B` matrix into a zero accumulator, read at `(p, j)`: row `p` against column
    `j`. The four hypotheses say which coordinate of the entry and of the contraction position each operand axis reads. -/
theorem matmul_read {A K B : ℕ} {φ₁ φ₂ : FTy}
    (D : DotDims ⟨2, ![A, K]⟩ ⟨2, ![K, B]⟩ ⟨2, ![A, B]⟩) (hr : D.contr.rank = 1)
    (hs : D.contr.size ⟨0, by omega⟩ = K)
    (l0 : ∀ (i : (⟨2, ![A, B]⟩ : Shape).Idx) (q : D.contr.Idx), (D.lhsIdx i q 0).val = (i 0).val)
    (l1 : ∀ (i : (⟨2, ![A, B]⟩ : Shape).Idx) (q : D.contr.Idx), (D.lhsIdx i q 1).val = (q ⟨0, by omega⟩).val)
    (r0 : ∀ (i : (⟨2, ![A, B]⟩ : Shape).Idx) (q : D.contr.Idx), (D.rhsIdx i q 0).val = (q ⟨0, by omega⟩).val)
    (r1 : ∀ (i : (⟨2, ![A, B]⟩ : Shape).Idx) (q : D.contr.Idx), (D.rhsIdx i q 1).val = (i 1).val)
    (prec : Option ContractPrecision) (l : FVec Ideal ⟨2, ![A, K]⟩ φ₁) (r : FVec Ideal ⟨2, ![K, B]⟩ φ₂)
    (p : Fin A) (j : Fin B) :
    matmul D prec l r (constant (F := Ideal) ⟨2, ![A, B]⟩ .f32 0x00000000#32) (ix2 p j)
      = ∑ k : Fin K, l (ix2 p k) * r (ix2 k j) := by
  show FloatOps.matmul D prec l r (constant (F := Ideal) ⟨2, ![A, B]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact l0 _ _
    | ⟨1, _⟩ => exact (l1 _ _).trans hk)
  have er : D.rhsIdx (ix2 p j) ((contrEquiv1 D K hr hs).symm k) = ix2 k j := funext fun a => Fin.ext (by
    match a with
    | ⟨0, _⟩ => exact (r0 _ _).trans hk
    | ⟨1, _⟩ => exact r1 _ _)
  rw [el, er]

/-- The zero-one row against the brand table. -/
theorem mm_100 {φ₁ φ₂ : FTy} (prec : Option ContractPrecision) (l : FVec Ideal S1000x100 φ₁) (r : FVec Ideal S100x128 φ₂)
    (p : Fin 1000) (j : Fin 128) :
    matmul dot_S1000x100_S100x128_S1000x128_1_0_0_1_n_n prec l r (constant (F := Ideal) S1000x128 .f32 0x00000000#32) (ix2 p j)
      = ∑ k : Fin 100, l (ix2 p k) * r (ix2 k j) :=
  matmul_read dot_S1000x100_S100x128_S1000x128_1_0_0_1_n_n rfl rfl
    (fun i q => by
      unfold DotDims.lhsIdx
      rw [dif_neg (show ¬(0 : Fin S1000x100.rank) ∈ dot_S1000x100_S100x128_S1000x128_1_0_0_1_n_n.lhsBatch by decide),
        dif_pos (show (0 : Fin S1000x100.rank) ∈ dot_S1000x100_S100x128_S1000x128_1_0_0_1_n_n.lhsNonContracting by decide)]
      rfl)
    (fun i q => dot_S1000x100_S100x128_S1000x128_1_0_0_1_n_n.lhsIdx_val_of_single rfl i q)
    (fun i q => dot_S1000x100_S100x128_S1000x128_1_0_0_1_n_n.rhsIdx_val_of_single rfl i q)
    (fun i q => by
      unfold DotDims.rhsIdx
      rw [dif_neg (show ¬(1 : Fin S100x128.rank) ∈ dot_S1000x100_S100x128_S1000x128_1_0_0_1_n_n.rhsBatch by decide),
        dif_pos (show (1 : Fin S100x128.rank) ∈ dot_S1000x100_S100x128_S1000x128_1_0_0_1_n_n.rhsNonContracting by decide)]
      rfl)
    prec l r p j

/-- The zero-one row against the size table. -/
theorem mm_500 {φ₁ φ₂ : FTy} (prec : Option ContractPrecision) (l : FVec Ideal S1000x500 φ₁) (r : FVec Ideal S500x128 φ₂)
    (p : Fin 1000) (j : Fin 128) :
    matmul dot_S1000x500_S500x128_S1000x128_1_0_0_1_n_n prec l r (constant (F := Ideal) S1000x128 .f32 0x00000000#32) (ix2 p j)
      = ∑ k : Fin 500, l (ix2 p k) * r (ix2 k j) :=
  matmul_read dot_S1000x500_S500x128_S1000x128_1_0_0_1_n_n rfl rfl
    (fun i q => by
      unfold DotDims.lhsIdx
      rw [dif_neg (show ¬(0 : Fin S1000x500.rank) ∈ dot_S1000x500_S500x128_S1000x128_1_0_0_1_n_n.lhsBatch by decide),
        dif_pos (show (0 : Fin S1000x500.rank) ∈ dot_S1000x500_S500x128_S1000x128_1_0_0_1_n_n.lhsNonContracting by decide)]
      rfl)
    (fun i q => dot_S1000x500_S500x128_S1000x128_1_0_0_1_n_n.lhsIdx_val_of_single rfl i q)
    (fun i q => dot_S1000x500_S500x128_S1000x128_1_0_0_1_n_n.rhsIdx_val_of_single rfl i q)
    (fun i q => by
      unfold DotDims.rhsIdx
      rw [dif_neg (show ¬(1 : Fin S500x128.rank) ∈ dot_S1000x500_S500x128_S1000x128_1_0_0_1_n_n.rhsBatch by decide),
        dif_pos (show (1 : Fin S500x128.rank) ∈ dot_S1000x500_S500x128_S1000x128_1_0_0_1_n_n.rhsNonContracting by decide)]
      rfl)
    prec l r p j

/-- The text rows against the text projection. -/
theorem mm_384 {φ₁ φ₂ : FTy} (prec : Option ContractPrecision) (l : FVec Ideal S1000x384 φ₁) (r : FVec Ideal S384x64 φ₂)
    (p : Fin 1000) (j : Fin 64) :
    matmul dot_S1000x384_S384x64_S1000x64_1_0_0_1_n_n prec l r (constant (F := Ideal) S1000x64 .f32 0x00000000#32) (ix2 p j)
      = ∑ k : Fin 384, l (ix2 p k) * r (ix2 k j) :=
  matmul_read dot_S1000x384_S384x64_S1000x64_1_0_0_1_n_n rfl rfl
    (fun i q => by
      unfold DotDims.lhsIdx
      rw [dif_neg (show ¬(0 : Fin S1000x384.rank) ∈ dot_S1000x384_S384x64_S1000x64_1_0_0_1_n_n.lhsBatch by decide),
        dif_pos (show (0 : Fin S1000x384.rank) ∈ dot_S1000x384_S384x64_S1000x64_1_0_0_1_n_n.lhsNonContracting by decide)]
      rfl)
    (fun i q => dot_S1000x384_S384x64_S1000x64_1_0_0_1_n_n.lhsIdx_val_of_single rfl i q)
    (fun i q => dot_S1000x384_S384x64_S1000x64_1_0_0_1_n_n.rhsIdx_val_of_single rfl i q)
    (fun i q => by
      unfold DotDims.rhsIdx
      rw [dif_neg (show ¬(1 : Fin S384x64.rank) ∈ dot_S1000x384_S384x64_S1000x64_1_0_0_1_n_n.rhsBatch by decide),
        dif_pos (show (1 : Fin S384x64.rank) ∈ dot_S1000x384_S384x64_S1000x64_1_0_0_1_n_n.rhsNonContracting by decide)]
      rfl)
    prec l r p j

/-- A block of 128-wide rows against a 128 × 128 matrix. -/
theorem mm_128_128 {φ₁ φ₂ : FTy} (prec : Option ContractPrecision) (l : FVec Ideal S1000x128 φ₁) (r : FVec Ideal S128x128 φ₂)
    (p : Fin 1000) (j : Fin 128) :
    matmul dot_S1000x128_S128x128_S1000x128_1_0_0_1_n_n prec l r (constant (F := Ideal) S1000x128 .f32 0x00000000#32) (ix2 p j)
      = ∑ k : Fin 128, l (ix2 p k) * r (ix2 k j) :=
  matmul_read dot_S1000x128_S128x128_S1000x128_1_0_0_1_n_n rfl rfl
    (fun i q => by
      unfold DotDims.lhsIdx
      rw [dif_neg (show ¬(0 : Fin S1000x128.rank) ∈ dot_S1000x128_S128x128_S1000x128_1_0_0_1_n_n.lhsBatch by decide),
        dif_pos (show (0 : Fin S1000x128.rank) ∈ dot_S1000x128_S128x128_S1000x128_1_0_0_1_n_n.lhsNonContracting by decide)]
      rfl)
    (fun i q => dot_S1000x128_S128x128_S1000x128_1_0_0_1_n_n.lhsIdx_val_of_single rfl i q)
    (fun i q => dot_S1000x128_S128x128_S1000x128_1_0_0_1_n_n.rhsIdx_val_of_single rfl i q)
    (fun i q => by
      unfold DotDims.rhsIdx
      rw [dif_neg (show ¬(1 : Fin S128x128.rank) ∈ dot_S1000x128_S128x128_S1000x128_1_0_0_1_n_n.rhsBatch by decide),
        dif_pos (show (1 : Fin S128x128.rank) ∈ dot_S1000x128_S128x128_S1000x128_1_0_0_1_n_n.rhsNonContracting by decide)]
      rfl)
    prec l r p j

/-- A block of 64-wide rows against a 64 × 128 matrix. -/
theorem mm_64_128 {φ₁ φ₂ : FTy} (prec : Option ContractPrecision) (l : FVec Ideal S1000x64 φ₁) (r : FVec Ideal S64x128 φ₂)
    (p : Fin 1000) (j : Fin 128) :
    matmul dot_S1000x64_S64x128_S1000x128_1_0_0_1_n_n prec l r (constant (F := Ideal) S1000x128 .f32 0x00000000#32) (ix2 p j)
      = ∑ k : Fin 64, l (ix2 p k) * r (ix2 k j) :=
  matmul_read dot_S1000x64_S64x128_S1000x128_1_0_0_1_n_n rfl rfl
    (fun i q => by
      unfold DotDims.lhsIdx
      rw [dif_neg (show ¬(0 : Fin S1000x64.rank) ∈ dot_S1000x64_S64x128_S1000x128_1_0_0_1_n_n.lhsBatch by decide),
        dif_pos (show (0 : Fin S1000x64.rank) ∈ dot_S1000x64_S64x128_S1000x128_1_0_0_1_n_n.lhsNonContracting by decide)]
      rfl)
    (fun i q => dot_S1000x64_S64x128_S1000x128_1_0_0_1_n_n.lhsIdx_val_of_single rfl i q)
    (fun i q => dot_S1000x64_S64x128_S1000x128_1_0_0_1_n_n.rhsIdx_val_of_single rfl i q)
    (fun i q => by
      unfold DotDims.rhsIdx
      rw [dif_neg (show ¬(1 : Fin S64x128.rank) ∈ dot_S1000x64_S64x128_S1000x128_1_0_0_1_n_n.rhsBatch by decide),
        dif_pos (show (1 : Fin S64x128.rank) ∈ dot_S1000x64_S64x128_S1000x128_1_0_0_1_n_n.rhsNonContracting by decide)]
      rfl)
    prec l r p j

/-- A block of 128-wide rows against a 128 × 64 matrix. -/
theorem mm_128_64 {φ₁ φ₂ : FTy} (prec : Option ContractPrecision) (l : FVec Ideal S1000x128 φ₁) (r : FVec Ideal S128x64 φ₂)
    (p : Fin 1000) (j : Fin 64) :
    matmul dot_S1000x128_S128x64_S1000x64_1_0_0_1_n_n prec l r (constant (F := Ideal) S1000x64 .f32 0x00000000#32) (ix2 p j)
      = ∑ k : Fin 128, l (ix2 p k) * r (ix2 k j) :=
  matmul_read dot_S1000x128_S128x64_S1000x64_1_0_0_1_n_n rfl rfl
    (fun i q => by
      unfold DotDims.lhsIdx
      rw [dif_neg (show ¬(0 : Fin S1000x128.rank) ∈ dot_S1000x128_S128x64_S1000x64_1_0_0_1_n_n.lhsBatch by decide),
        dif_pos (show (0 : Fin S1000x128.rank) ∈ dot_S1000x128_S128x64_S1000x64_1_0_0_1_n_n.lhsNonContracting by decide)]
      rfl)
    (fun i q => dot_S1000x128_S128x64_S1000x64_1_0_0_1_n_n.lhsIdx_val_of_single rfl i q)
    (fun i q => dot_S1000x128_S128x64_S1000x64_1_0_0_1_n_n.rhsIdx_val_of_single rfl i q)
    (fun i q => by
      unfold DotDims.rhsIdx
      rw [dif_neg (show ¬(1 : Fin S128x64.rank) ∈ dot_S1000x128_S128x64_S1000x64_1_0_0_1_n_n.rhsBatch by decide),
        dif_pos (show (1 : Fin S128x64.rank) ∈ dot_S1000x128_S128x64_S1000x64_1_0_0_1_n_n.rhsNonContracting by decide)]
      rfl)
    prec l r p j

/-! ## Layout operations on a block, read at an entry -/

/-- A bias row, cast to a one-row matrix and repeated over the block's rows, reads the bias at the column. -/
theorem bias_read {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A column repeated over `b` columns reads, at `(p, c)`, the column's entry of row `p`. -/
theorem colBroadcast_read {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column reads, at `(p, u)`, the vector at `p`. -/
theorem colCast_read {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The sum along a block's 64 columns, at row `p`. -/
theorem rowSum_read (src : FVec Ideal S1000x64 .f32) (h : S1000x64.Reduces [1] S1000) (hφ : FKind.Formats .f32)
    (hacc : (0x00000000#32 : BitVec 32) = FKind.add.neutral .f32 hφ) (p : Fin 1000) :
    multiReduction .add [1] S1000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  refine Fin.ext ?_
  match a with
  | ⟨0, _⟩ => rfl
  | ⟨1, _⟩ => rfl

/-! ## The zero-one row of an index -/

/-- A comparison of two words for equality leaves the one-bit word one where they are equal, zero elsewhere. -/
theorem cmpi_eq_ite (z w : BitVec 32) : IntOp.cmpi .eq z w = if z = w then 1#1 else 0#1 := by
  unfold IntOp.cmpi
  by_cases h : z = w
  · subst h; simp
  · have hne : (z == w) = false := beq_eq_false_iff_ne.mpr h
    rw [hne, if_neg h]; rfl

/-- The index column repeated along a table's `N` rows, compared with the row number, widened and read as a number:
    at `(p, k)` it is one where item `p`'s index is `k`, zero elsewhere. -/
theorem oneHot_read {N : ℕ} (v0 : IVec S1000x1 32) (hc : S1000x1.ShapeCasts S1000x1)
    (hi : (⟨2, ![1000, N]⟩ : Shape).Iotas .tc 32 [1]) (hbc : S1000x1.Broadcasts ⟨2, ![1000, N]⟩) (hlt : 1 < 32)
    (p : Fin 1000) (k : Fin N) :
    (sitofp .f32 (extui 32 (cmpi .eq (broadcastTo ⟨2, ![1000, N]⟩ (shapeCast S1000x1 v0 hc) hbc)
        (iota .tc ⟨2, ![1000, N]⟩ 32 [1] hi)) hlt) : FVec Ideal ⟨2, ![1000, N]⟩ .f32) (ix2 p k)
      = hot (v0 (ix2 p (0 : Fin 1))) (BitVec.ofNat 32 k.val) := by
  have e1 : broadcastTo ⟨2, ![1000, N]⟩ (shapeCast S1000x1 v0 hc) hbc (ix2 p k) = v0 (ix2 p (0 : Fin 1)) := by
    rw [shapeCast_self]
    exact colBroadcast_read v0 hbc p k
  have e2 : iota .tc ⟨2, ![1000, N]⟩ 32 [1] hi (ix2 p k) = BitVec.ofNat 32 k.val :=
    iota_single_apply .tc ⟨2, ![1000, N]⟩ 32 1 hi (ix2 p k)
  show ((((IntOp.cmpi .eq (broadcastTo ⟨2, ![1000, N]⟩ (shapeCast S1000x1 v0 hc) hbc (ix2 p k))
      (iota .tc ⟨2, ![1000, N]⟩ 32 [1] hi (ix2 p k))).setWidth 32).toInt : ℝ) : EReal) = _
  rw [e1, e2, cmpi_eq_ite]
  rfl

/-! ## The body's values, read at an entry -/

/-- The brand product is the brand table's row the item's index names. -/
theorem pay2_read (v0 : IVec S1000x1 32) (v7 : FVec Ideal S100x128 .f32) (p : Fin 1000) (j : Fin 128)
    (h : 0 ≤ (v0 (ix2 p (0 : Fin 1))).toInt ∧ (v0 (ix2 p (0 : Fin 1))).toInt < 100) :
    k0_pay2 (F := Ideal) v0 v7 (ix2 p j) = rowOf v7 (rowAt 100 (by omega) (v0 (ix2 p (0 : Fin 1)))) j := by
  unfold k0_pay2
  refine (mm_100 _ _ _ p j).trans ?_
  refine Eq.trans (Finset.sum_congr rfl fun k _ => congrArg (· * v7 (ix2 k j)) (oneHot_read v0 _ _ _ _ p k)) ?_
  exact sum_hot (N := 100) (by omega) (by norm_num) _ h (fun k => v7 (ix2 k j))

/-- The size product is the size table's row the item's index names. -/
theorem pay3_read (v9 : IVec S1000x1 32) (v16 : FVec Ideal S500x128 .f32) (p : Fin 1000) (j : Fin 128)
    (h : 0 ≤ (v9 (ix2 p (0 : Fin 1))).toInt ∧ (v9 (ix2 p (0 : Fin 1))).toInt < 500) :
    k0_pay3 (F := Ideal) v9 v16 (ix2 p j) = rowOf v16 (rowAt 500 (by omega) (v9 (ix2 p (0 : Fin 1)))) j := by
  unfold k0_pay3
  refine (mm_500 _ _ _ p j).trans ?_
  refine Eq.trans (Finset.sum_congr rfl fun k _ => congrArg (· * v16 (ix2 k j)) (oneHot_read v9 _ _ _ _ p k)) ?_
  exact sum_hot (N := 500) (by omega) (by norm_num) _ h (fun k => v16 (ix2 k j))

/-- The text projection: a dense layer and the rectifier on the item's text row. -/
theorem pay4_read (v18 : FVec Ideal S1000x384 .f32) (v20 : FVec Ideal S384x64 .f32) (v23 : FVec Ideal S64 .f32)
    (p : Fin 1000) (j : Fin 64) :
    k0_pay4 (F := Ideal) v18 v20 v23 (ix2 p j) = relu (affine (rowOf v18 p) (matOf v20) (vecOf v23) j) := by
  unfold k0_pay4
  show max (matmul _ _ _ _ _ (ix2 p j) + broadcastTo _ (shapeCast _ v23 _) _ (ix2 p j)) (Ideal.ofBits .f32 0x00000000#32) = _
  rw [mm_384, bias_read, Ideal.ofBits_zero_f32]
  rfl

/-- The first weight matrix's five row blocks. -/
theorem pay6_read (v29 : FVec Ideal S512x128 .f32) (k : Fin 128) (j : Fin 128) :
    k0_pay6 (F := Ideal) v29 (ix2 k j) = rowsFrom (matOf v29) 128 0 (by omega) k j := by
  unfold k0_pay6 k0_pay5
  exact slice2_axis0_apply 0 _ slices_S512x128_o0_0_S128x128 k j ⟨0 + k.val, by have := k.isLt; omega⟩ rfl

theorem pay7_read (v29 : FVec Ideal S512x128 .f32) (k : Fin 128) (j : Fin 128) :
    k0_pay7 (F := Ideal) v29 (ix2 k j) = rowsFrom (matOf v29) 128 128 (by omega) k j := by
  unfold k0_pay7 k0_pay5
  exact slice2_axis0_apply 128 _ slices_S512x128_o128_0_S128x128 k j ⟨128 + k.val, by have := k.isLt; omega⟩ rfl

theorem pay8_read (v29 : FVec Ideal S512x128 .f32) (k : Fin 128) (j : Fin 128) :
    k0_pay8 (F := Ideal) v29 (ix2 k j) = rowsFrom (matOf v29) 128 256 (by omega) k j := by
  unfold k0_pay8 k0_pay5
  exact slice2_axis0_apply 256 _ slices_S512x128_o256_0_S128x128 k j ⟨256 + k.val, by have := k.isLt; omega⟩ rfl

theorem pay9_read (v29 : FVec Ideal S512x128 .f32) (k : Fin 64) (j : Fin 128) :
    k0_pay9 (F := Ideal) v29 (ix2 k j) = rowsFrom (matOf v29) 64 384 (by omega) k j := by
  unfold k0_pay9 k0_pay5
  exact slice2_axis0_apply 384 _ slices_S512x128_o384_0_S64x128 k j ⟨384 + k.val, by have := k.isLt; omega⟩ rfl

theorem pay10_read (v29 : FVec Ideal S512x128 .f32) (k : Fin 64) (j : Fin 128) :
    k0_pay10 (F := Ideal) v29 (ix2 k j) = rowsFrom (matOf v29) 64 448 (by omega) k j := by
  unfold k0_pay10 k0_pay5
  exact slice2_axis0_apply 448 _ slices_S512x128_o448_0_S64x128 k j ⟨448 + k.val, by have := k.isLt; omega⟩ rfl

/-- The zero word a rectifier compares with is the number zero. -/
theorem zero_word : Scalar.ofBits (F := Ideal) .f32 0x00000000#32 = (0 : EReal) := Ideal.ofBits_zero_f32

/-- The three dense layers up to the last bias, at item `p` and column `j`, from the rows of item `p` the first layer
    reads (`ht`, `hb`, `hs`, the item's specification row, `tp`) and the five row blocks of its matrix. -/
theorem pay12_read (v8 v17 : FVec Ideal S1000x128 .f32) (v28 : FVec Ideal S1000x64 .f32)
    (v31 v32 v33 : FVec Ideal S128x128 .bf16) (v34 v35 : FVec Ideal S64x128 .bf16) (v37 : FVec Ideal S1000x128 .bf16)
    (v45 : FVec Ideal S1000x64 .f32) (v52 : FVec Ideal S128 .f32) (v59 : FVec Ideal S128x128 .f32)
    (v62 : FVec Ideal S128 .f32) (v69 : FVec Ideal S128x64 .f32) (v72 : FVec Ideal S64 .f32) (p : Fin 1000) (j : Fin 64)
    (ht hb hs : Fin 128 → EReal) (tp : Fin 64 → EReal) (W : Fin 512 → Fin 128 → EReal)
    (h37 : ∀ k, v37 (ix2 p k) = ht k) (h8 : ∀ k, v8 (ix2 p k) = hb k) (h17 : ∀ k, v17 (ix2 p k) = hs k)
    (h28 : ∀ k, v28 (ix2 p k) = tp k)
    (h31 : ∀ k c, v31 (ix2 k c) = rowsFrom W 128 0 (by omega) k c)
    (h32 : ∀ k c, v32 (ix2 k c) = rowsFrom W 128 128 (by omega) k c)
    (h33 : ∀ k c, v33 (ix2 k c) = rowsFrom W 128 256 (by omega) k c)
    (h34 : ∀ k c, v34 (ix2 k c) = rowsFrom W 64 384 (by omega) k c)
    (h35 : ∀ k c, v35 (ix2 k c) = rowsFrom W 64 448 (by omega) k c) :
    k0_pay12 (F := Ideal) v8 v17 v28 v31 v32 v33 v34 v35 v37 v45 v52 v59 v62 v69 v72 (ix2 p j)
      = affine (fun k => relu (affine (fun k => relu (itemPre ht hb hs (rowOf v45 p) tp W k + vecOf v52 k))
          (matOf v59) (vecOf v62) k)) (matOf v69) (vecOf v72) j := by
  unfold k0_pay12
  simp only [addf_apply, maximumf_apply, truncf_apply, broadcast_apply, mm_128_64, mm_128_128, mm_64_128, bias_read,
    zero_word, h37, h8, h17, h28, h31, h32, h33, h34, h35]
  rfl

/-- The row's sum of squares, as a column. -/
theorem pay13_read (v8 v17 : FVec Ideal S1000x128 .f32) (v28 : FVec Ideal S1000x64 .f32)
    (v31 v32 v33 : FVec Ideal S128x128 .bf16) (v34 v35 : FVec Ideal S64x128 .bf16) (v37 : FVec Ideal S1000x128 .bf16)
    (v45 : FVec Ideal S1000x64 .f32) (v52 : FVec Ideal S128 .f32) (v59 : FVec Ideal S128x128 .f32)
    (v62 : FVec Ideal S128 .f32) (v69 : FVec Ideal S128x64 .f32) (v72 : FVec Ideal S64 .f32) (p : Fin 1000) (u : Fin 1) :
    k0_pay13 (F := Ideal) v8 v17 v28 v31 v32 v33 v34 v35 v37 v45 v52 v59 v62 v69 v72 (ix2 p u)
      = ∑ k : Fin 64, k0_pay12 (F := Ideal) v8 v17 v28 v31 v32 v33 v34 v35 v37 v45 v52 v59 v62 v69 v72 (ix2 p k)
          * k0_pay12 (F := Ideal) v8 v17 v28 v31 v32 v33 v34 v35 v37 v45 v52 v59 v62 v69 v72 (ix2 p k) := by
  unfold k0_pay13
  refine (colCast_read _ _ p u).trans ?_
  exact rowSum_read _ _ _ _ p

/-- The division by the floored norm. -/
theorem pay1_read (v75 : FVec Ideal S1000x64 .f32) (v78 : FVec Ideal S1000x1 .f32) (p : Fin 1000) (q : Fin 64) :
    k0_pay1 (F := Ideal) v75 v78 (ix2 p q)
      = Ideal.div (v75 (ix2 p q)) (max (Ideal.sqrt (v78 (ix2 p (0 : Fin 1)))) normFloor) := by
  unfold k0_pay1
  show Ideal.div (v75 (ix2 p q)) (broadcastTo _ _ _ (ix2 p q)) = _
  rw [colBroadcast_read]
  rfl

/-- What the item tower's body leaves in its output block, at item `p` of the block and column `q`. -/
theorem out_apply (x0 : Vec Ideal S1000x128 .f32) (x1 x2 : IVec S1000x1 32) (x3 : Vec Ideal S1000x64 .f32)
    (x4 : Vec Ideal S1000x384 .f32) (x5 : Vec Ideal S100x128 .f32) (x6 : Vec Ideal S500x128 .f32)
    (x7 : Vec Ideal S384x64 .f32) (x8 : Vec Ideal S64 .f32) (x9 : Vec Ideal S512x128 .f32) (x10 : Vec Ideal S128 .f32)
    (x11 : Vec Ideal S128x128 .f32) (x12 : Vec Ideal S128 .f32) (x13 : Vec Ideal S128x64 .f32) (x14 : Vec Ideal S64 .f32)
    (p : Fin 1000) (q : Fin 64)
    (hb : 0 ≤ (x1 (ix2 p (0 : Fin 1))).toInt ∧ (x1 (ix2 p (0 : Fin 1))).toInt < 100)
    (hs : 0 ≤ (x2 (ix2 p (0 : Fin 1))).toInt ∧ (x2 (ix2 p (0 : Fin 1))).toInt < 500) :
    out0_15 (F := Ideal) x0 x1 x2 x3 x4 x5 x6 x7 x8 x9 x10 x11 x12 x13 x14 (ix2 p q)
      = itemRow (rowOf x0 p) (rowOf x5 (rowAt 100 (by omega) (x1 (ix2 p (0 : Fin 1)))))
          (rowOf x6 (rowAt 500 (by omega) (x2 (ix2 p (0 : Fin 1))))) (rowOf x3 p) (rowOf x4 p)
          (matOf x7) (vecOf x8) (matOf x9) (vecOf x10) (matOf x11) (vecOf x12) (matOf x13) (vecOf x14) q := by
  have hz : (![0, 0] : Fin 2 → Nat) = fun _ => 0 := by
    funext a; match a with | ⟨0, _⟩ => rfl | ⟨1, _⟩ => rfl
  have hz1 : (![0] : Fin 1 → Nat) = fun _ => 0 := by
    funext a; match a with | ⟨0, _⟩ => rfl
  unfold out0_15
  rw [View.canon_unit_zero hz]
  simp only [View.ld_unit_zero (S := S1000x1) hz, View.ld_unit_zero (S := S100x128) hz,
    View.ld_unit_zero (S := S500x128) hz, View.ld_unit_zero (S := S1000x384) hz, View.ld_unit_zero (S := S384x64) hz,
    View.ld_unit_zero (S := S64) hz1, View.ld_unit_zero (S := S512x128) hz, View.ld_unit_zero (S := S1000x128) hz,
    View.ld_unit_zero (S := S1000x64) hz, View.ld_unit_zero (S := S128) hz1, View.ld_unit_zero (S := S128x128) hz,
    View.ld_unit_zero (S := S128x64) hz]
  refine (pay1_read _ _ p q).trans ?_
  rw [pay13_read]
  have h12 := fun c : Fin 64 =>
    pay12_read (k0_pay2 x1 x5) (k0_pay3 x2 x6) (k0_pay4 x4 x7 x8) (k0_pay6 x9) (k0_pay7 x9) (k0_pay8 x9) (k0_pay9 x9)
      (k0_pay10 x9) (k0_pay11 x0) x3 x10 x11 x12 x13 x14 p c
      (rowOf x0 p) (rowOf x5 (rowAt 100 (by omega) (x1 (ix2 p (0 : Fin 1)))))
      (rowOf x6 (rowAt 500 (by omega) (x2 (ix2 p (0 : Fin 1)))))
      (fun k => relu (affine (rowOf x4 p) (matOf x7) (vecOf x8) k)) (matOf x9)
      (fun _ => rfl) (fun k => pay2_read x1 x5 p k hb) (fun k => pay3_read x2 x6 p k hs)
      (fun k => pay4_read x4 x7 x8 p k) (pay6_read x9) (pay7_read x9) (pay8_read x9) (pay9_read x9) (pay10_read x9)
  simp only [h12]
  rfl

end Cert.KernelIdeal.ItemBody

end
-- ==== Proof.KUser.lean ====
/-
  The user tower's body on one block of 2000 users, read at one user and one output column: it is the user's row
  function of the block's own rows and the weights.
-/
import proofs.«404036_j22144851378180_1_alg».proof.Proof.Gen.KernelIdeal.Frame
import proofs.«404036_j22144851378180_1_alg».proof.Proof.Tower
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.UserBody

open Cert.KernelIdeal Cert.KernelIdeal.Gen Cert.Tower Idealize.ShloMosaic Idealize.ShloMosaic.ValueIdx

/-! The product record 2000x128 by 128x128: its operand indices, axis by axis. -/

theorem lhs_emb_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_emb_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_emb_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_emb_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, at row `p` and column `j`: the sum over the 128 shared positions. -/
theorem mm_emb_apply (L : FVec Ideal S2000x128 .bf16) (R : FVec Ideal S128x128 .bf16) (p : Fin 2000) (j : Fin 128) :
    matmul dot_S2000x128_S128x128_S2000x128_1_0_0_1_n_n none L R (constant (F := Ideal) S2000x128 .f32 0x00000000#32) (ix2 p j)
      = ∑ k : Fin 128, L (ix2 p k) * R (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k := funext fun a => Fin.ext (by
    match a with
    | ⟨0, _⟩ => exact lhs_emb_0 _ _
    | ⟨1, _⟩ => exact (lhs_emb_1 _ _).trans hk)
  have er : dot_S2000x128_S128x128_S2000x128_1_0_0_1_n_n.rhsIdx (ix2 p j) ((contrEquiv1 dot_S2000x128_S128x128_S2000x128_1_0_0_1_n_n 128 rfl rfl).symm k) = ix2 k j := funext fun a => Fin.ext (by
    match a with
    | ⟨0, _⟩ => exact (rhs_emb_0 _ _).trans hk
    | ⟨1, _⟩ => exact rhs_emb_1 _ _)
  rw [el, er]

/-! The product record 2000x64 by 64x128: its operand indices, axis by axis. -/

theorem lhs_hist_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_hist_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhs_hist_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhs_hist_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The product into a zero accumulator, at row `p` and column `j`: the sum over the 64 shared positions. -/
theorem mm_hist_apply (L : FVec Ideal S2000x64 .bf16) (R : FVec Ideal S64x128 .bf16) (p : Fin 2000) (j : Fin 128) :
    matmul dot_S2000x64_S64x128_S2000x128_1_0_0_1_n_n none L R (constant (F := Ideal) S2000x128 .f32 0x00000000#32) (ix2 p j)
      = ∑ k : Fin 64, L (ix2 p k) * R (ix2 k j) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p j) ((contrEquiv1 dot_S2000x64_S64x128_S2000x128_1_0_0_1_n_n 64 rfl rfl).symm k) = ix2 p k := funext fun a => Fin.ext (by
    match a with
    | ⟨0, _⟩ => exact lhs_hist_0 _ _
    | ⟨1, _⟩ => exact (lhs_hist_1 _ _).trans hk)
  have er : dot_S2000x64_S64x128_S2000x128_1_0_0_1_n_n.rhsIdx (ix2 p j) ((contrEquiv1 dot_S2000x64_S64x128_S2000x128_1_0_0_1_n_n 64 rfl rfl).symm k) = ix2 k j := funext fun a => Fin.ext (by
    match a with
    | ⟨0, _⟩ => exact (rhs_hist_0 _ _).trans hk
    | ⟨1, _⟩ => exact rhs_hist_1 _ _)
  rw [el, er]

/-! The product record 2000x128 by 128x64: its operand indices, axis by axis. -/

theorem lhs_out_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_out_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_out_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_out_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product into a zero accumulator, at row `p` and column `j`: the sum over the 128 shared positions. -/
theorem mm_out_apply (L : FVec Ideal S2000x128 .bf16) (R : FVec Ideal S128x64 .bf16) (p : Fin 2000) (j : Fin 64) :
    matmul dot_S2000x128_S128x64_S2000x64_1_0_0_1_n_n none L R (constant (F := Ideal) S2000x64 .f32 0x00000000#32) (ix2 p j)
      = ∑ k : Fin 128, L (ix2 p k) * R (ix2 k j) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p j) ((contrEquiv1 dot_S2000x128_S128x64_S2000x64_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S2000x128_S128x64_S2000x64_1_0_0_1_n_n.rhsIdx (ix2 p j) ((contrEquiv1 dot_S2000x128_S128x64_S2000x64_1_0_0_1_n_n 128 rfl rfl).symm k) = ix2 k j := funext fun a => Fin.ext (by
    match a with
    | ⟨0, _⟩ => exact (rhs_out_0 _ _).trans hk
    | ⟨1, _⟩ => exact rhs_out_1 _ _)
  rw [el, er]

/-! Layout operations at coordinates. -/

/-- A vector laid as one row and repeated down the rows reads, at `(p, j)`, the vector at `j`. -/
theorem rowBias_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix1 j) :=
  (broadcastTo_1b_ab_apply _ h2 p j).trans (shapeCast_a_1a_apply v h1 0 j)

/-- A vector laid as one column reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column repeated across the columns reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first 128 rows of the 192-row matrix. -/
theorem rowsTop_apply {α : Type} (X : S192x128.Idx → α) (h : S192x128.Slices ![0, 0] S128x128) (k : Fin 128) (j : Fin 128) :
    extractStridedSlice S128x128 ![0, 0] X h (ix2 k j) = X (ix2 (⟨0 + k.val, by have := k.isLt; omega⟩ : Fin 192) j) :=
  slice2_axis0_apply 0 X h k j _ rfl

/-- Its last 64 rows. -/
theorem rowsBot_apply {α : Type} (X : S192x128.Idx → α) (h : S192x128.Slices ![128, 0] S64x128) (k : Fin 64) (j : Fin 128) :
    extractStridedSlice S64x128 ![128, 0] X h (ix2 k j) = X (ix2 (⟨128 + k.val, by have := k.isLt; omega⟩ : Fin 192) j) :=
  slice2_axis0_apply 128 X h k j _ rfl

/-- The sum along a row of the 64 columns. -/
theorem rowSum_apply (src : FVec Ideal S2000x64 .f32) (h : S2000x64.Reduces [1] S2000) (hφ : FKind.Formats .f32)
    (hacc : (0x00000000#32 : BitVec 32) = FKind.add.neutral .f32 hφ) (p : Fin 2000) :
    multiReduction (F := Ideal) .add [1] S2000 src 0x00000000#32 h hφ hacc (ix1 p) = ∑ k : Fin 64, src (ix2 p k) := by
  refine (Ideal.multiReduction_add_single src _ h hφ hacc (ix1 p)).trans ?_
  show ∑ k : Fin 64, src (h.lift (ix1 p) k) = _
  refine Finset.sum_congr rfl fun k _ => congrArg src ?_
  funext a
  match a with
  | ⟨0, _⟩ => exact Fin.ext rfl
  | ⟨1, _⟩ => exact Fin.ext rfl

/-! The body's three values at coordinates. -/

/-- The three dense layers up to the last sum and its bias, at user `p` and column `q`. -/
theorem pay2_apply (v0 : Vec Ideal S192x128 .f32) (v4 : Vec Ideal S2000x128 .f32) (v7 : Vec Ideal S2000x64 .f32)
    (v12 : Vec Ideal S128 .f32) (v19 : Vec Ideal S128x128 .f32) (v22 : Vec Ideal S128 .f32) (v29 : Vec Ideal S128x64 .f32)
    (v32 : Vec Ideal S64 .f32) (p : Fin 2000) (q : Fin 64) :
    k1_pay2 (F := Ideal) v0 v4 v7 v12 v19 v22 v29 v32 (ix2 p q)
      = affine (fun k => relu (affine (fun k => relu (userPre (rowOf v4 p) (rowOf v7 p) (matOf v0) k + vecOf v12 k))
          (matOf v19) (vecOf v22) k)) (matOf v29) (vecOf v32) q := by
  unfold k1_pay2
  simp only [addf_apply, mm_out_apply, mm_emb_apply, mm_hist_apply, truncf_apply, maximumf_apply, broadcast_apply,
    rowBias_apply, rowsTop_apply, rowsBot_apply, shapeCast_self]
  simp only [Ideal.ofBits_def, Ideal.ofBits_zero_f32]
  unfold affine relu userPre rowsFrom rowOf matOf vecOf
  rfl

/-- The sum of the squares along the user's row, kept as a column. -/
theorem pay3_apply (v0 : Vec Ideal S192x128 .f32) (v4 : Vec Ideal S2000x128 .f32) (v7 : Vec Ideal S2000x64 .f32)
    (v12 : Vec Ideal S128 .f32) (v19 : Vec Ideal S128x128 .f32) (v22 : Vec Ideal S128 .f32) (v29 : Vec Ideal S128x64 .f32)
    (v32 : Vec Ideal S64 .f32) (p : Fin 2000) (u : Fin 1) :
    k1_pay3 (F := Ideal) v0 v4 v7 v12 v19 v22 v29 v32 (ix2 p u)
      = ∑ k : Fin 64, k1_pay2 (F := Ideal) v0 v4 v7 v12 v19 v22 v29 v32 (ix2 p k)
          * k1_pay2 (F := Ideal) v0 v4 v7 v12 v19 v22 v29 v32 (ix2 p k) := by
  unfold k1_pay3
  refine (shapeCast_a_a1_apply _ _ p u).trans ?_
  refine (rowSum_apply _ _ _ _ p).trans ?_
  rfl

/-- The division of a row by the larger of the root of its column entry and the floor. -/
theorem pay1_apply (A : FVec Ideal S2000x64 .f32) (B : FVec Ideal S2000x1 .f32) (p : Fin 2000) (q : Fin 64) :
    k1_pay1 (F := Ideal) A B (ix2 p q)
      = Ideal.div (A (ix2 p q)) (max (Ideal.sqrt (B (ix2 p (0 : Fin 1)))) normFloor) := by
  unfold k1_pay1
  show Ideal.div (A (ix2 p q)) _ = _
  refine congrArg (Ideal.div (A (ix2 p q))) ?_
  refine (broadcastTo_a1_ab_apply _ _ p q).trans ?_
  rfl

/-- What the user tower's body leaves in its output block, at user `p` of the block and column `q`. -/
theorem out_apply (x0 : Vec Ideal S2000x128 .f32) (x1 : Vec Ideal S2000x64 .f32) (x2 : Vec Ideal S192x128 .f32)
    (x3 : Vec Ideal S128 .f32) (x4 : Vec Ideal S128x128 .f32) (x5 : Vec Ideal S128 .f32) (x6 : Vec Ideal S128x64 .f32)
    (x7 : Vec Ideal S64 .f32) (p : Fin 2000) (q : Fin 64) :
    out1_8 (F := Ideal) x0 x1 x2 x3 x4 x5 x6 x7 (ix2 p q)
      = userRow (rowOf x0 p) (rowOf x1 p) (matOf x2) (vecOf x3) (matOf x4) (vecOf x5) (matOf x6) (vecOf x7) q := by
  have hz2 : (![0, 0] : Fin 2 → Nat) = fun _ => 0 := funext fun a => by
    match a with
    | ⟨0, _⟩ => rfl
    | ⟨1, _⟩ => rfl
  have hz1 : (![0] : Fin 1 → Nat) = fun _ => 0 := funext fun a => by
    match a with
    | ⟨0, _⟩ => rfl
  unfold out1_8
  rw [View.canon_unit_zero hz2]
  simp only [View.ld_unit_zero (S := S192x128) hz2, View.ld_unit_zero (S := S2000x128) hz2,
    View.ld_unit_zero (S := S2000x64) hz2, View.ld_unit_zero (S := S128x128) hz2, View.ld_unit_zero (S := S128x64) hz2,
    View.ld_unit_zero (S := S128) hz1, View.ld_unit_zero (S := S64) hz1]
  rw [pay1_apply, pay3_apply]
  simp only [pay2_apply]
  unfold userRow unitRow
  rfl

end Cert.KernelIdeal.UserBody

end
-- ==== Proof.KValue.lean ====
/-
  What the kernel's two regions leave in their output arrays, as whole-array functions of the arguments.

  Region 0 runs the item tower's body at 100 grid points, point t on items 1000 t .. 1000 t + 999: its input windows on
  the per-item arrays move with the point, its weight windows stay on the whole arrays, and its output block is written
  back to rows 1000 t .. 1000 t + 999 of the item vectors. Since the body's output row depends only on the same row of
  the per-item blocks, the array ends at the item tower's function of the arguments. Region 1 does the same for users,
  2000 at a time over 50 points, reading the pooled histories the host computes between the two regions.
-/
import proofs.«404036_j22144851378180_1_alg».proof.Proof.Gen.KernelIdeal.Frame
import proofs.«404036_j22144851378180_1_alg».proof.Proof.Tower
import proofs.«404036_j22144851378180_1_alg».proof.Proof.KItem
import proofs.«404036_j22144851378180_1_alg».proof.Proof.KUser
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.Tower
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl

/-! ## Region 0: the item tower -/

/-- The printed index maps of region 0, decided over its 100 points: a per-item window's block index is the point on the
    row axis and 0 on the column axis; a weight window's is 0 on every axis. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0
    ∧ win0_15.index t (0 : Fin 2) = t.val ∧ win0_15.index t (1 : Fin 2) = 0 :=
  (by decide +kernel : ∀ t : Fin grid0.N, _)

/-- The item a point's block row names. -/
def item (t : Fin cfg0.N) (p : Fin 1000) : Fin 100000 :=
  ⟨t.val * 1000 + p.val, by have h := t.isLt; have hN : cfg0.N = 100 := N_0; have := p.isLt; omega⟩

section Blocks0
variable (V : (c : Dev nD) → (b : Ref sig .tc) → Buf (Elt Ideal) ((c : Thread nD τ).loc b))

/-- A row of the point's block of window 0 is the item's row of its array. -/
theorem blk0_0 (c : Dev nD) (t : Fin cfg0.N) (p : Fin 1000) :
    rowOf (R := 1000) (C := 128) (iblk0 V c 0 t) p = rowOf (R := 100000) (C := 128) (V c main_arg1) (item t p) := by
  obtain ⟨e00, e01, e10, e11, e20, e21, e30, e31, e40, e41, -⟩ := idx0 t
  funext k
  show V c main_arg1 (((cfg0.win 0).blk t).view.emb (ix2 p k)) = V c main_arg1 (ix2 (item t p) k)
  refine congrArg _ (funext fun a => Fin.ext ?_)
  match a with
  | ⟨0, _⟩ => show win0_0.index t (0 : Fin 2) * 1000 + 1 * p.val = t.val * 1000 + p.val; omega
  | ⟨1, _⟩ => show win0_0.index t (1 : Fin 2) * 128 + 1 * k.val = k.val; omega

/-- The point's block of window 1 at a row is the item's index word. -/
theorem blk0_1 (c : Dev nD) (t : Fin cfg0.N) (p : Fin 1000) :
    (iblk0 V c 1 t : IVec S1000x1 32) (ix2 p (0 : Fin 1)) = V c main_v0 (ix2 (item t p) (0 : Fin 1)) := by
  obtain ⟨e00, e01, e10, e11, e20, e21, e30, e31, e40, e41, -⟩ := idx0 t
  show V c main_v0 (((cfg0.win 1).blk t).view.emb (ix2 p (0 : Fin 1))) = V c main_v0 (ix2 (item t p) (0 : Fin 1))
  refine congrArg _ (funext fun a => Fin.ext ?_)
  match a with
  | ⟨0, _⟩ => show win0_1.index t (0 : Fin 2) * 1000 + 1 * p.val = t.val * 1000 + p.val; omega
  | ⟨1, _⟩ => show win0_1.index t (1 : Fin 2) * 1 + 1 * 0 = 0; omega

/-- The point's block of window 2 at a row is the item's index word. -/
theorem blk0_2 (c : Dev nD) (t : Fin cfg0.N) (p : Fin 1000) :
    (iblk0 V c 2 t : IVec S1000x1 32) (ix2 p (0 : Fin 1)) = V c main_v1 (ix2 (item t p) (0 : Fin 1)) := by
  obtain ⟨e00, e01, e10, e11, e20, e21, e30, e31, e40, e41, -⟩ := idx0 t
  show V c main_v1 (((cfg0.win 2).blk t).view.emb (ix2 p (0 : Fin 1))) = V c main_v1 (ix2 (item t p) (0 : Fin 1))
  refine congrArg _ (funext fun a => Fin.ext ?_)
  match a with
  | ⟨0, _⟩ => show win0_2.index t (0 : Fin 2) * 1000 + 1 * p.val = t.val * 1000 + p.val; omega
  | ⟨1, _⟩ => show win0_2.index t (1 : Fin 2) * 1 + 1 * 0 = 0; omega

/-- A row of the point's block of window 3 is the item's row of its array. -/
theorem blk0_3 (c : Dev nD) (t : Fin cfg0.N) (p : Fin 1000) :
    rowOf (R := 1000) (C := 64) (iblk0 V c 3 t) p = rowOf (R := 100000) (C := 64) (V c main_arg4) (item t p) := by
  obtain ⟨e00, e01, e10, e11, e20, e21, e30, e31, e40, e41, -⟩ := idx0 t
  funext k
  show V c main_arg4 (((cfg0.win 3).blk t).view.emb (ix2 p k)) = V c main_arg4 (ix2 (item t p) k)
  refine congrArg _ (funext fun a => Fin.ext ?_)
  match a with
  | ⟨0, _⟩ => show win0_3.index t (0 : Fin 2) * 1000 + 1 * p.val = t.val * 1000 + p.val; omega
  | ⟨1, _⟩ => show win0_3.index t (1 : Fin 2) * 64 + 1 * k.val = k.val; omega

/-- A row of the point's block of window 4 is the item's row of its array. -/
theorem blk0_4 (c : Dev nD) (t : Fin cfg0.N) (p : Fin 1000) :
    rowOf (R := 1000) (C := 384) (iblk0 V c 4 t) p = rowOf (R := 100000) (C := 384) (V c main_arg5) (item t p) := by
  obtain ⟨e00, e01, e10, e11, e20, e21, e30, e31, e40, e41, -⟩ := idx0 t
  funext k
  show V c main_arg5 (((cfg0.win 4).blk t).view.emb (ix2 p k)) = V c main_arg5 (ix2 (item t p) k)
  refine congrArg _ (funext fun a => Fin.ext ?_)
  match a with
  | ⟨0, _⟩ => show win0_4.index t (0 : Fin 2) * 1000 + 1 * p.val = t.val * 1000 + p.val; omega
  | ⟨1, _⟩ => show win0_4.index t (1 : Fin 2) * 384 + 1 * k.val = k.val; omega

/-- Window 5 stays on the whole of its array at every point. -/
theorem blk0_5 (c : Dev nD) (t : Fin cfg0.N) : (iblk0 V c 5 t : Vec Ideal S100x128 .f32) = V c main_arg2 := by
  obtain ⟨-, -, -, -, -, -, -, -, -, -, e50, e51, e60, e61, e70, e71, e80, e90, e91, e100, e110, e111, e120, e130, e131, e140, -⟩ := idx0 t
  funext y
  show V c main_arg2 (((cfg0.win 5).blk t).view.emb y) = V c main_arg2 y
  refine congrArg _ (funext fun a => Fin.ext ?_)
  match a with
  | ⟨0, _⟩ => show win0_5.index t (0 : Fin 2) * 100 + 1 * (y 0).val = (y 0).val; omega
  | ⟨1, _⟩ => show win0_5.index t (1 : Fin 2) * 128 + 1 * (y 1).val = (y 1).val; omega

/-- Window 6 stays on the whole of its array at every point. -/
theorem blk0_6 (c : Dev nD) (t : Fin cfg0.N) : (iblk0 V c 6 t : Vec Ideal S500x128 .f32) = V c main_arg3 := by
  obtain ⟨-, -, -, -, -, -, -, -, -, -, e50, e51, e60, e61, e70, e71, e80, e90, e91, e100, e110, e111, e120, e130, e131, e140, -⟩ := idx0 t
  funext y
  show V c main_arg3 (((cfg0.win 6).blk t).view.emb y) = V c main_arg3 y
  refine congrArg _ (funext fun a => Fin.ext ?_)
  match a with
  | ⟨0, _⟩ => show win0_6.index t (0 : Fin 2) * 500 + 1 * (y 0).val = (y 0).val; omega
  | ⟨1, _⟩ => show win0_6.index t (1 : Fin 2) * 128 + 1 * (y 1).val = (y 1).val; omega

/-- Window 7 stays on the whole of its array at every point. -/
theorem blk0_7 (c : Dev nD) (t : Fin cfg0.N) : (iblk0 V c 7 t : Vec Ideal S384x64 .f32) = V c main_arg10 := by
  obtain ⟨-, -, -, -, -, -, -, -, -, -, e50, e51, e60, e61, e70, e71, e80, e90, e91, e100, e110, e111, e120, e130, e131, e140, -⟩ := idx0 t
  funext y
  show V c main_arg10 (((cfg0.win 7).blk t).view.emb y) = V c main_arg10 y
  refine congrArg _ (funext fun a => Fin.ext ?_)
  match a with
  | ⟨0, _⟩ => show win0_7.index t (0 : Fin 2) * 384 + 1 * (y 0).val = (y 0).val; omega
  | ⟨1, _⟩ => show win0_7.index t (1 : Fin 2) * 64 + 1 * (y 1).val = (y 1).val; omega

/-- Window 8 stays on the whole of its array at every point. -/
theorem blk0_8 (c : Dev nD) (t : Fin cfg0.N) : (iblk0 V c 8 t : Vec Ideal S64 .f32) = V c main_arg11 := by
  obtain ⟨-, -, -, -, -, -, -, -, -, -, e50, e51, e60, e61, e70, e71, e80, e90, e91, e100, e110, e111, e120, e130, e131, e140, -⟩ := idx0 t
  funext y
  show V c main_arg11 (((cfg0.win 8).blk t).view.emb y) = V c main_arg11 y
  refine congrArg _ (funext fun a => Fin.ext ?_)
  match a with
  | ⟨0, _⟩ => show win0_8.index t (0 : Fin 1) * 64 + 1 * (y 0).val = (y 0).val; omega

/-- Window 9 stays on the whole of its array at every point. -/
theorem blk0_9 (c : Dev nD) (t : Fin cfg0.N) : (iblk0 V c 9 t : Vec Ideal S512x128 .f32) = V c main_arg12 := by
  obtain ⟨-, -, -, -, -, -, -, -, -, -, e50, e51, e60, e61, e70, e71, e80, e90, e91, e100, e110, e111, e120, e130, e131, e140, -⟩ := idx0 t
  funext y
  show V c main_arg12 (((cfg0.win 9).blk t).view.emb y) = V c main_arg12 y
  refine congrArg _ (funext fun a => Fin.ext ?_)
  match a with
  | ⟨0, _⟩ => show win0_9.index t (0 : Fin 2) * 512 + 1 * (y 0).val = (y 0).val; omega
  | ⟨1, _⟩ => show win0_9.index t (1 : Fin 2) * 128 + 1 * (y 1).val = (y 1).val; omega

/-- Window 10 stays on the whole of its array at every point. -/
theorem blk0_10 (c : Dev nD) (t : Fin cfg0.N) : (iblk0 V c 10 t : Vec Ideal S128 .f32) = V c main_arg13 := by
  obtain ⟨-, -, -, -, -, -, -, -, -, -, e50, e51, e60, e61, e70, e71, e80, e90, e91, e100, e110, e111, e120, e130, e131, e140, -⟩ := idx0 t
  funext y
  show V c main_arg13 (((cfg0.win 10).blk t).view.emb y) = V c main_arg13 y
  refine congrArg _ (funext fun a => Fin.ext ?_)
  match a with
  | ⟨0, _⟩ => show win0_10.index t (0 : Fin 1) * 128 + 1 * (y 0).val = (y 0).val; omega

/-- Window 11 stays on the whole of its array at every point. -/
theorem blk0_11 (c : Dev nD) (t : Fin cfg0.N) : (iblk0 V c 11 t : Vec Ideal S128x128 .f32) = V c main_arg14 := by
  obtain ⟨-, -, -, -, -, -, -, -, -, -, e50, e51, e60, e61, e70, e71, e80, e90, e91, e100, e110, e111, e120, e130, e131, e140, -⟩ := idx0 t
  funext y
  show V c main_arg14 (((cfg0.win 11).blk t).view.emb y) = V c main_arg14 y
  refine congrArg _ (funext fun a => Fin.ext ?_)
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12 stays on the whole of its array at every point. -/
theorem blk0_12 (c : Dev nD) (t : Fin cfg0.N) : (iblk0 V c 12 t : Vec Ideal S128 .f32) = V c main_arg15 := by
  obtain ⟨-, -, -, -, -, -, -, -, -, -, e50, e51, e60, e61, e70, e71, e80, e90, e91, e100, e110, e111, e120, e130, e131, e140, -⟩ := idx0 t
  funext y
  show V c main_arg15 (((cfg0.win 12).blk t).view.emb y) = V c main_arg15 y
  refine congrArg _ (funext fun a => Fin.ext ?_)
  match a with
  | ⟨0, _⟩ => show win0_12.index t (0 : Fin 1) * 128 + 1 * (y 0).val = (y 0).val; omega

/-- Window 13 stays on the whole of its array at every point. -/
theorem blk0_13 (c : Dev nD) (t : Fin cfg0.N) : (iblk0 V c 13 t : Vec Ideal S128x64 .f32) = V c main_arg16 := by
  obtain ⟨-, -, -, -, -, -, -, -, -, -, e50, e51, e60, e61, e70, e71, e80, e90, e91, e100, e110, e111, e120, e130, e131, e140, -⟩ := idx0 t
  funext y
  show V c main_arg16 (((cfg0.win 13).blk t).view.emb y) = V c main_arg16 y
  refine congrArg _ (funext fun a => Fin.ext ?_)
  match a with
  | ⟨0, _⟩ => show win0_13.index t (0 : Fin 2) * 128 + 1 * (y 0).val = (y 0).val; omega
  | ⟨1, _⟩ => show win0_13.index t (1 : Fin 2) * 64 + 1 * (y 1).val = (y 1).val; omega

/-- Window 14 stays on the whole of its array at every point. -/
theorem blk0_14 (c : Dev nD) (t : Fin cfg0.N) : (iblk0 V c 14 t : Vec Ideal S64 .f32) = V c main_arg17 := by
  obtain ⟨-, -, -, -, -, -, -, -, -, -, e50, e51, e60, e61, e70, e71, e80, e90, e91, e100, e110, e111, e120, e130, e131, e140, -⟩ := idx0 t
  funext y
  show V c main_arg17 (((cfg0.win 14).blk t).view.emb y) = V c main_arg17 y
  refine congrArg _ (funext fun a => Fin.ext ?_)
  match a with
  | ⟨0, _⟩ => show win0_14.index t (0 : Fin 1) * 64 + 1 * (y 0).val = (y 0).val; omega

/-- The item vectors as a function of the buffer contents region 0 is entered from: the item tower of the per-item arrays
    and the weights, the brand and size indices read from the two reshaped index columns. -/
def itemsOf (c : Dev nD) : Vec Ideal S100000x64 .f32 :=
  itemVec (V c main_arg1) (V c main_arg2) (V c main_arg3) (V c main_arg4) (V c main_arg5)
    (fun i => V c main_v0 (ix2 (i 0) (0 : Fin 1))) (fun i => V c main_v1 (ix2 (i 0) (0 : Fin 1)))
    (V c main_arg10) (V c main_arg11) (V c main_arg12) (V c main_arg13) (V c main_arg14) (V c main_arg15) (V c main_arg16) (V c main_arg17)

/-- WHAT POINT `t` WRITES BACK is block `t` of the item vectors, when the brand and size indices are inside their tables. -/
theorem flushed0 (c : Dev nD) (t : Fin cfg0.N)
    (hb : ∀ r : Fin 100000, 0 ≤ (V c main_v0 (ix2 r (0 : Fin 1))).toInt ∧ (V c main_v0 (ix2 r (0 : Fin 1))).toInt < 100)
    (hs : ∀ r : Fin 100000, 0 ≤ (V c main_v1 (ix2 r (0 : Fin 1))).toInt ∧ (V c main_v1 (ix2 r (0 : Fin 1))).toInt < 500) :
    (dat0 V c).flushed 15 t = ((cfg0.win 15).blk t).view.read (Elt Ideal) (itemsOf V c) := by
  show (cfg0.win 15).cut (grid0.coords t) ((dat0 V c).after 15 t) = _
  rw [after0_15]
  obtain ⟨-, -, -, -, -, -, -, -, -, -, -, -, -, -, -, -, -, -, -, -, -, -, -, -, -, -, e150, e151⟩ := idx0 t
  funext j
  obtain ⟨p, q, rfl⟩ : ∃ (p : Fin 1000) (q : Fin 64), j = ix2 p q := ⟨j 0, j 1, eq_ix2 j⟩
  have hemb : ((cfg0.win 15).blk t).view.emb (ix2 p q) = ix2 (item t p) q := by
    funext a; apply Fin.ext
    match a with
    | ⟨0, _⟩ => show win0_15.index t (0 : Fin 2) * 1000 + 1 * p.val = t.val * 1000 + p.val; omega
    | ⟨1, _⟩ => show win0_15.index t (1 : Fin 2) * 64 + 1 * q.val = q.val; omega
  show out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (ix2 p q)
    = itemsOf V c (((cfg0.win 15).blk t).view.emb (ix2 p q))
  rw [hemb]
  refine (ItemBody.out_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p q ?_ ?_).trans ?_
  · rw [blk0_1 V c t p]; exact hb (item t p)
  · rw [blk0_2 V c t p]; exact hs (item t p)
  · rw [blk0_0 V c t p, blk0_1 V c t p, blk0_2 V c t p, blk0_3 V c t p, blk0_4 V c t p, blk0_5 V c t, blk0_6 V c t, blk0_7 V c t,
      blk0_8 V c t, blk0_9 V c t, blk0_10 V c t, blk0_11 V c t, blk0_12 V c t, blk0_13 V c t, blk0_14 V c t]
    rfl

/-- An index of the item vectors is in point `t`'s block iff each coordinate is in the block's range on its axis. -/
theorem mem_blk0 (t : Fin cfg0.N) (i : S100000x64.Idx) :
    i ∈ ((cfg0.win 15).blk t).view.set ↔ ∀ a : Fin 2, win0_15.index t a * S1000x64.size a ≤ (i a).val ∧ (i a).val < win0_15.index t a * S1000x64.size a + S1000x64.size a := by
  show i ∈ ((View.whole main_v2).slice (win0_15.rect t)).set ↔ _
  rw [View.set_slice_whole, Rect.mem_set_unit]
  exact Iff.rfl

/-- Every item's row is in the block of the point its thousand names. -/
theorem cover0 (i : S100000x64.Idx) : ∃ t : Fin cfg0.N, (cfg0.win 15).flush t = true ∧ i ∈ ((cfg0.win 15).blk t).view.set := by
  have hi0 : (i 0).val < 100000 := (i 0).isLt
  have hi1 : (i 1).val < 64 := (i 1).isLt
  have hN : cfg0.N = 100 := N_0
  let t : Fin cfg0.N := ⟨(i 0).val / 1000, by rw [hN]; omega⟩
  obtain ⟨-, -, -, -, -, -, -, -, -, -, -, -, -, -, -, -, -, -, -, -, -, -, -, -, -, -, e150, e151⟩ := idx0 t
  have ht : t.val = (i 0).val / 1000 := rfl
  refine ⟨t, flush0_15 t, ?_⟩
  rw [mem_blk0]
  intro a
  match a with
  | ⟨0, _⟩ => show win0_15.index t (0 : Fin 2) * 1000 ≤ (i 0).val ∧ (i 0).val < win0_15.index t (0 : Fin 2) * 1000 + 1000; omega
  | ⟨1, _⟩ => show win0_15.index t (1 : Fin 2) * 64 ≤ (i 1).val ∧ (i 1).val < win0_15.index t (1 : Fin 2) * 64 + 64; omega

/-- THE ITEM VECTORS after region 0. -/
theorem final0 (c : Dev nD)
    (hb : ∀ r : Fin 100000, 0 ≤ (V c main_v0 (ix2 r (0 : Fin 1))).toInt ∧ (V c main_v0 (ix2 r (0 : Fin 1))).toInt < 100)
    (hs : ∀ r : Fin 100000, 0 ≤ (V c main_v1 (ix2 r (0 : Fin 1))).toInt ∧ (V c main_v1 (ix2 r (0 : Fin 1))).toInt < 500) :
    (dat0 V c).arrAt 15 cfg0.N = itemsOf V c :=
  (dat0 V c).arrAt_eq_of_cover 15 (itemsOf V c) (fun t _ => flushed0 V c t hb hs) cover0

end Blocks0

/-! ## Region 1: the user tower -/

/-- The printed index maps of region 1, decided over its 50 points. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- The user a point's block row names. -/
def user (t : Fin cfg1.N) (p : Fin 2000) : Fin 100000 :=
  ⟨t.val * 2000 + p.val, by have h := t.isLt; have hN : cfg1.N = 50 := N_1; have := p.isLt; omega⟩

section Blocks1
variable (V : (c : Dev nD) → (b : Ref sig .tc) → Buf (Elt Ideal) ((c : Thread nD τ).loc b))

/-- A row of the point's block of window 0 is the user's row of its array. -/
theorem blk1_0 (c : Dev nD) (t : Fin cfg1.N) (p : Fin 2000) :
    rowOf (R := 2000) (C := 128) (iblk1 V c 0 t) p = rowOf (R := 100000) (C := 128) (V c main_arg0) (user t p) := by
  obtain ⟨e00, e01, e10, e11, -⟩ := idx1 t
  funext k
  show V c main_arg0 (((cfg1.win 0).blk t).view.emb (ix2 p k)) = V c main_arg0 (ix2 (user t p) k)
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- A row of the point's block of window 1 is the user's row of its array. -/
theorem blk1_1 (c : Dev nD) (t : Fin cfg1.N) (p : Fin 2000) :
    rowOf (R := 2000) (C := 64) (iblk1 V c 1 t) p = rowOf (R := 100000) (C := 64) (V c main_v24) (user t p) := by
  obtain ⟨e00, e01, e10, e11, -⟩ := idx1 t
  funext k
  show V c main_v24 (((cfg1.win 1).blk t).view.emb (ix2 p k)) = V c main_v24 (ix2 (user t p) k)
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 64 + 1 * k.val = k.val; omega

/-- Window 2 stays on the whole of its array at every point. -/
theorem blk1_2 (c : Dev nD) (t : Fin cfg1.N) : (iblk1 V c 2 t : Vec Ideal S192x128 .f32) = V c main_arg18 := by
  obtain ⟨-, -, -, -, e20, e21, e30, e40, e41, e50, e60, e61, e70, -⟩ := idx1 t
  funext y
  show V c main_arg18 (((cfg1.win 2).blk t).view.emb y) = V c main_arg18 y
  refine congrArg _ (funext fun a => Fin.ext ?_)
  match a with
  | ⟨0, _⟩ => show win1_2.index t (0 : Fin 2) * 192 + 1 * (y 0).val = (y 0).val; omega
  | ⟨1, _⟩ => show win1_2.index t (1 : Fin 2) * 128 + 1 * (y 1).val = (y 1).val; omega

/-- Window 3 stays on the whole of its array at every point. -/
theorem blk1_3 (c : Dev nD) (t : Fin cfg1.N) : (iblk1 V c 3 t : Vec Ideal S128 .f32) = V c main_arg19 := by
  obtain ⟨-, -, -, -, e20, e21, e30, e40, e41, e50, e60, e61, e70, -⟩ := idx1 t
  funext y
  show V c main_arg19 (((cfg1.win 3).blk t).view.emb y) = V c main_arg19 y
  refine congrArg _ (funext fun a => Fin.ext ?_)
  match a with
  | ⟨0, _⟩ => show win1_3.index t (0 : Fin 1) * 128 + 1 * (y 0).val = (y 0).val; omega

/-- Window 4 stays on the whole of its array at every point. -/
theorem blk1_4 (c : Dev nD) (t : Fin cfg1.N) : (iblk1 V c 4 t : Vec Ideal S128x128 .f32) = V c main_arg20 := by
  obtain ⟨-, -, -, -, e20, e21, e30, e40, e41, e50, e60, e61, e70, -⟩ := idx1 t
  funext y
  show V c main_arg20 (((cfg1.win 4).blk t).view.emb y) = V c main_arg20 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5 stays on the whole of its array at every point. -/
theorem blk1_5 (c : Dev nD) (t : Fin cfg1.N) : (iblk1 V c 5 t : Vec Ideal S128 .f32) = V c main_arg21 := by
  obtain ⟨-, -, -, -, e20, e21, e30, e40, e41, e50, e60, e61, e70, -⟩ := idx1 t
  funext y
  show V c main_arg21 (((cfg1.win 5).blk t).view.emb y) = V c main_arg21 y
  refine congrArg _ (funext fun a => Fin.ext ?_)
  match a with
  | ⟨0, _⟩ => show win1_5.index t (0 : Fin 1) * 128 + 1 * (y 0).val = (y 0).val; omega

/-- Window 6 stays on the whole of its array at every point. -/
theorem blk1_6 (c : Dev nD) (t : Fin cfg1.N) : (iblk1 V c 6 t : Vec Ideal S128x64 .f32) = V c main_arg22 := by
  obtain ⟨-, -, -, -, e20, e21, e30, e40, e41, e50, e60, e61, e70, -⟩ := idx1 t
  funext y
  show V c main_arg22 (((cfg1.win 6).blk t).view.emb y) = V c main_arg22 y
  refine congrArg _ (funext fun a => Fin.ext ?_)
  match a with
  | ⟨0, _⟩ => show win1_6.index t (0 : Fin 2) * 128 + 1 * (y 0).val = (y 0).val; omega
  | ⟨1, _⟩ => show win1_6.index t (1 : Fin 2) * 64 + 1 * (y 1).val = (y 1).val; omega

/-- Window 7 stays on the whole of its array at every point. -/
theorem blk1_7 (c : Dev nD) (t : Fin cfg1.N) : (iblk1 V c 7 t : Vec Ideal S64 .f32) = V c main_arg23 := by
  obtain ⟨-, -, -, -, e20, e21, e30, e40, e41, e50, e60, e61, e70, -⟩ := idx1 t
  funext y
  show V c main_arg23 (((cfg1.win 7).blk t).view.emb y) = V c main_arg23 y
  refine congrArg _ (funext fun a => Fin.ext ?_)
  match a with
  | ⟨0, _⟩ => show win1_7.index t (0 : Fin 1) * 64 + 1 * (y 0).val = (y 0).val; omega

/-- The user vectors as a function of the buffer contents region 1 is entered from: the user tower of the user embeddings,
    the pooled histories and the weights. -/
def usersOf (c : Dev nD) : Vec Ideal S100000x64 .f32 :=
  userVec (V c main_arg0) (V c main_v24) (V c main_arg18) (V c main_arg19) (V c main_arg20) (V c main_arg21) (V c main_arg22) (V c main_arg23)

/-- WHAT POINT `t` WRITES BACK is block `t` of the user vectors. -/
theorem flushed1 (c : Dev nD) (t : Fin cfg1.N) :
    (dat1 V c).flushed 8 t = ((cfg1.win 8).blk t).view.read (Elt Ideal) (usersOf V c) := by
  show (cfg1.win 8).cut (grid1.coords t) ((dat1 V c).after 8 t) = _
  rw [after1_8]
  obtain ⟨-, -, -, -, -, -, -, -, -, -, -, -, -, e80, e81⟩ := idx1 t
  funext j
  obtain ⟨p, q, rfl⟩ : ∃ (p : Fin 2000) (q : Fin 64), j = ix2 p q := ⟨j 0, j 1, eq_ix2 j⟩
  have hemb : ((cfg1.win 8).blk t).view.emb (ix2 p q) = ix2 (user t p) q := by
    funext a; apply Fin.ext
    match a with
    | ⟨0, _⟩ => show win1_8.index t (0 : Fin 2) * 2000 + 1 * p.val = t.val * 2000 + p.val; omega
    | ⟨1, _⟩ => show win1_8.index t (1 : Fin 2) * 64 + 1 * q.val = q.val; omega
  show out1_8 (iblk1 V c 0 t) (iblk1 V c 1 t) (iblk1 V c 2 t) (iblk1 V c 3 t) (iblk1 V c 4 t) (iblk1 V c 5 t) (iblk1 V c 6 t) (iblk1 V c 7 t) (ix2 p q)
    = usersOf V c (((cfg1.win 8).blk t).view.emb (ix2 p q))
  rw [hemb]
  refine (UserBody.out_apply (iblk1 V c 0 t) (iblk1 V c 1 t) (iblk1 V c 2 t) (iblk1 V c 3 t) (iblk1 V c 4 t) (iblk1 V c 5 t) (iblk1 V c 6 t) (iblk1 V c 7 t) p q).trans ?_
  rw [blk1_0 V c t p, blk1_1 V c t p, blk1_2 V c t, blk1_3 V c t, blk1_4 V c t, blk1_5 V c t, blk1_6 V c t, blk1_7 V c t]
  rfl

/-- An index of the user vectors is in point `t`'s block iff each coordinate is in the block's range on its axis. -/
theorem mem_blk1 (t : Fin cfg1.N) (i : S100000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v25).slice (win1_8.rect t)).set ↔ _
  rw [View.set_slice_whole, Rect.mem_set_unit]
  exact Iff.rfl

/-- Every user's row is in the block of the point its two thousand names. -/
theorem cover1 (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨-, -, -, -, -, -, -, -, -, -, -, -, -, e80, e81⟩ := idx1 t
  have ht : t.val = (i 0).val / 2000 := rfl
  refine ⟨t, flush1_8 t, ?_⟩
  rw [mem_blk1]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 64 ≤ (i 1).val ∧ (i 1).val < win1_8.index t (1 : Fin 2) * 64 + 64; omega

/-- THE USER VECTORS after region 1. -/
theorem final1 (c : Dev nD) : (dat1 V c).arrAt 8 cfg1.N = usersOf V c :=
  (dat1 V c).arrAt_eq_of_cover 8 (usersOf V c) (fun t _ => flushed1 V c t) cover1

end Blocks1

/-! ## The pooled histories, at any float values -/

section Pool
open Idealize.ShloMosaic.StableHlo
variable {F : FTy → Type} [FloatOps F] (mF : (ℓ : Loc nD τ sig) → Buf (Elt F) ℓ)

/-- The pooled histories as the host computes them between the regions, from the item vectors, the event items and the
    event segments: each event's item vector gathered (a negative item index wrapped once), summed by segment, divided by
    the segment's event count floored at one, and zero where the count is zero. -/
def poolK (item : Vec F S100000x64 .f32) (x8 x9 : IVec S2000000 32) : Vec F S100000x64 .f32 :=
  select
    (broadcastInDim S100000x64 ![0, 1] bcast_S100000x1_S100000x64_0_1
      (cmpf .ogt
        (broadcastInDim S100000x1 ![0] bcast_S100000_S100000x1_0
          (Host.scatterAdd scatter_S100000_S2000000x1_S2000000_n_0_0_1
            (broadcastInDim S100000 ![] bcast_S_S100000 (constant (F := F) S_ .f32 0x00000000#32))
            (broadcastInDim S2000000x1 ![0] bcast_S2000000_S2000000x1_0 x9)
            (broadcastInDim S2000000 ![] bcast_S_S2000000 (constant (F := F) S_ .f32 0x3F800000#32))))
        (broadcastInDim S100000x1 ![] bcast_S_S100000x1 (constant (F := F) S_ .f32 0x00000000#32))))
    (Host.divf
      (Host.scatterAdd scatter_S100000x64_S2000000x1_S2000000x64_1_0_0_1
        (broadcastInDim S100000x64 ![] bcast_S_S100000x64 (constant (F := F) S_ .f32 0x00000000#32))
        (broadcastInDim S2000000x1 ![0] bcast_S2000000_S2000000x1_0 x9)
        (Host.gather gather_S100000x64_S2000000x1_S2000000x64_1_0_n_n_0_1_164 item
          (broadcastInDim S2000000x1 ![0] bcast_S2000000_S2000000x1_0
            (select (cmpi .slt x8 (broadcastInDim S2000000 ![] bcast_S_S2000000 (constantI S_ 32 0#32)))
              (addi x8 (broadcastInDim S2000000 ![] bcast_S_S2000000 (constantI S_ 32 100000#32))) x8))))
      (broadcastInDim S100000x64 ![0, 1] bcast_S100000x1_S100000x64_0_1
        (maximumf
          (broadcastInDim S100000x1 ![0] bcast_S100000_S100000x1_0
            (Host.scatterAdd scatter_S100000_S2000000x1_S2000000_n_0_0_1
              (broadcastInDim S100000 ![] bcast_S_S100000 (constant (F := F) S_ .f32 0x00000000#32))
              (broadcastInDim S2000000x1 ![0] bcast_S2000000_S2000000x1_0 x9)
              (broadcastInDim S2000000 ![] bcast_S_S2000000 (constant (F := F) S_ .f32 0x3F800000#32))))
          (broadcastInDim S100000x1 ![] bcast_S_S100000x1 (constant (F := F) S_ .f32 0x3F800000#32)))))
    (broadcastInDim S100000x64 ![] bcast_S_S100000x64 (id (constant (F := F) S_ .f32 0x00000000#32 : FVec F S_ .f32)))

/-- What region 1 finds in the pooled-history buffer. -/
theorem V4_v24 (c : Dev nD) : V4 mF ρ c main_v24
    = poolK (W2 mF ρ c (Proc.devRef .tc main_v2)) (W2 mF ρ c (Proc.devRef .tc main_arg8)) (W2 mF ρ c (Proc.devRef .tc main_arg9)) := by
  show StableHlo.after hostOps1_1 (StableHlo.after hostOps1 (W2 mF ρ c)) (Proc.devRef .tc main_v24) = _
  after_results_simp
  rfl

end Pool

/-! ## The host stretches between the launch, the two regions and the return -/

section Host
open Idealize.ShloMosaic.StableHlo

/-- An index array reshaped to a column reads, at row `r`, the array's entry `r`. -/
theorem col_apply (x : IVec S100000 32) (r : Fin 100000) :
    shapeCast S100000x1 x shapeCasts_S100000_S100000x1 (ix2 r (0 : Fin 1)) = x (ix1 r) :=
  shapeCast_apply x shapeCasts_S100000_S100000x1 _ _ (by
    rw [Shape.rowMajor_val_two, Shape.rowMajor_val_one]
    show r.val = r.val * 1 + 0
    omega)

/-! Before region 0 the host only reshapes the two index arrays into columns; every argument is as launched. -/
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg10 (c : Dev nD) : V1 m ρ c main_arg10 = m ((c : Thread nD τ).loc main_arg10) := by
  show StableHlo.after hostOps0 (W0 m ρ c) (Proc.devRef .tc main_arg10) = _
  after_results
theorem V1_arg11 (c : Dev nD) : V1 m ρ c main_arg11 = m ((c : Thread nD τ).loc main_arg11) := by
  show StableHlo.after hostOps0 (W0 m ρ c) (Proc.devRef .tc main_arg11) = _
  after_results
theorem V1_arg12 (c : Dev nD) : V1 m ρ c main_arg12 = m ((c : Thread nD τ).loc main_arg12) := by
  show StableHlo.after hostOps0 (W0 m ρ c) (Proc.devRef .tc main_arg12) = _
  after_results
theorem V1_arg13 (c : Dev nD) : V1 m ρ c main_arg13 = m ((c : Thread nD τ).loc main_arg13) := by
  show StableHlo.after hostOps0 (W0 m ρ c) (Proc.devRef .tc main_arg13) = _
  after_results
theorem V1_arg14 (c : Dev nD) : V1 m ρ c main_arg14 = m ((c : Thread nD τ).loc main_arg14) := by
  show StableHlo.after hostOps0 (W0 m ρ c) (Proc.devRef .tc main_arg14) = _
  after_results
theorem V1_arg15 (c : Dev nD) : V1 m ρ c main_arg15 = m ((c : Thread nD τ).loc main_arg15) := by
  show StableHlo.after hostOps0 (W0 m ρ c) (Proc.devRef .tc main_arg15) = _
  after_results
theorem V1_arg16 (c : Dev nD) : V1 m ρ c main_arg16 = m ((c : Thread nD τ).loc main_arg16) := by
  show StableHlo.after hostOps0 (W0 m ρ c) (Proc.devRef .tc main_arg16) = _
  after_results
theorem V1_arg17 (c : Dev nD) : V1 m ρ c main_arg17 = m ((c : Thread nD τ).loc main_arg17) := by
  show StableHlo.after hostOps0 (W0 m ρ c) (Proc.devRef .tc main_arg17) = _
  after_results
theorem V1_v0 (c : Dev nD) : V1 m ρ c main_v0 = shapeCast S100000x1 (m ((c : Thread nD τ).loc main_arg6)) shapeCasts_S100000_S100000x1 := by
  show StableHlo.after hostOps0 (W0 m ρ c) (Proc.devRef .tc main_v0) = _
  after_results
  rfl
theorem V1_v1 (c : Dev nD) : V1 m ρ c main_v1 = shapeCast S100000x1 (m ((c : Thread nD τ).loc main_arg7)) shapeCasts_S100000_S100000x1 := by
  show StableHlo.after hostOps0 (W0 m ρ c) (Proc.devRef .tc main_v1) = _
  after_results
  rfl

/-- The item tower of the launch memory. -/
def items (c : Dev nD) : Vec Ideal S100000x64 .f32 :=
  itemVec (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))

/-- Region 0's function of its entry contents is the item tower of the launch memory. -/
theorem itemsOf_V1 (c : Dev nD) : itemsOf (V1 m ρ) c = items m c := by
  have e0 : (fun i : S100000.Idx => V1 m ρ c main_v0 (ix2 (i 0) (0 : Fin 1))) = m ((c : Thread nD τ).loc main_arg6) := by
    funext i
    obtain ⟨r, rfl⟩ : ∃ r : Fin 100000, i = ix1 r := ⟨i 0, eq_ix1 i⟩
    show V1 m ρ c main_v0 (ix2 r (0 : Fin 1)) = _
    rw [V1_v0, col_apply]
  have e1 : (fun i : S100000.Idx => V1 m ρ c main_v1 (ix2 (i 0) (0 : Fin 1))) = m ((c : Thread nD τ).loc main_arg7) := by
    funext i
    obtain ⟨r, rfl⟩ : ∃ r : Fin 100000, i = ix1 r := ⟨i 0, eq_ix1 i⟩
    show V1 m ρ c main_v1 (ix2 r (0 : Fin 1)) = _
    rw [V1_v1, col_apply]
  unfold itemsOf items
  rw [e0, e1, V1_arg1, V1_arg2, V1_arg3, V1_arg4, V1_arg5, V1_arg10, V1_arg11, V1_arg12, V1_arg13, V1_arg14, V1_arg15, V1_arg16, V1_arg17]

/-- The event arrays are as launched when the host reads them. -/
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results
theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results

/-! Region 1 finds the user embeddings and its weights as launched. -/
theorem V4_arg0 (c : Dev nD) : V4 m ρ c main_arg0 = m ((c : Thread nD τ).loc main_arg0) :=
  ((W5_arr m ρ c 0).trans (((dat1 (V4 m ρ) c).arrAt_in 0 rfl _).trans (A_eq1 (V4 m ρ) c 0))).symm.trans (W5_main_arg0 m ρ c)
theorem V4_arg18 (c : Dev nD) : V4 m ρ c main_arg18 = m ((c : Thread nD τ).loc main_arg18) :=
  ((W5_arr m ρ c 2).trans (((dat1 (V4 m ρ) c).arrAt_in 2 rfl _).trans (A_eq1 (V4 m ρ) c 2))).symm.trans (W5_main_arg18 m ρ c)
theorem V4_arg19 (c : Dev nD) : V4 m ρ c main_arg19 = m ((c : Thread nD τ).loc main_arg19) :=
  ((W5_arr m ρ c 3).trans (((dat1 (V4 m ρ) c).arrAt_in 3 rfl _).trans (A_eq1 (V4 m ρ) c 3))).symm.trans (W5_main_arg19 m ρ c)
theorem V4_arg20 (c : Dev nD) : V4 m ρ c main_arg20 = m ((c : Thread nD τ).loc main_arg20) :=
  ((W5_arr m ρ c 4).trans (((dat1 (V4 m ρ) c).arrAt_in 4 rfl _).trans (A_eq1 (V4 m ρ) c 4))).symm.trans (W5_main_arg20 m ρ c)
theorem V4_arg21 (c : Dev nD) : V4 m ρ c main_arg21 = m ((c : Thread nD τ).loc main_arg21) :=
  ((W5_arr m ρ c 5).trans (((dat1 (V4 m ρ) c).arrAt_in 5 rfl _).trans (A_eq1 (V4 m ρ) c 5))).symm.trans (W5_main_arg21 m ρ c)
theorem V4_arg22 (c : Dev nD) : V4 m ρ c main_arg22 = m ((c : Thread nD τ).loc main_arg22) :=
  ((W5_arr m ρ c 6).trans (((dat1 (V4 m ρ) c).arrAt_in 6 rfl _).trans (A_eq1 (V4 m ρ) c 6))).symm.trans (W5_main_arg22 m ρ c)
theorem V4_arg23 (c : Dev nD) : V4 m ρ c main_arg23 = m ((c : Thread nD τ).loc main_arg23) :=
  ((W5_arr m ρ c 7).trans (((dat1 (V4 m ρ) c).arrAt_in 7 rfl _).trans (A_eq1 (V4 m ρ) c 7))).symm.trans (W5_main_arg23 m ρ c)

/-- The item vectors are not touched after region 0. -/
theorem W5_v2 (c : Dev nD) : W5 m ρ c (Proc.devRef .tc main_v2) = W2 m ρ c (Proc.devRef .tc main_v2) := by
  refine (W5_of_ne m ρ c main_v2 (by decide)).trans ?_
  show StableHlo.after hostOps1_1 (StableHlo.after hostOps1 (W2 m ρ c)) (Proc.devRef .tc main_v2) = _
  after_results_simp

variable (hb : ∀ (c : Dev nD) (r : Fin 100000), 0 ≤ (m ((c : Thread nD τ).loc main_arg6) (ix1 r)).toInt ∧ (m ((c : Thread nD τ).loc main_arg6) (ix1 r)).toInt < 100)
variable (hs : ∀ (c : Dev nD) (r : Fin 100000), 0 ≤ (m ((c : Thread nD τ).loc main_arg7) (ix1 r)).toInt ∧ (m ((c : Thread nD τ).loc main_arg7) (ix1 r)).toInt < 500)

include hb hs in
/-- THE ITEM VECTORS the program returns: the item tower of the launch memory. -/
theorem item_result (c : Dev nD) : W5 m ρ c (Proc.devRef .tc main_v2) = items m c := by
  rw [W5_v2]
  refine (W2_arr m ρ c 15).trans ?_
  rw [final0 (V1 m ρ) c (fun r => by rw [V1_v0, col_apply]; exact hb c r) (fun r => by rw [V1_v1, col_apply]; exact hs c r)]
  exact itemsOf_V1 m ρ c

include hb hs in
/-- THE USER VECTORS the program returns: the user tower of the user embeddings, the pooled histories of the item vectors,
    and the weights. -/
theorem user_result (c : Dev nD) : W5 m ρ c (Proc.devRef .tc main_v25)
    = userVec (m ((c : Thread nD τ).loc main_arg0))
        (poolK (items m c) (m ((c : Thread nD τ).loc main_arg8)) (m ((c : Thread nD τ).loc main_arg9)))
        (m ((c : Thread nD τ).loc main_arg18)) (m ((c : Thread nD τ).loc main_arg19)) (m ((c : Thread nD τ).loc main_arg20))
        (m ((c : Thread nD τ).loc main_arg21)) (m ((c : Thread nD τ).loc main_arg22)) (m ((c : Thread nD τ).loc main_arg23)) := by
  refine (W5_arr m ρ c 8).trans ?_
  rw [final1 (V4 m ρ) c]
  unfold usersOf
  rw [V4_arg0, V4_arg18, V4_arg19, V4_arg20, V4_arg21, V4_arg22, V4_arg23, V4_v24 (F := Ideal) ρ m c, W2_arg8, W2_arg9]
  have e : W2 m ρ c (Proc.devRef .tc main_v2) = items m c := by
    rw [← W5_v2]; exact item_result m ρ hb hs c
  rw [e]

end Host

end Cert.KernelIdeal.KValue

end
-- ==== Proof.LibScatter.lean ====
/-
  Row gathers and row scatters read at an index.
  A gather of whole rows of an [N, C] array (or of entries of an [N] vector) at E start words reads, at (e, c), the
  operand's row named by start word e, read signed and clamped into [0, N - 1]. A scatter-add of E update rows into
  an [N, C] array adds update row e to the operand's row named by start word e, read signed and NOT clamped, and
  drops it when that row is outside the array; so entry (i, j) of the result is the operand's entry plus the sum,
  over the update rows e whose start word names row i, of update entry (e, j).
-/
import Idealize.ShloMosaic.Lib.ValueIdx
import Idealize.ShloMosaic.PureOps.Ideal

noncomputable section

namespace Cert.LibScatter

open Idealize.ShloMosaic Idealize.ShloMosaic.ValueIdx

variable {α : Type}

/-- The row of an `N`-row array a start word names when read signed, if it is one. -/
def rowOf? (N : ℕ) {w : ℕ} (z : BitVec w) : Option (Fin N) :=
  if h : 0 ≤ z.toInt ∧ z.toInt < (N : Int) then some ⟨z.toInt.toNat, by omega⟩ else none

/-- The row a gather reads for a start word: read signed, clamped into `[0, N - 1]`. -/
def clampRow (N : ℕ) (hN : 0 < N) {w : ℕ} (z : BitVec w) : Fin N := ⟨min z.toInt.toNat (N - 1), by omega⟩

/-- The two axes of a rank-2 array are different. -/
theorem fin2_one_ne_zero : (1 : Fin 2) ≠ 0 := by decide

/-- A start word that names a row of the array is not moved by the clamp. -/
theorem clampRow_of_rowOf? {N : ℕ} (hN : 0 < N) {w : ℕ} {z : BitVec w} {i : Fin N} (h : rowOf? N z = some i) :
    clampRow N hN z = i := by
  unfold rowOf? at h
  split at h
  · rename_i hz
    have hi : (⟨z.toInt.toNat, by omega⟩ : Fin N) = i := Option.some.inj h
    rw [← hi]
    refine Fin.ext ?_
    show min z.toInt.toNat (N - 1) = z.toInt.toNat
    omega
  · exact absurd h (by simp)

/-- Scatter of `E` update rows `[E, C]` into `[N, C]` at start words `[E, 1]`. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of `E` update entries `[E]` into `[N]` at start words `[E, 1]`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of `E` whole rows of `[N, C]` at start words `[E, 1]`. -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of `E` entries of `[N]` at start words `[E, 1]`. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather read at `(e, c)`. -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show ¬ (1 : Fin 2) ∈ (rowGather N E C wf).startIndexMap from
        fun h => fin2_one_ne_zero (List.mem_singleton.mp h))]
    have hoff : (rowGather N E C wf).offCoord (ix2 e c) 1 = c.val := by
      unfold GatherDims.offCoord
      rw [dif_pos (show (1 : Fin 2) ∈ (rowGather N E C wf).sKept from
        (GatherDims.mem_sKept _ _).mpr ⟨fun h => fin2_one_ne_zero (List.mem_singleton.mp h), List.not_mem_nil⟩)]
      rfl
    rw [hst, hoff]; omega

/-- The entry gather read at `e`. -/
theorem vecGather_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Where update entry `(e, c)` of the row scatter lands: in row `rowOf?` of start word `e`, column `c`, if that is a
    row of the array. -/
theorem rowScatter_resultIdx? {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = (rowOf? N (idx (ix2 e (0 : Fin 1)))).map (fun i => ix2 i c) := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => fin2_one_ne_zero (List.mem_singleton.mp h))]
  have hw0 : (rowScatter N E C wf).window (ix2 e c) 0 = 0 := by
    unfold ScatterDims.window
    rw [dif_neg (show ¬ (0 : Fin 2) ∈ (rowScatter N E C wf).sKept from by
      simp [ScatterDims.sKept, Shape.kept])]
  have hw1 : (rowScatter N E C wf).window (ix2 e c) 1 = c.val := by
    unfold ScatterDims.window
    rw [dif_pos (show (1 : Fin 2) ∈ (rowScatter N E C wf).sKept from by
      simp [ScatterDims.sKept, Shape.kept])]
    rfl
  unfold ScatterDims.resultIdx? rowOf?
  by_cases hz : 0 ≤ (idx (ix2 e (0 : Fin 1))).toInt ∧ (idx (ix2 e (0 : Fin 1))).toInt < (N : Int)
  · have hall : ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro a
      match a with
      | ⟨0, _⟩ =>
        show 0 ≤ (rowScatter N E C wf).start (ix2 e c) idx 0 + ((rowScatter N E C wf).window (ix2 e c) 0 : ℕ) ∧
          (rowScatter N E C wf).start (ix2 e c) idx 0 + ((rowScatter N E C wf).window (ix2 e c) 0 : ℕ) < (N : ℤ)
        rw [hs0, hw0]; omega
      | ⟨1, _⟩ =>
        show 0 ≤ (rowScatter N E C wf).start (ix2 e c) idx 1 + ((rowScatter N E C wf).window (ix2 e c) 1 : ℕ) ∧
          (rowScatter N E C wf).start (ix2 e c) idx 1 + ((rowScatter N E C wf).window (ix2 e c) 1 : ℕ) < (C : ℤ)
        rw [hs1, hw1]; have := c.isLt; omega
    rw [dif_pos hall, dif_pos hz]
    simp only [Option.map_some]
    congr 1
    funext a
    refine Fin.ext ?_
    match a with
    | ⟨0, _⟩ =>
      show ((rowScatter N E C wf).start (ix2 e c) idx 0 + ((rowScatter N E C wf).window (ix2 e c) 0 : ℕ)).toNat
        = (idx (ix2 e (0 : Fin 1))).toInt.toNat
      rw [hs0, hw0]; simp
    | ⟨1, _⟩ =>
      show ((rowScatter N E C wf).start (ix2 e c) idx 1 + ((rowScatter N E C wf).window (ix2 e c) 1 : ℕ)).toNat = c.val
      rw [hs1, hw1]; simp
  · have hnot : ¬ ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

/-- Where update entry `e` of the entry scatter lands: at entry `rowOf?` of start word `e`, if that is an entry of the
    array. -/
theorem vecScatter_resultIdx? {N E w : ℕ}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (rowOf? N (idx (ix2 e (0 : Fin 1)))).map ix1 := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from by
      simp [ScatterDims.sKept, Shape.kept])]
  unfold ScatterDims.resultIdx? rowOf?
  by_cases hz : 0 ≤ (idx (ix2 e (0 : Fin 1))).toInt ∧ (idx (ix2 e (0 : Fin 1))).toInt < (N : Int)
  · have hall : ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro a
      obtain rfl : a = 0 := Subsingleton.elim _ _
      show 0 ≤ (vecScatter N E wf).start (ix1 e) idx 0 + ((vecScatter N E wf).window (ix1 e) 0 : ℕ) ∧
        (vecScatter N E wf).start (ix1 e) idx 0 + ((vecScatter N E wf).window (ix1 e) 0 : ℕ) < (N : ℤ)
      rw [hs0, hw0]; omega
    rw [dif_pos hall, dif_pos hz]
    simp only [Option.map_some]
    congr 1
    funext a
    obtain rfl : a = 0 := Subsingleton.elim _ _
    refine Fin.ext ?_
    show ((vecScatter N E wf).start (ix1 e) idx 0 + ((vecScatter N E wf).window (ix1 e) 0 : ℕ)).toNat
      = (idx (ix2 e (0 : Fin 1))).toInt.toNat
    rw [hs0, hw0]; simp
  · have hnot : ¬ ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

/-- Two rank-2 indices given by coordinates are equal exactly when their coordinates are. -/
theorem ix2_eq_ix2 {n0 n1 : ℕ} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices given by their coordinate are equal exactly when the coordinates are. -/
theorem ix1_eq_ix1 {n : ℕ} (a a' : Fin n) : ix1 a = ix1 a' ↔ a = a' := by
  constructor
  · intro h
    exact congrFun h 0
  · rintro rfl; rfl

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The accumulating row scatter at the ideal instance, read at `(i, j)`: the operand's entry plus the update
    entries `(e, j)` of the rows `e` whose start word names row `i`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (i : Fin N) (j : Fin C) :
    Host.scatterAdd (F := Ideal) (rowScatter N E C wf) x idx upd (ix2 i j)
      = x (ix2 i j) + ∑ e ∈ Finset.univ.filter (fun e : Fin E => rowOf? N (idx (ix2 e (0 : Fin 1))) = some i), upd (ix2 e j) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [rowScatter_resultIdx?]
  cases hr : rowOf? N (idx (ix2 e (0 : Fin 1))) with
  | none => simp
  | some i' =>
    simp only [Option.map_some, Option.some.injEq, ix2_eq_ix2]
    by_cases hi : i' = i
    · subst hi; simp
    · simp [hi]

/-- The accumulating entry scatter at the ideal instance, read at `i`. -/
theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (F := Ideal) (vecScatter N E wf) x idx upd (ix1 i)
      = x (ix1 i) + ∑ e ∈ Finset.univ.filter (fun e : Fin E => rowOf? N (idx (ix2 e (0 : Fin 1))) = some i), upd (ix1 e) := by
  unfold Host.scatterAdd
  rw [Ideal.hostScatterAdd_def]
  unfold Ideal.hostScatterAdd
  congr 1
  rw [Finset.sum_filter, Finset.sum_filter, sum_idx1]
  refine Finset.sum_congr rfl fun e _ => ?_
  simp only [vecScatter_resultIdx?]
  cases hr : rowOf? N (idx (ix2 e (0 : Fin 1))) with
  | none => simp
  | some i' =>
    simp only [Option.map_some, Option.some.injEq, ix1_eq_ix1]

end Cert.LibScatter

end
-- ==== Proof.RItem.lean ====
/-
  The reference's item vectors are the item tower's row function of each item's own rows: its brand and size rows are
  fetched by index (an index inside the table is neither wrapped nor clamped), and its first layer's one sum over the
  512 concatenated columns is the five feature blocks' sums.
-/
import proofs.«404036_j22144851378180_1_alg».proof.Proof.RefRead
import proofs.«404036_j22144851378180_1_alg».proof.Proof.Tower
import proofs.«404036_j22144851378180_1_alg».proof.Proof.LibScatter
import Idealize.ShloMosaic.Lib.ValueIdx
import Idealize.ShloMosaic.Lib.Pipeline.Value
import Idealize.ShloMosaic.PureOps.Ideal.Laws

noncomputable section

namespace Cert.ReferenceIdeal.ItemRef

open Cert.ReferenceIdeal Cert.ReferenceIdeal.Gen Cert.Tower Idealize.ShloMosaic Idealize.ShloMosaic.ValueIdx

/-! ## Two facts about index words -/

/-- A select on "the word is negative, read signed" keeps the word itself where it is not negative. -/
theorem select_slt_zero (z y : BitVec 32) (h : 0 ≤ z.toInt) :
    Scalar.select (IntOp.cmpi .slt z 0#32) y z = z := by
  have hlt : z.slt 0#32 = false := by
    simp only [BitVec.slt, BitVec.toInt_zero, decide_eq_false_iff_not, Int.not_lt]
    exact h
  show (if BitVec.ofBool (z.slt 0#32) = 1 then y else z) = z
  rw [hlt]
  rfl

/-- A word read signed inside the table is not moved by the clamp: the clamped row is the indexed row. -/
theorem clampRow_eq_rowAt {N : ℕ} (hN : 0 < N) (hN' : N < 2 ^ 31) (z : BitVec 32)
    (hz : 0 ≤ z.toInt ∧ z.toInt < (N : ℤ)) : LibScatter.clampRow N hN z = rowAt N hN z := by
  refine Fin.ext ?_
  rw [rowAt_val hN hN' z hz]
  show min z.toInt.toNat (N - 1) = z.toNat
  have h := BitVec.toInt_eq_toNat_cond z
  have h2 := z.isLt
  split at h <;> omega

/-! ## Five pieces laid side by side, read at a column -/

section Cat

variable {α : Type} (p0 p1 p2 : (⟨2, ![100000, 128]⟩ : Shape).Idx → α) (p3 p4 : (⟨2, ![100000, 64]⟩ : Shape).Idx → α)
  (h : Shape.Concatenates (([⟨⟨2, ![100000, 128]⟩, p0⟩, ⟨⟨2, ![100000, 128]⟩, p1⟩, ⟨⟨2, ![100000, 128]⟩, p2⟩,
      ⟨⟨2, ![100000, 64]⟩, p3⟩, ⟨⟨2, ![100000, 64]⟩, p4⟩] : List ((s : Shape) × (s.Idx → α))).map (·.1)) ⟨2, ![100000, 512]⟩ 1)

/-- Columns 0 .. 128 of the five pieces are the first piece. -/
theorem cat5_0 (r : Fin 100000) (c : Fin 512) (k : Fin 128) (hc : c.val = 0 + k.val) :
    concatenate ⟨2, ![100000, 512]⟩ 1 [⟨⟨2, ![100000, 128]⟩, p0⟩, ⟨⟨2, ![100000, 128]⟩, p1⟩, ⟨⟨2, ![100000, 128]⟩, p2⟩,
      ⟨⟨2, ![100000, 64]⟩, p3⟩, ⟨⟨2, ![100000, 64]⟩, p4⟩] h (ix2 r c) = p0 (ix2 r k) :=
  concatenate_apply_piece (t := ⟨2, ![100000, 512]⟩) (1 : Fin 2) _ h (ix2 r c) 0 (by simp) ⟨2, ![100000, 128]⟩ p0 rfl rfl 0 rfl (ix2 r k)
    (fun b hb => by match b with | ⟨0, _⟩ => rfl | ⟨1, _⟩ => exact absurd rfl hb) hc.symm

/-- Columns 128 .. 256 are the second piece. -/
theorem cat5_1 (r : Fin 100000) (c : Fin 512) (k : Fin 128) (hc : c.val = 128 + k.val) :
    concatenate ⟨2, ![100000, 512]⟩ 1 [⟨⟨2, ![100000, 128]⟩, p0⟩, ⟨⟨2, ![100000, 128]⟩, p1⟩, ⟨⟨2, ![100000, 128]⟩, p2⟩,
      ⟨⟨2, ![100000, 64]⟩, p3⟩, ⟨⟨2, ![100000, 64]⟩, p4⟩] h (ix2 r c) = p1 (ix2 r k) :=
  concatenate_apply_piece (t := ⟨2, ![100000, 512]⟩) (1 : Fin 2) _ h (ix2 r c) 1 (by simp) ⟨2, ![100000, 128]⟩ p1 rfl rfl 128 rfl (ix2 r k)
    (fun b hb => by match b with | ⟨0, _⟩ => rfl | ⟨1, _⟩ => exact absurd rfl hb) hc.symm

/-- Columns 256 .. 384 are the third piece. -/
theorem cat5_2 (r : Fin 100000) (c : Fin 512) (k : Fin 128) (hc : c.val = 256 + k.val) :
    concatenate ⟨2, ![100000, 512]⟩ 1 [⟨⟨2, ![100000, 128]⟩, p0⟩, ⟨⟨2, ![100000, 128]⟩, p1⟩, ⟨⟨2, ![100000, 128]⟩, p2⟩,
      ⟨⟨2, ![100000, 64]⟩, p3⟩, ⟨⟨2, ![100000, 64]⟩, p4⟩] h (ix2 r c) = p2 (ix2 r k) :=
  concatenate_apply_piece (t := ⟨2, ![100000, 512]⟩) (1 : Fin 2) _ h (ix2 r c) 2 (by simp) ⟨2, ![100000, 128]⟩ p2 rfl rfl 256 rfl (ix2 r k)
    (fun b hb => by match b with | ⟨0, _⟩ => rfl | ⟨1, _⟩ => exact absurd rfl hb) hc.symm

/-- Columns 384 .. 448 are the fourth piece. -/
theorem cat5_3 (r : Fin 100000) (c : Fin 512) (k : Fin 64) (hc : c.val = 384 + k.val) :
    concatenate ⟨2, ![100000, 512]⟩ 1 [⟨⟨2, ![100000, 128]⟩, p0⟩, ⟨⟨2, ![100000, 128]⟩, p1⟩, ⟨⟨2, ![100000, 128]⟩, p2⟩,
      ⟨⟨2, ![100000, 64]⟩, p3⟩, ⟨⟨2, ![100000, 64]⟩, p4⟩] h (ix2 r c) = p3 (ix2 r k) :=
  concatenate_apply_piece (t := ⟨2, ![100000, 512]⟩) (1 : Fin 2) _ h (ix2 r c) 3 (by simp) ⟨2, ![100000, 64]⟩ p3 rfl rfl 384 rfl (ix2 r k)
    (fun b hb => by match b with | ⟨0, _⟩ => rfl | ⟨1, _⟩ => exact absurd rfl hb) hc.symm

/-- Columns 448 .. 512 are the fifth piece. -/
theorem cat5_4 (r : Fin 100000) (c : Fin 512) (k : Fin 64) (hc : c.val = 448 + k.val) :
    concatenate ⟨2, ![100000, 512]⟩ 1 [⟨⟨2, ![100000, 128]⟩, p0⟩, ⟨⟨2, ![100000, 128]⟩, p1⟩, ⟨⟨2, ![100000, 128]⟩, p2⟩,
      ⟨⟨2, ![100000, 64]⟩, p3⟩, ⟨⟨2, ![100000, 64]⟩, p4⟩] h (ix2 r c) = p4 (ix2 r k) :=
  concatenate_apply_piece (t := ⟨2, ![100000, 512]⟩) (1 : Fin 2) _ h (ix2 r c) 4 (by simp) ⟨2, ![100000, 64]⟩ p4 rfl rfl 448 rfl (ix2 r k)
    (fun b hb => by match b with | ⟨0, _⟩ => rfl | ⟨1, _⟩ => exact absurd rfl hb) hc.symm

end Cat

/-! ## The indices the stages read at, as rows and columns -/

theorem lidx0 (r : Fin 100000) (j : Fin 64) (k : Fin 384) : Read.lidx_main_v0 (ix2 r j) k = ix2 r k :=
  funext fun a => Fin.ext (by match a with | ⟨0, _⟩ => rfl | ⟨1, _⟩ => rfl)

theorem ridx0 (r : Fin 100000) (j : Fin 64) (k : Fin 384) : Read.ridx_main_v0 (ix2 r j) k = ix2 k j :=
  funext fun a => Fin.ext (by match a with | ⟨0, _⟩ => rfl | ⟨1, _⟩ => rfl)

theorem bidx0 (r : Fin 100000) (j : Fin 64) : Read.idx_main_v1 (Read.idx_main_v2 (ix2 r j)) = ix1 j :=
  funext fun a => Fin.ext (by match a with | ⟨0, _⟩ => rfl)

theorem lidx20 (r : Fin 100000) (j : Fin 128) (k : Fin 512) : Read.lidx_main_v20 (ix2 r j) k = ix2 r k :=
  funext fun a => Fin.ext (by match a with | ⟨0, _⟩ => rfl | ⟨1, _⟩ => rfl)

theorem ridx20 (r : Fin 100000) (j : Fin 128) (k : Fin 512) : Read.ridx_main_v20 (ix2 r j) k = ix2 k j :=
  funext fun a => Fin.ext (by match a with | ⟨0, _⟩ => rfl | ⟨1, _⟩ => rfl)

theorem bidx1 (r : Fin 100000) (j : Fin 128) : Read.idx_main_v21 (Read.idx_main_v22 (ix2 r j)) = ix1 j :=
  funext fun a => Fin.ext (by match a with | ⟨0, _⟩ => rfl)

theorem lidx25 (r : Fin 100000) (j : Fin 128) (k : Fin 128) : Read.lidx_main_v25 (ix2 r j) k = ix2 r k :=
  funext fun a => Fin.ext (by match a with | ⟨0, _⟩ => rfl | ⟨1, _⟩ => rfl)

theorem ridx25 (r : Fin 100000) (j : Fin 128) (k : Fin 128) : Read.ridx_main_v25 (ix2 r j) k = ix2 k j :=
  funext fun a => Fin.ext (by match a with | ⟨0, _⟩ => rfl | ⟨1, _⟩ => rfl)

theorem bidx2 (r : Fin 100000) (j : Fin 128) : Read.idx_main_v26 (Read.idx_main_v27 (ix2 r j)) = ix1 j :=
  funext fun a => Fin.ext (by match a with | ⟨0, _⟩ => rfl)

theorem lidx30 (r : Fin 100000) (j : Fin 64) (k : Fin 128) : Read.lidx_main_v30 (ix2 r j) k = ix2 r k :=
  funext fun a => Fin.ext (by match a with | ⟨0, _⟩ => rfl | ⟨1, _⟩ => rfl)

theorem ridx30 (r : Fin 100000) (j : Fin 64) (k : Fin 128) : Read.ridx_main_v30 (ix2 r j) k = ix2 k j :=
  funext fun a => Fin.ext (by match a with | ⟨0, _⟩ => rfl | ⟨1, _⟩ => rfl)

theorem bidx3 (r : Fin 100000) (j : Fin 64) : Read.idx_main_v31 (Read.idx_main_v32 (ix2 r j)) = ix1 j :=
  funext fun a => Fin.ext (by match a with | ⟨0, _⟩ => rfl)

theorem nidx (r : Fin 100000) (q : Fin 64) (k : Fin 64) :
    Read.idx_main_v35 (Read.idx_main_v36 (Read.idx_main_v40 (ix2 r q))) k = ix2 r k :=
  funext fun a => Fin.ext (by match a with | ⟨0, _⟩ => rfl | ⟨1, _⟩ => rfl)

theorem gidx10 (r : Fin 100000) : Read.idx_main_v10 (ix2 r (0 : Fin 1)) = ix1 r :=
  funext fun a => Fin.ext (by match a with | ⟨0, _⟩ => rfl)

theorem gidx17 (r : Fin 100000) : Read.idx_main_v17 (ix2 r (0 : Fin 1)) = ix1 r :=
  funext fun a => Fin.ext (by match a with | ⟨0, _⟩ => rfl)

/-! ## The stages, one item row at a time -/

section Stages

variable (x1 : Vec Ideal S100000x128 .f32) (x2 : Vec Ideal S100x128 .f32) (x3 : Vec Ideal S500x128 .f32)
  (x4 : Vec Ideal S100000x64 .f32) (x5 : Vec Ideal S100000x384 .f32) (x6 x7 : IVec S100000 32)
  (x10 : Vec Ideal S384x64 .f32) (x11 : Vec Ideal S64 .f32) (x12 : Vec Ideal S512x128 .f32) (x13 : Vec Ideal S128 .f32)
  (x14 : Vec Ideal S128x128 .f32) (x15 : Vec Ideal S128 .f32) (x16 : Vec Ideal S128x64 .f32) (x17 : Vec Ideal S64 .f32)

/-- The projected text row: a dense layer of the text row, rectified. -/
theorem text_apply (r : Fin 100000) (q : Fin 64) :
    Read.val_main_v4 (F := Ideal) x5 x10 x11 (ix2 r q) = relu (affine (rowOf x5 r) (matOf x10) (vecOf x11) q) := by
  rw [Read.val_main_v4_apply, Read.val_main_v3_apply, Read.val_main_v0_apply, Read.val_main_v2_apply,
    Read.val_main_v1_apply, Read.val_main_call0_v0_apply, Read.val_main_call0_cst_apply, bidx0]
  simp only [lidx0, ridx0, Ideal.maximumf_def, Ideal.addf_def, Ideal.ofBits_def, Ideal.ofBits_zero_f32]
  rfl

/-- The gathered brand row of an item whose brand index is inside the table is the row the index names. -/
theorem brand_apply (r : Fin 100000) (k : Fin 128) (hb : 0 ≤ (x6 (ix1 r)).toInt ∧ (x6 (ix1 r)).toInt < 100) :
    Read.val_main_v11 (F := Ideal) x2 x6 (ix2 r k) = rowOf x2 (rowAt 100 (by omega) (x6 (ix1 r))) k := by
  have h1 : Read.val_main_v11 (F := Ideal) x2 x6 (ix2 r k)
      = x2 (ix2 (LibScatter.clampRow 100 (by omega) (Read.val_main_v10 (F := Ideal) x6 (ix2 r (0 : Fin 1)))) k) :=
    LibScatter.rowGather_apply (N := 100) (E := 100000) (C := 128) (w := 32) (by omega)
      gather_S100x128_S100000x1_S100000x128_1_0_n_n_0_1_1128_wf x2 (Read.val_main_v10 (F := Ideal) x6) r k
  have h2 : Read.val_main_v10 (F := Ideal) x6 (ix2 r (0 : Fin 1)) = x6 (ix1 r) := by
    rw [Read.val_main_v10_apply, gidx10, Read.val_main_v9_apply, Read.val_main_v6_apply, Read.val_main_v5_apply, Read.val_main_c_apply]
    exact select_slt_zero _ _ hb.1
  rw [h1, h2, clampRow_eq_rowAt (by omega) (by norm_num) _ ⟨hb.1, by have := hb.2; omega⟩]
  rfl

/-- The gathered size row likewise. -/
theorem size_apply (r : Fin 100000) (k : Fin 128) (hs : 0 ≤ (x7 (ix1 r)).toInt ∧ (x7 (ix1 r)).toInt < 500) :
    Read.val_main_v18 (F := Ideal) x3 x7 (ix2 r k) = rowOf x3 (rowAt 500 (by omega) (x7 (ix1 r))) k := by
  have h1 : Read.val_main_v18 (F := Ideal) x3 x7 (ix2 r k)
      = x3 (ix2 (LibScatter.clampRow 500 (by omega) (Read.val_main_v17 (F := Ideal) x7 (ix2 r (0 : Fin 1)))) k) :=
    LibScatter.rowGather_apply (N := 500) (E := 100000) (C := 128) (w := 32) (by omega)
      gather_S500x128_S100000x1_S100000x128_1_0_n_n_0_1_1128_wf x3 (Read.val_main_v17 (F := Ideal) x7) r k
  have h2 : Read.val_main_v17 (F := Ideal) x7 (ix2 r (0 : Fin 1)) = x7 (ix1 r) := by
    rw [Read.val_main_v17_apply, gidx17, Read.val_main_v16_apply, Read.val_main_v13_apply, Read.val_main_v12_apply, Read.val_main_c_1_apply]
    exact select_slt_zero _ _ hs.1
  rw [h1, h2, clampRow_eq_rowAt (by omega) (by norm_num) _ ⟨hs.1, by have := hs.2; omega⟩]
  rfl

/-- Columns 0 .. 128 of the concatenated features: the item's embedding row. -/
theorem feat_embed (r : Fin 100000) (c : Fin 512) (k : Fin 128) (hc : c.val = 0 + k.val) :
    Read.val_main_v19 (F := Ideal) x1 x2 x3 x4 x5 x6 x7 x10 x11 (ix2 r c) = x1 (ix2 r k) :=
  cat5_0 x1 (Read.val_main_v11 (F := Ideal) x2 x6) (Read.val_main_v18 (F := Ideal) x3 x7) x4
    (Read.val_main_v4 (F := Ideal) x5 x10 x11) concatenates_S100000x128_S100000x128_S100000x128_S100000x64_S100000x64_S100000x512_d1 r c k hc

/-- Columns 128 .. 256: the gathered brand row. -/
theorem feat_brand (r : Fin 100000) (c : Fin 512) (k : Fin 128) (hc : c.val = 128 + k.val) :
    Read.val_main_v19 (F := Ideal) x1 x2 x3 x4 x5 x6 x7 x10 x11 (ix2 r c) = Read.val_main_v11 (F := Ideal) x2 x6 (ix2 r k) :=
  cat5_1 x1 (Read.val_main_v11 (F := Ideal) x2 x6) (Read.val_main_v18 (F := Ideal) x3 x7) x4
    (Read.val_main_v4 (F := Ideal) x5 x10 x11) concatenates_S100000x128_S100000x128_S100000x128_S100000x64_S100000x64_S100000x512_d1 r c k hc

/-- Columns 256 .. 384: the gathered size row. -/
theorem feat_size (r : Fin 100000) (c : Fin 512) (k : Fin 128) (hc : c.val = 256 + k.val) :
    Read.val_main_v19 (F := Ideal) x1 x2 x3 x4 x5 x6 x7 x10 x11 (ix2 r c) = Read.val_main_v18 (F := Ideal) x3 x7 (ix2 r k) :=
  cat5_2 x1 (Read.val_main_v11 (F := Ideal) x2 x6) (Read.val_main_v18 (F := Ideal) x3 x7) x4
    (Read.val_main_v4 (F := Ideal) x5 x10 x11) concatenates_S100000x128_S100000x128_S100000x128_S100000x64_S100000x64_S100000x512_d1 r c k hc

/-- Columns 384 .. 448: the specification row. -/
theorem feat_specs (r : Fin 100000) (c : Fin 512) (k : Fin 64) (hc : c.val = 384 + k.val) :
    Read.val_main_v19 (F := Ideal) x1 x2 x3 x4 x5 x6 x7 x10 x11 (ix2 r c) = x4 (ix2 r k) :=
  cat5_3 x1 (Read.val_main_v11 (F := Ideal) x2 x6) (Read.val_main_v18 (F := Ideal) x3 x7) x4
    (Read.val_main_v4 (F := Ideal) x5 x10 x11) concatenates_S100000x128_S100000x128_S100000x128_S100000x64_S100000x64_S100000x512_d1 r c k hc

/-- Columns 448 .. 512: the projected text row. -/
theorem feat_text (r : Fin 100000) (c : Fin 512) (k : Fin 64) (hc : c.val = 448 + k.val) :
    Read.val_main_v19 (F := Ideal) x1 x2 x3 x4 x5 x6 x7 x10 x11 (ix2 r c) = Read.val_main_v4 (F := Ideal) x5 x10 x11 (ix2 r k) :=
  cat5_4 x1 (Read.val_main_v11 (F := Ideal) x2 x6) (Read.val_main_v18 (F := Ideal) x3 x7) x4
    (Read.val_main_v4 (F := Ideal) x5 x10 x11) concatenates_S100000x128_S100000x128_S100000x128_S100000x64_S100000x64_S100000x512_d1 r c k hc

/-- The first layer before its bias: the one sum over the 512 concatenated columns is the five block sums. -/
theorem pre_apply (r : Fin 100000) (j : Fin 128) (hb : 0 ≤ (x6 (ix1 r)).toInt ∧ (x6 (ix1 r)).toInt < 100) (hs : 0 ≤ (x7 (ix1 r)).toInt ∧ (x7 (ix1 r)).toInt < 500) :
    Read.val_main_v20 (F := Ideal) x1 x2 x3 x4 x5 x6 x7 x10 x11 x12 (ix2 r j)
      = itemPre (rowOf x1 r) (rowOf x2 (rowAt 100 (by omega) (x6 (ix1 r)))) (rowOf x3 (rowAt 500 (by omega) (x7 (ix1 r))))
          (rowOf x4 r) (fun k => relu (affine (rowOf x5 r) (matOf x10) (vecOf x11) k)) (matOf x12) j := by
  rw [Read.val_main_v20_apply, sum_five_blocks]
  unfold itemPre
  congr 1
  · congr 1
    · congr 1
      · congr 1
        · refine Finset.sum_congr rfl fun k _ => ?_
          rw [lidx20, ridx20, feat_embed x1 x2 x3 x4 x5 x6 x7 x10 x11 r ⟨0 + k.val, by have := k.isLt; omega⟩ k rfl]
          rfl
        · refine Finset.sum_congr rfl fun k _ => ?_
          rw [lidx20, ridx20, feat_brand x1 x2 x3 x4 x5 x6 x7 x10 x11 r ⟨128 + k.val, by have := k.isLt; omega⟩ k rfl, brand_apply x2 x6 r k hb]
          rfl
      · refine Finset.sum_congr rfl fun k _ => ?_
        rw [lidx20, ridx20, feat_size x1 x2 x3 x4 x5 x6 x7 x10 x11 r ⟨256 + k.val, by have := k.isLt; omega⟩ k rfl, size_apply x3 x7 r k hs]
        rfl
    · refine Finset.sum_congr rfl fun k _ => ?_
      rw [lidx20, ridx20, feat_specs x1 x2 x3 x4 x5 x6 x7 x10 x11 r ⟨384 + k.val, by have := k.isLt; omega⟩ k rfl]
      rfl
  · refine Finset.sum_congr rfl fun k _ => ?_
    rw [lidx20, ridx20, feat_text x1 x2 x3 x4 x5 x6 x7 x10 x11 r ⟨448 + k.val, by have := k.isLt; omega⟩ k rfl, text_apply x5 x10 x11 r k]
    rfl

/-- The first hidden row. -/
theorem hidden1_apply (r : Fin 100000) (j : Fin 128) (hb : 0 ≤ (x6 (ix1 r)).toInt ∧ (x6 (ix1 r)).toInt < 100) (hs : 0 ≤ (x7 (ix1 r)).toInt ∧ (x7 (ix1 r)).toInt < 500) :
    Read.val_main_v24 (F := Ideal) x1 x2 x3 x4 x5 x6 x7 x10 x11 x12 x13 (ix2 r j)
      = relu (itemPre (rowOf x1 r) (rowOf x2 (rowAt 100 (by omega) (x6 (ix1 r)))) (rowOf x3 (rowAt 500 (by omega) (x7 (ix1 r))))
          (rowOf x4 r) (fun k => relu (affine (rowOf x5 r) (matOf x10) (vecOf x11) k)) (matOf x12) j + vecOf x13 j) := by
  rw [Read.val_main_v24_apply, Read.val_main_v23_apply, Read.val_main_v22_apply, Read.val_main_v21_apply,
    Read.val_main_call1_v0_apply, Read.val_main_call1_cst_apply, bidx1, pre_apply x1 x2 x3 x4 x5 x6 x7 x10 x11 x12 r j hb hs]
  simp only [Ideal.maximumf_def, Ideal.addf_def, Ideal.ofBits_def, Ideal.ofBits_zero_f32]
  rfl

/-- The second hidden row: a dense layer of the first, rectified. -/
theorem hidden2_apply (r : Fin 100000) (j : Fin 128) :
    Read.val_main_v29 (F := Ideal) x1 x2 x3 x4 x5 x6 x7 x10 x11 x12 x13 x14 x15 (ix2 r j)
      = relu (affine (fun k => Read.val_main_v24 (F := Ideal) x1 x2 x3 x4 x5 x6 x7 x10 x11 x12 x13 (ix2 r k)) (matOf x14) (vecOf x15) j) := by
  rw [Read.val_main_v29_apply, Read.val_main_v28_apply, Read.val_main_v25_apply, Read.val_main_v27_apply,
    Read.val_main_v26_apply, Read.val_main_call2_v0_apply, Read.val_main_call2_cst_apply, bidx2]
  simp only [lidx25, ridx25, Ideal.maximumf_def, Ideal.addf_def, Ideal.ofBits_def, Ideal.ofBits_zero_f32]
  rfl

/-- The output row before it is normalised: a dense layer of the second hidden row. -/
theorem out_apply (r : Fin 100000) (q : Fin 64) :
    Read.val_main_v33 (F := Ideal) x1 x2 x3 x4 x5 x6 x7 x10 x11 x12 x13 x14 x15 x16 x17 (ix2 r q)
      = affine (fun k => Read.val_main_v29 (F := Ideal) x1 x2 x3 x4 x5 x6 x7 x10 x11 x12 x13 x14 x15 (ix2 r k)) (matOf x16) (vecOf x17) q := by
  rw [Read.val_main_v33_apply, Read.val_main_v30_apply, Read.val_main_v32_apply, Read.val_main_v31_apply, bidx3]
  simp only [lidx30, ridx30, Ideal.addf_def]
  rfl

/-- The item vector: the output row over its floored Euclidean norm. -/
theorem unit_apply (r : Fin 100000) (q : Fin 64) :
    Read.val_main_v41 (F := Ideal) x1 x2 x3 x4 x5 x6 x7 x10 x11 x12 x13 x14 x15 x16 x17 (ix2 r q)
      = unitRow (fun k => Read.val_main_v33 (F := Ideal) x1 x2 x3 x4 x5 x6 x7 x10 x11 x12 x13 x14 x15 x16 x17 (ix2 r k)) q := by
  rw [Read.val_main_v41_apply, Read.val_main_v40_apply, Read.val_main_v39_apply, Read.val_main_v37_apply,
    Read.val_main_v36_apply, Read.val_main_v35_apply, Read.val_main_v38_apply, Read.val_main_cst_3_apply,
    Read.val_main_cst_apply]
  simp only [Read.val_main_v34_apply, nidx, Ideal.hostDivf_def, Ideal.maximumf_def, Ideal.hostUnary_sqrt_def,
    Ideal.mulf_def, Ideal.ofBits_def, Ideal.ofBits_zero_f32, zero_add]
  rfl

end Stages

/-- The reference's item vectors, for brand and size indices inside their tables. -/
theorem item_eq (x1 : Vec Ideal S100000x128 .f32) (x2 : Vec Ideal S100x128 .f32) (x3 : Vec Ideal S500x128 .f32)
    (x4 : Vec Ideal S100000x64 .f32) (x5 : Vec Ideal S100000x384 .f32) (x6 x7 : IVec S100000 32)
    (x10 : Vec Ideal S384x64 .f32) (x11 : Vec Ideal S64 .f32) (x12 : Vec Ideal S512x128 .f32) (x13 : Vec Ideal S128 .f32)
    (x14 : Vec Ideal S128x128 .f32) (x15 : Vec Ideal S128 .f32) (x16 : Vec Ideal S128x64 .f32) (x17 : Vec Ideal S64 .f32)
    (hb : ∀ r : Fin 100000, 0 ≤ (x6 (ix1 r)).toInt ∧ (x6 (ix1 r)).toInt < 100)
    (hs : ∀ r : Fin 100000, 0 ≤ (x7 (ix1 r)).toInt ∧ (x7 (ix1 r)).toInt < 500) :
    Read.val_main_v41 (F := Ideal) x1 x2 x3 x4 x5 x6 x7 x10 x11 x12 x13 x14 x15 x16 x17
      = itemVec x1 x2 x3 x4 x5 x6 x7 x10 x11 x12 x13 x14 x15 x16 x17 := by
  funext i
  obtain ⟨r, q, rfl⟩ : ∃ (r : Fin 100000) (q : Fin 64), i = ix2 r q := ⟨i 0, i 1, eq_ix2 i⟩
  rw [unit_apply]
  simp only [out_apply, hidden2_apply,
    fun k => hidden1_apply x1 x2 x3 x4 x5 x6 x7 x10 x11 x12 x13 r k (hb r) (hs r)]
  rfl

end Cert.ReferenceIdeal.ItemRef

end
-- ==== Proof.RUser.lean ====
/-
  The reference's user vectors are the user tower's row function of each user's embedding row and pooled-history row;
  the pooled histories are one fixed chain of host operations (a gather of item vectors by event, two sums by segment,
  a guarded quotient) applied to the item vectors, the event items and the event segments.
-/
import proofs.«404036_j22144851378180_1_alg».proof.Proof.RefRead
import proofs.«404036_j22144851378180_1_alg».proof.Proof.Tower
import Idealize.ShloMosaic.Lib.ValueIdx
import Idealize.ShloMosaic.Lib.Pipeline.Value
import Idealize.ShloMosaic.PureOps.Ideal.Laws

noncomputable section

namespace Cert.ReferenceIdeal.UserRef

open Cert.ReferenceIdeal Cert.ReferenceIdeal.Gen Cert.Tower Idealize.ShloMosaic Idealize.ShloMosaic.ValueIdx

variable {F : FTy → Type} [FloatOps F]

/-- The pooled histories as the reference computes them from the item vectors, the event items and the event segments. -/
def pool (item : Vec F S100000x64 .f32) (x8 x9 : IVec S2000000 32) : Vec F S100000x64 .f32 :=
  select (Read.val_main_call3_v1 (F := F) x9)
    (Host.divf
      (Host.scatterAdd scatter_S100000x64_S2000000x1_S2000000x64_1_0_0_1 (Read.val_main_v49 (F := F)) (Read.val_main_v50 (F := F) x9)
        (Host.gather gather_S100000x64_S2000000x1_S2000000x64_1_0_n_n_0_1_164 item (Read.val_main_v47 (F := F) x8)))
      (Read.val_main_v61 (F := F) x9))
    (Read.val_main_call3_v2 (F := F))

/-- The reference's pooled histories are that chain applied to its own item vectors. -/
theorem pool_eq (x1 : Vec F S100000x128 .f32) (x2 : Vec F S100x128 .f32) (x3 : Vec F S500x128 .f32)
    (x4 : Vec F S100000x64 .f32) (x5 : Vec F S100000x384 .f32) (x6 x7 : IVec S100000 32) (x8 x9 : IVec S2000000 32)
    (x10 : Vec F S384x64 .f32) (x11 : Vec F S64 .f32) (x12 : Vec F S512x128 .f32) (x13 : Vec F S128 .f32)
    (x14 : Vec F S128x128 .f32) (x15 : Vec F S128 .f32) (x16 : Vec F S128x64 .f32) (x17 : Vec F S64 .f32) :
    Read.val_main_v63 (F := F) x1 x2 x3 x4 x5 x6 x7 x8 x9 x10 x11 x12 x13 x14 x15 x16 x17
      = pool (Read.val_main_v41 (F := F) x1 x2 x3 x4 x5 x6 x7 x10 x11 x12 x13 x14 x15 x16 x17) x8 x9 := by
  unfold Read.val_main_v63 Read.val_main_v62 Read.val_main_v51 Read.val_main_v48 pool
  rfl

/-! ## The user tower, stage by stage

Each stage of the reference's user tower is read at row `r` and column `j`; the pooled histories stay a variable. -/

section Stages

variable (x0 x1 : Vec Ideal S100000x128 .f32) (x2 : Vec Ideal S100x128 .f32) (x3 : Vec Ideal S500x128 .f32)
    (x4 : Vec Ideal S100000x64 .f32) (x5 : Vec Ideal S100000x384 .f32) (x6 x7 : IVec S100000 32) (x8 x9 : IVec S2000000 32)
    (x10 : Vec Ideal S384x64 .f32) (x11 : Vec Ideal S64 .f32) (x12 : Vec Ideal S512x128 .f32) (x13 : Vec Ideal S128 .f32)
    (x14 : Vec Ideal S128x128 .f32) (x15 : Vec Ideal S128 .f32) (x16 : Vec Ideal S128x64 .f32) (x17 : Vec Ideal S64 .f32)
    (x18 : Vec Ideal S192x128 .f32) (x19 : Vec Ideal S128 .f32) (x20 : Vec Ideal S128x128 .f32) (x21 : Vec Ideal S128 .f32)
    (x22 : Vec Ideal S128x64 .f32) (x23 : Vec Ideal S64 .f32)

/-- A column below 128 of the concatenated features is that column of the user's embedding row. -/
theorem feat_left (r : Fin 100000) (k : Fin 128) :
    Read.val_main_v64 (F := Ideal) x0 x1 x2 x3 x4 x5 x6 x7 x8 x9 x10 x11 x12 x13 x14 x15 x16 x17 (ix2 r ⟨0 + k.val, by have := k.isLt; omega⟩) = x0 (ix2 r k) := by
  unfold Read.val_main_v64
  generalize Read.val_main_v63 (F := Ideal) x1 x2 x3 x4 x5 x6 x7 x8 x9 x10 x11 x12 x13 x14 x15 x16 x17 = hp
  exact concatenate_pair_apply_left (1 : Fin S100000x192.rank) x0 hp concatenates_S100000x128_S100000x64_S100000x192_d1 _ rfl (ix2 r k)
    (fun b => match b with
      | ⟨0, _⟩ => rfl
      | ⟨1, _⟩ => (Nat.zero_add k.val).symm)

/-- A column from 128 on of the concatenated features is the pooled-history row's column, 128 less. -/
theorem feat_right (r : Fin 100000) (k : Fin 64) :
    Read.val_main_v64 (F := Ideal) x0 x1 x2 x3 x4 x5 x6 x7 x8 x9 x10 x11 x12 x13 x14 x15 x16 x17 (ix2 r ⟨128 + k.val, by have := k.isLt; omega⟩)
      = Read.val_main_v63 (F := Ideal) x1 x2 x3 x4 x5 x6 x7 x8 x9 x10 x11 x12 x13 x14 x15 x16 x17 (ix2 r k) := by
  unfold Read.val_main_v64
  generalize Read.val_main_v63 (F := Ideal) x1 x2 x3 x4 x5 x6 x7 x8 x9 x10 x11 x12 x13 x14 x15 x16 x17 = hp
  exact concatenate_pair_apply_right (1 : Fin S100000x192.rank) x0 hp concatenates_S100000x128_S100000x64_S100000x192_d1 _ rfl rfl (ix2 r k)
    (fun b hb => match b, hb with
      | ⟨0, _⟩, _ => rfl
      | ⟨1, _⟩, hb => absurd (Fin.ext rfl) hb)
    (by show k.val + 128 = 128 + k.val; omega)

theorem lidx65 (r : Fin 100000) (j : Fin 128) (k : Fin 192) : Read.lidx_main_v65 (ix2 r j) k = ix2 r k := by
  funext a; match a with | ⟨0, _⟩ => rfl | ⟨1, _⟩ => rfl

theorem ridx65 (r : Fin 100000) (j : Fin 128) (k : Fin 192) : Read.ridx_main_v65 (ix2 r j) k = ix2 k j := by
  funext a; match a with | ⟨0, _⟩ => rfl | ⟨1, _⟩ => rfl

/-- The first layer's product: the sum over the 192 concatenated columns is the two block sums. -/
theorem first_at (r : Fin 100000) (j : Fin 128) :
    Read.val_main_v65 (F := Ideal) x0 x1 x2 x3 x4 x5 x6 x7 x8 x9 x10 x11 x12 x13 x14 x15 x16 x17 x18 (ix2 r j) = userPre (rowOf x0 r) (rowOf (Read.val_main_v63 (F := Ideal) x1 x2 x3 x4 x5 x6 x7 x8 x9 x10 x11 x12 x13 x14 x15 x16 x17) r) (matOf x18) j := by
  rw [Read.val_main_v65_apply, sum_two_blocks]
  unfold userPre
  refine congrArg₂ (· + ·) (Finset.sum_congr rfl fun k _ => ?_) (Finset.sum_congr rfl fun k _ => ?_)
  · rw [lidx65, ridx65, feat_left]
    rfl
  · rw [lidx65, ridx65, feat_right]
    generalize Read.val_main_v63 (F := Ideal) x1 x2 x3 x4 x5 x6 x7 x8 x9 x10 x11 x12 x13 x14 x15 x16 x17 = hp
    rfl

/-- The first bias, spread over the rows. -/
theorem bias1_at (r : Fin 100000) (j : Fin 128) : Read.val_main_v67 (F := Ideal) x19 (ix2 r j) = vecOf x19 j := by
  rw [Read.val_main_v67_apply, Read.val_main_v66_apply]
  show x19 _ = x19 (ix1 j)
  exact congrArg x19 (funext fun a => match a with | ⟨0, _⟩ => rfl)

/-- The first rectifier's floor is zero. -/
theorem zero1_at (i : S100000x128.Idx) : Read.val_main_call4_v0 (F := Ideal) i = (0 : EReal) := by
  rw [Read.val_main_call4_v0_apply, Read.val_main_call4_cst_apply]
  exact Ideal.ofBits_zero_f32

/-- The first hidden layer. -/
theorem hid1_at (r : Fin 100000) (j : Fin 128) :
    Read.val_main_v69 (F := Ideal) x0 x1 x2 x3 x4 x5 x6 x7 x8 x9 x10 x11 x12 x13 x14 x15 x16 x17 x18 x19 (ix2 r j) = relu (userPre (rowOf x0 r) (rowOf (Read.val_main_v63 (F := Ideal) x1 x2 x3 x4 x5 x6 x7 x8 x9 x10 x11 x12 x13 x14 x15 x16 x17) r) (matOf x18) j + vecOf x19 j) := by
  rw [Read.val_main_v69_apply, Read.val_main_v68_apply, first_at, bias1_at, zero1_at]
  generalize Read.val_main_v63 (F := Ideal) x1 x2 x3 x4 x5 x6 x7 x8 x9 x10 x11 x12 x13 x14 x15 x16 x17 = hp
  rfl

theorem lidx70 (r : Fin 100000) (j k : Fin 128) : Read.lidx_main_v70 (ix2 r j) k = ix2 r k := by
  funext a; match a with | ⟨0, _⟩ => rfl | ⟨1, _⟩ => rfl

theorem ridx70 (r : Fin 100000) (j k : Fin 128) : Read.ridx_main_v70 (ix2 r j) k = ix2 k j := by
  funext a; match a with | ⟨0, _⟩ => rfl | ⟨1, _⟩ => rfl

/-- The second bias, spread over the rows. -/
theorem bias2_at (r : Fin 100000) (j : Fin 128) : Read.val_main_v72 (F := Ideal) x21 (ix2 r j) = vecOf x21 j := by
  rw [Read.val_main_v72_apply, Read.val_main_v71_apply]
  show x21 _ = x21 (ix1 j)
  exact congrArg x21 (funext fun a => match a with | ⟨0, _⟩ => rfl)

/-- The second rectifier's floor is zero. -/
theorem zero2_at (i : S100000x128.Idx) : Read.val_main_call5_v0 (F := Ideal) i = (0 : EReal) := by
  rw [Read.val_main_call5_v0_apply, Read.val_main_call5_cst_apply]
  exact Ideal.ofBits_zero_f32

/-- The second hidden layer. -/
theorem hid2_at (r : Fin 100000) (j : Fin 128) :
    Read.val_main_v74 (F := Ideal) x0 x1 x2 x3 x4 x5 x6 x7 x8 x9 x10 x11 x12 x13 x14 x15 x16 x17 x18 x19 x20 x21 (ix2 r j) = relu (affine (fun k => relu (userPre (rowOf x0 r) (rowOf (Read.val_main_v63 (F := Ideal) x1 x2 x3 x4 x5 x6 x7 x8 x9 x10 x11 x12 x13 x14 x15 x16 x17) r) (matOf x18) k + vecOf x19 k)) (matOf x20) (vecOf x21) j) := by
  rw [Read.val_main_v74_apply, Read.val_main_v73_apply, Read.val_main_v70_apply, bias2_at, zero2_at]
  rw [Finset.sum_congr rfl fun k _ => show
    Read.val_main_v69 (F := Ideal) x0 x1 x2 x3 x4 x5 x6 x7 x8 x9 x10 x11 x12 x13 x14 x15 x16 x17 x18 x19 (Read.lidx_main_v70 (ix2 r j) k) * x20 (Read.ridx_main_v70 (ix2 r j) k)
      = relu (userPre (rowOf x0 r) (rowOf (Read.val_main_v63 (F := Ideal) x1 x2 x3 x4 x5 x6 x7 x8 x9 x10 x11 x12 x13 x14 x15 x16 x17) r) (matOf x18) k + vecOf x19 k) * matOf x20 k j by rw [lidx70, ridx70, hid1_at]; generalize Read.val_main_v63 (F := Ideal) x1 x2 x3 x4 x5 x6 x7 x8 x9 x10 x11 x12 x13 x14 x15 x16 x17 = hp; rfl]
  generalize Read.val_main_v63 (F := Ideal) x1 x2 x3 x4 x5 x6 x7 x8 x9 x10 x11 x12 x13 x14 x15 x16 x17 = hp
  rfl

theorem lidx75 (r : Fin 100000) (q : Fin 64) (k : Fin 128) : Read.lidx_main_v75 (ix2 r q) k = ix2 r k := by
  funext a; match a with | ⟨0, _⟩ => rfl | ⟨1, _⟩ => rfl

theorem ridx75 (r : Fin 100000) (q : Fin 64) (k : Fin 128) : Read.ridx_main_v75 (ix2 r q) k = ix2 k q := by
  funext a; match a with | ⟨0, _⟩ => rfl | ⟨1, _⟩ => rfl

/-- The third bias, spread over the rows. -/
theorem bias3_at (r : Fin 100000) (q : Fin 64) : Read.val_main_v77 (F := Ideal) x23 (ix2 r q) = vecOf x23 q := by
  rw [Read.val_main_v77_apply, Read.val_main_v76_apply]
  show x23 _ = x23 (ix1 q)
  exact congrArg x23 (funext fun a => match a with | ⟨0, _⟩ => rfl)

/-- The last layer, before the division by the norm. -/
theorem out_at (r : Fin 100000) (q : Fin 64) :
    Read.val_main_v78 (F := Ideal) x0 x1 x2 x3 x4 x5 x6 x7 x8 x9 x10 x11 x12 x13 x14 x15 x16 x17 x18 x19 x20 x21 x22 x23 (ix2 r q) = (affine (fun k => relu (affine (fun k => relu (userPre (rowOf x0 r) (rowOf (Read.val_main_v63 (F := Ideal) x1 x2 x3 x4 x5 x6 x7 x8 x9 x10 x11 x12 x13 x14 x15 x16 x17) r) (matOf x18) k + vecOf x19 k)) (matOf x20) (vecOf x21) k)) (matOf x22) (vecOf x23)) q := by
  rw [Read.val_main_v78_apply, Read.val_main_v75_apply, bias3_at]
  rw [Finset.sum_congr rfl fun k _ => show
    Read.val_main_v74 (F := Ideal) x0 x1 x2 x3 x4 x5 x6 x7 x8 x9 x10 x11 x12 x13 x14 x15 x16 x17 x18 x19 x20 x21 (Read.lidx_main_v75 (ix2 r q) k) * x22 (Read.ridx_main_v75 (ix2 r q) k)
      = relu (affine (fun k => relu (userPre (rowOf x0 r) (rowOf (Read.val_main_v63 (F := Ideal) x1 x2 x3 x4 x5 x6 x7 x8 x9 x10 x11 x12 x13 x14 x15 x16 x17) r) (matOf x18) k + vecOf x19 k)) (matOf x20) (vecOf x21) k) * matOf x22 k q by rw [lidx75, ridx75, hid2_at]; generalize Read.val_main_v63 (F := Ideal) x1 x2 x3 x4 x5 x6 x7 x8 x9 x10 x11 x12 x13 x14 x15 x16 x17 = hp; rfl]
  generalize Read.val_main_v63 (F := Ideal) x1 x2 x3 x4 x5 x6 x7 x8 x9 x10 x11 x12 x13 x14 x15 x16 x17 = hp
  rfl

theorem idx80 (r : Fin 100000) (q k : Fin 64) :
    Read.idx_main_v80 (Read.idx_main_v81 (Read.idx_main_v85 (ix2 r q))) k = ix2 r k := by
  funext a; match a with | ⟨0, _⟩ => rfl | ⟨1, _⟩ => rfl

/-- The floored norm of the last layer's row, spread over the columns. -/
theorem norm_at (r : Fin 100000) (q : Fin 64) :
    Read.val_main_v85 (F := Ideal) x0 x1 x2 x3 x4 x5 x6 x7 x8 x9 x10 x11 x12 x13 x14 x15 x16 x17 x18 x19 x20 x21 x22 x23 (ix2 r q)
      = max (Ideal.sqrt (∑ k, (affine (fun k => relu (affine (fun k => relu (userPre (rowOf x0 r) (rowOf (Read.val_main_v63 (F := Ideal) x1 x2 x3 x4 x5 x6 x7 x8 x9 x10 x11 x12 x13 x14 x15 x16 x17) r) (matOf x18) k + vecOf x19 k)) (matOf x20) (vecOf x21) k)) (matOf x22) (vecOf x23)) k * (affine (fun k => relu (affine (fun k => relu (userPre (rowOf x0 r) (rowOf (Read.val_main_v63 (F := Ideal) x1 x2 x3 x4 x5 x6 x7 x8 x9 x10 x11 x12 x13 x14 x15 x16 x17) r) (matOf x18) k + vecOf x19 k)) (matOf x20) (vecOf x21) k)) (matOf x22) (vecOf x23)) k)) normFloor := by
  rw [Read.val_main_v85_apply, Read.val_main_v84_apply, Read.val_main_v82_apply, Read.val_main_v81_apply,
    Read.val_main_v80_apply, Read.val_main_v83_apply, Read.val_main_cst_13_apply, Read.val_main_cst_12_apply]
  rw [Finset.sum_congr rfl fun k _ => show
    Read.val_main_v79 (F := Ideal) x0 x1 x2 x3 x4 x5 x6 x7 x8 x9 x10 x11 x12 x13 x14 x15 x16 x17 x18 x19 x20 x21 x22 x23 (Read.idx_main_v80 (Read.idx_main_v81 (Read.idx_main_v85 (ix2 r q))) k)
      = (affine (fun k => relu (affine (fun k => relu (userPre (rowOf x0 r) (rowOf (Read.val_main_v63 (F := Ideal) x1 x2 x3 x4 x5 x6 x7 x8 x9 x10 x11 x12 x13 x14 x15 x16 x17) r) (matOf x18) k + vecOf x19 k)) (matOf x20) (vecOf x21) k)) (matOf x22) (vecOf x23)) k * (affine (fun k => relu (affine (fun k => relu (userPre (rowOf x0 r) (rowOf (Read.val_main_v63 (F := Ideal) x1 x2 x3 x4 x5 x6 x7 x8 x9 x10 x11 x12 x13 x14 x15 x16 x17) r) (matOf x18) k + vecOf x19 k)) (matOf x20) (vecOf x21) k)) (matOf x22) (vecOf x23)) k by rw [idx80, Read.val_main_v79_apply, out_at]; generalize Read.val_main_v63 (F := Ideal) x1 x2 x3 x4 x5 x6 x7 x8 x9 x10 x11 x12 x13 x14 x15 x16 x17 = hp; rfl]
  show max (Ideal.sqrt (Ideal.ofBits .f32 0x00000000#32 + _)) _ = _
  rw [Ideal.ofBits_zero_f32, zero_add]
  generalize Read.val_main_v63 (F := Ideal) x1 x2 x3 x4 x5 x6 x7 x8 x9 x10 x11 x12 x13 x14 x15 x16 x17 = hp
  rfl

end Stages

/-- The reference's user vectors. -/
theorem user_eq (x0 x1 : Vec Ideal S100000x128 .f32) (x2 : Vec Ideal S100x128 .f32) (x3 : Vec Ideal S500x128 .f32)
    (x4 : Vec Ideal S100000x64 .f32) (x5 : Vec Ideal S100000x384 .f32) (x6 x7 : IVec S100000 32) (x8 x9 : IVec S2000000 32)
    (x10 : Vec Ideal S384x64 .f32) (x11 : Vec Ideal S64 .f32) (x12 : Vec Ideal S512x128 .f32) (x13 : Vec Ideal S128 .f32)
    (x14 : Vec Ideal S128x128 .f32) (x15 : Vec Ideal S128 .f32) (x16 : Vec Ideal S128x64 .f32) (x17 : Vec Ideal S64 .f32)
    (x18 : Vec Ideal S192x128 .f32) (x19 : Vec Ideal S128 .f32) (x20 : Vec Ideal S128x128 .f32) (x21 : Vec Ideal S128 .f32)
    (x22 : Vec Ideal S128x64 .f32) (x23 : Vec Ideal S64 .f32) :
    Read.val_main_v86 (F := Ideal) x0 x1 x2 x3 x4 x5 x6 x7 x8 x9 x10 x11 x12 x13 x14 x15 x16 x17 x18 x19 x20 x21 x22 x23
      = userVec x0 (Read.val_main_v63 (F := Ideal) x1 x2 x3 x4 x5 x6 x7 x8 x9 x10 x11 x12 x13 x14 x15 x16 x17)
          x18 x19 x20 x21 x22 x23 := by
  funext i
  obtain ⟨r, q, rfl⟩ : ∃ (r : Fin 100000) (q : Fin 64), i = ix2 r q := ⟨i 0, i 1, eq_ix2 i⟩
  rw [Read.val_main_v86_apply, out_at, norm_at]
  generalize Read.val_main_v63 (F := Ideal) x1 x2 x3 x4 x5 x6 x7 x8 x9 x10 x11 x12 x13 x14 x15 x16 x17 = hp
  rfl

end Cert.ReferenceIdeal.UserRef

end
-- ==== Proof.PoolAgree.lean ====
/-
  The pooled histories are one chain of host operations in both programs: the kernel's program and the reference print the
  same gather, the same two sums by segment and the same guarded quotient, over index shapes that are the same literal
  shapes under two names. Stated at any float values, where the two spellings are compared structurally.
-/
import proofs.«404036_j22144851378180_1_alg».proof.Proof.KValue
import proofs.«404036_j22144851378180_1_alg».proof.Proof.RUser

set_option maxRecDepth 16384

noncomputable section

namespace Cert.Proof.Pool

open Idealize.ShloMosaic

variable {F : FTy → Type} [FloatOps F]

/-- The reference's chain and the kernel program's chain are the same function of the item vectors, the event items and
    the event segments. -/
theorem pool_agree (item : Vec F Cert.ReferenceIdeal.S100000x64 .f32) (x8 x9 : IVec Cert.ReferenceIdeal.S2000000 32) :
    Cert.ReferenceIdeal.UserRef.pool (F := F) item x8 x9 = Cert.KernelIdeal.KValue.poolK (F := F) item x8 x9 := by
  unfold Cert.ReferenceIdeal.UserRef.pool Cert.KernelIdeal.KValue.poolK
    Cert.ReferenceIdeal.Read.val_main_call3_v1 Cert.ReferenceIdeal.Read.val_main_call3_v2 Cert.ReferenceIdeal.Read.val_main_call3_v0
    Cert.ReferenceIdeal.Read.val_main_v61 Cert.ReferenceIdeal.Read.val_main_v60 Cert.ReferenceIdeal.Read.val_main_v59
    Cert.ReferenceIdeal.Read.val_main_v58 Cert.ReferenceIdeal.Read.val_main_v57 Cert.ReferenceIdeal.Read.val_main_v56
    Cert.ReferenceIdeal.Read.val_main_v55 Cert.ReferenceIdeal.Read.val_main_v54 Cert.ReferenceIdeal.Read.val_main_v53
    Cert.ReferenceIdeal.Read.val_main_v52 Cert.ReferenceIdeal.Read.val_main_v50 Cert.ReferenceIdeal.Read.val_main_v49
    Cert.ReferenceIdeal.Read.val_main_v47 Cert.ReferenceIdeal.Read.val_main_v46 Cert.ReferenceIdeal.Read.val_main_v45
    Cert.ReferenceIdeal.Read.val_main_v44 Cert.ReferenceIdeal.Read.val_main_v43 Cert.ReferenceIdeal.Read.val_main_v42
    Cert.ReferenceIdeal.Read.val_main_cst_6 Cert.ReferenceIdeal.Read.val_main_cst_7 Cert.ReferenceIdeal.Read.val_main_cst_8
    Cert.ReferenceIdeal.Read.val_main_cst_9 Cert.ReferenceIdeal.Read.val_main_cst_10 Cert.ReferenceIdeal.Read.val_main_cst_11
    Cert.ReferenceIdeal.Read.val_main_c_4 Cert.ReferenceIdeal.Read.val_main_c_5
  rfl

end Cert.Proof.Pool

end
-- ==== Proof.PreRanges.lean ====
/-
  What the precondition says of the two index arrays: every brand index is in [0, 100) and every size index in [0, 500),
  read signed. The precondition is a conjunction whose last two conjuncts are these two facts, each an "all" over the
  100000 entries of a signed comparison pair.
-/
import proofs.«404036_j22144851378180_1_alg».proof.Pre_finite_inputs
import proofs.«404036_j22144851378180_1_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.PreRanges

open Cert.Pre_finite_inputs Idealize.ShloMosaic Idealize.ShloMosaic.ValueIdx

/-- The rank-0 result of an "all" has one index. -/
local instance : Subsingleton S_.Idx := ⟨fun a b => funext fun d => d.elim0⟩

/-- A scalar constant broadcast over a shape reads the constant everywhere. -/
theorem bcast_const {S : Shape} (hb : S_.BroadcastsInDim S (![] : Fin 0 → Fin S.rank)) (n : BitVec 32) (i : S.Idx) :
    broadcastInDim S ![] hb (constantI S_ 32 n) i = n := rfl

/-- Where the pair of signed comparisons "at least zero" and "below the bound" both hold, the word lies in the range. -/
theorem range_of_pair {S : Shape} (x : IVec S 32) (hb : S_.BroadcastsInDim S (![] : Fin 0 → Fin S.rank)) (n : BitVec 32)
    (i : S.Idx)
    (e : andi (cmpi .sge x (broadcastInDim S ![] hb (constantI S_ 32 0#32)))
      (cmpi .slt x (broadcastInDim S ![] hb (constantI S_ 32 n))) i = 1#1) :
    0 ≤ (x i).toInt ∧ (x i).toInt < n.toInt := by
  obtain ⟨h1, h2⟩ := IntOp.andi_eq_one.1 e
  have h1' := IntOp.cmpi_sge.1 h1
  have h2' := IntOp.cmpi_slt.1 h2
  rw [bcast_const] at h1' h2'
  have z : (0#32 : BitVec 32).toInt = 0 := by decide
  rw [z] at h1'
  exact ⟨h1', h2'⟩

/-- Under the precondition the brand indices and the size indices lie inside their tables. -/
theorem ranges_of_pre (a0 a1 : FVec Ideal S100000x128 .f32) (a2 : FVec Ideal S100x128 .f32) (a3 : FVec Ideal S500x128 .f32)
    (a4 : FVec Ideal S100000x64 .f32) (a5 : FVec Ideal S100000x384 .f32) (a6 a7 : IVec S100000 32) (a8 a9 : IVec S2000000 32)
    (a10 : FVec Ideal S384x64 .f32) (a11 : FVec Ideal S64 .f32) (a12 : FVec Ideal S512x128 .f32) (a13 : FVec Ideal S128 .f32)
    (a14 : FVec Ideal S128x128 .f32) (a15 : FVec Ideal S128 .f32) (a16 : FVec Ideal S128x64 .f32) (a17 : FVec Ideal S64 .f32)
    (a18 : FVec Ideal S192x128 .f32) (a19 : FVec Ideal S128 .f32) (a20 : FVec Ideal S128x128 .f32) (a21 : FVec Ideal S128 .f32)
    (a22 : FVec Ideal S128x64 .f32) (a23 : FVec Ideal S64 .f32)
    (h : Cert.Pre_finite_inputs.fn (F := Ideal) a0 a1 a2 a3 a4 a5 a6 a7 a8 a9 a10 a11 a12 a13 a14 a15 a16 a17 a18 a19 a20 a21 a22 a23
      = fun _ => 1#1) :
    (∀ r : Fin 100000, 0 ≤ (a6 (ix1 r)).toInt ∧ (a6 (ix1 r)).toInt < 100)
      ∧ (∀ r : Fin 100000, 0 ≤ (a7 (ix1 r)).toInt ∧ (a7 (ix1 r)).toInt < 500) := by
  have h0 := congrFun h ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at h0
  dsimp only at h0
  obtain ⟨h12, h3⟩ := IntOp.andi_eq_one.1 h0
  obtain ⟨-, h2⟩ := IntOp.andi_eq_one.1 h12
  clear h0 h12 h
  have b100 : (100#32 : BitVec 32).toInt = 100 := by decide
  have b500 : (500#32 : BitVec 32).toInt = 500 := by decide
  refine ⟨fun r => ?_, fun r => ?_⟩
  · have e := Host.reduce_andi_all _ _ _ _ _ h2 (ix1 r)
    have g := range_of_pair a6 _ (100#32) (ix1 r) e
    rw [b100] at g
    exact g
  · have e := Host.reduce_andi_all _ _ _ _ _ h3 (ix1 r)
    have g := range_of_pair a7 _ (500#32) (ix1 r) e
    rw [b500] at g
    exact g

end Cert.PreRanges

end
-- ==== Proof.lean ====
/-
  The certificate of the two-tower recommender.

  The kernel's program computes the item vectors in one gridded region (the item tower, 1000 items a point), the pooled
  histories on the host (each user's mean of the item vectors of its events), and the user vectors in a second region (the
  user tower, 2000 users a point). The reference computes the same three things with whole-array host operations. At the
  ideal values the two agree: the towers are the same row functions (the kernel's first layers are sums of one product per
  feature block where the reference multiplies the concatenated features once; the kernel fetches a brand or size row by
  a product with a zero-one row where the reference indexes the table — the same row for an index inside the table, which
  the precondition grants), the roundings to bfloat16 before the kernel's products are the identity, and the pooled
  histories are one and the same chain of host operations applied to equal item vectors. Nothing here needs the inputs
  finite. The three frames are the generated ones; the kernel's run is the frame's launch read once more at the two
  results; the ledger of the idealization is empty.
-/
import proofs.«404036_j22144851378180_1_alg».proof.Defs
import proofs.«404036_j22144851378180_1_alg».proof.Proof.Gen.Kernel
import proofs.«404036_j22144851378180_1_alg».proof.Proof.Gen.Kernel.Skeleton
import proofs.«404036_j22144851378180_1_alg».proof.Proof.Gen.Kernel.Launch
import proofs.«404036_j22144851378180_1_alg».proof.Proof.Gen.Kernel.Points
import proofs.«404036_j22144851378180_1_alg».proof.Proof.Gen.Kernel.Frame
import proofs.«404036_j22144851378180_1_alg».proof.Proof.Gen.KernelIdeal
import proofs.«404036_j22144851378180_1_alg».proof.Proof.Gen.KernelIdeal.Skeleton
import proofs.«404036_j22144851378180_1_alg».proof.Proof.Gen.KernelIdeal.Launch
import proofs.«404036_j22144851378180_1_alg».proof.Proof.Gen.KernelIdeal.Points
import proofs.«404036_j22144851378180_1_alg».proof.Proof.Gen.KernelIdeal.Frame
import proofs.«404036_j22144851378180_1_alg».proof.Proof.Gen.ReferenceIdeal
import proofs.«404036_j22144851378180_1_alg».proof.Proof.Gen.Pre_finite_inputs
import proofs.«404036_j22144851378180_1_alg».proof.Proof.RefRun
import proofs.«404036_j22144851378180_1_alg».proof.Proof.RefRead
import proofs.«404036_j22144851378180_1_alg».proof.Proof.Tower
import proofs.«404036_j22144851378180_1_alg».proof.Proof.KRun
import proofs.«404036_j22144851378180_1_alg».proof.Proof.KValue
import proofs.«404036_j22144851378180_1_alg».proof.Proof.RItem
import proofs.«404036_j22144851378180_1_alg».proof.Proof.RUser
import proofs.«404036_j22144851378180_1_alg».proof.Proof.PoolAgree
import proofs.«404036_j22144851378180_1_alg».proof.Proof.PreRanges
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end at the user tower of the pooled histories of the item tower, and at the item tower. -/
theorem algebraic : Cert.algebraic_KernelIdeal_ReferenceIdeal := by
  intro m ρ m' ρ' hpre hagree
  have hr := fun c => Cert.PreRanges.ranges_of_pre _ _ _ _ _ _ _ _ _ _ _ _ _ _ _ _ _ _ _ _ _ _ _ _ (hpre c)
  have hb : ∀ (c : Dev Cert.KernelIdeal.nD) (r : Fin 100000), 0 ≤ ((m ((c.tc : Thread Cert.KernelIdeal.nD Cert.KernelIdeal.τ).loc Cert.KernelIdeal.main_arg6)) (ValueIdx.ix1 r)).toInt ∧ ((m ((c.tc : Thread Cert.KernelIdeal.nD Cert.KernelIdeal.τ).loc Cert.KernelIdeal.main_arg6)) (ValueIdx.ix1 r)).toInt < 100 :=
    fun c r => (hr c).1 r
  have hs : ∀ (c : Dev Cert.KernelIdeal.nD) (r : Fin 100000), 0 ≤ ((m ((c.tc : Thread Cert.KernelIdeal.nD Cert.KernelIdeal.τ).loc Cert.KernelIdeal.main_arg7)) (ValueIdx.ix1 r)).toInt ∧ ((m ((c.tc : Thread Cert.KernelIdeal.nD Cert.KernelIdeal.τ).loc Cert.KernelIdeal.main_arg7)) (ValueIdx.ix1 r)).toInt < 500 :=
    fun c r => (hr c).2 r
  refine ⟨fun c => Cert.Tower.userVec (m ((c.tc : Thread Cert.KernelIdeal.nD Cert.KernelIdeal.τ).loc Cert.KernelIdeal.main_arg0))
      (Cert.KernelIdeal.KValue.poolK (Cert.KernelIdeal.KValue.items m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    fun c => Cert.KernelIdeal.KValue.items m c, ?_, ?_⟩
  · exact (θ_run Cert.KernelIdeal.defs _ _).mono
      (fun r h c => ⟨(h c).1.trans (Cert.KernelIdeal.KValue.user_result m ρ hb hs c),
        (h c).2.1.trans (Cert.KernelIdeal.KValue.item_result m ρ hb hs c), (h c).2.2⟩)
      (Cert.KernelIdeal.Run.run_values (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14, a15, a16, a17, a18, a19, a20, a21, a22, a23⟩ := hagree c
      rw [Cert.ReferenceIdeal.Read.val_main_v86_eq, a0, a1, a2, a3, a4, a5, a6, a7, a8, a9, a10, a11, a12, a13, a14, a15, a16, a17, a18, a19, a20, a21, a22, a23,
        Cert.ReferenceIdeal.UserRef.user_eq, Cert.ReferenceIdeal.UserRef.pool_eq,
        Cert.ReferenceIdeal.ItemRef.item_eq _ _ _ _ _ _ _ _ _ _ _ _ _ _ _ (hb c) (hs c), Cert.Proof.Pool.pool_agree]
      rfl
    · obtain ⟨a0, a1, a2, a3, a4, a5, a6, a7, a8, a9, a10, a11, a12, a13, a14, a15, a16, a17, a18, a19, a20, a21, a22, a23⟩ := hagree c
      rw [Cert.ReferenceIdeal.Read.val_main_v41_eq, a1, a2, a3, a4, a5, a6, a7, a10, a11, a12, a13, a14, a15, a16, a17,
        Cert.ReferenceIdeal.ItemRef.item_eq _ _ _ _ _ _ _ _ _ _ _ _ _ _ _ (hb c) (hs c)]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
